-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x226 : Shape := ⟨2, ![100000, 226]⟩
abbrev S2x1600000 : Shape := ⟨2, ![2, 1600000]⟩
abbrev S100000 : Shape := ⟨1, ![100000]⟩
abbrev S226x128 : Shape := ⟨2, ![226, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S100000x226 : S_.BroadcastsInDim S100000x226 (![] : Fin 0 → Fin S100000x226.rank)
  reducesTo_S100000x226_S_d0_1 : S100000x226.ReducesTo [0, 1] S_
  h_S_ : 0 < S_.numel
  bcast_S_S226x128 : S_.BroadcastsInDim S226x128 (![] : Fin 0 → Fin S226x128.rank)
  reducesTo_S226x128_S_d0_1 : S226x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S128x1 .f32) (main_arg10 : FVec F S1 .f32) (main_v33 : IVec S_ 1) : IVec S_ 1 :=
  let main_v34 : FVec F S128x1 .f32 := Host.absf main_arg9
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x1 .f32) (main_arg10 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x226 .f32) (main_arg1 : IVec S2x1600000 32) (main_arg2 : IVec S100000 32) (main_arg3 : FVec F S226x128 .f32) (main_arg4 : FVec F S128 .f32) (main_arg5 : FVec F S128x128 .f32) (main_arg6 : FVec F S128 .f32) (main_arg7 : FVec F S128x128 .f32) (main_arg8 : FVec F S128 .f32) (main_arg9 : FVec F S128x1 .f32) (main_arg10 : FVec F S1 .f32) : IVec S_ 1 :=
  let main_v0 : FVec F S100000x226 .f32 := Host.absf main_arg0
  let main_cst : FVec F S_ .f32 := constant S_ .f32 0x7F800000#32
  let main_v1 : FVec F S100000x226 .f32 := broadcastInDim S100000x226 ![] bcast_S_S100000x226 main_cst
  let main_v2 : IVec S100000x226 1 := cmpf .olt main_v0 main_v1
  let main_c : IVec S_ 1 := constantI S_ 1 1#1
  let main_v3 : IVec S_ 1 := (fun x v => Host.reduce IntOp.andi x v reducesTo_S100000x226_S_d0_1 h_S_) main_v2 main_c
  let main_v4 : FVec F S226x128 .f32 := Host.absf main_arg3
  let main_cst_0 : FVec F S_ .f32 := constant S_ .f32 0x7F800000#32
  let main_v5 : FVec F S226x128 .f32 := broadcastInDim S226x128 ![] bcast_S_S226x128 main_cst_0
  let main_v6 : IVec S226x128 1 := cmpf .olt main_v4 main_v5
  let main_c_1 : IVec S_ 1 := constantI S_ 1 1#1
  let main_v7 : IVec S_ 1 := (fun x v => Host.reduce IntOp.andi x v reducesTo_S226x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x226 : Shape := ⟨2, ![100000, 226]⟩
abbrev S2x1600000 : Shape := ⟨2, ![2, 1600000]⟩
abbrev S100000 : Shape := ⟨1, ![100000]⟩
abbrev S226x128 : Shape := ⟨2, ![226, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x226 : Shape := ⟨2, ![5000, 226]⟩
abbrev S5000x128 : Shape := ⟨2, ![5000, 128]⟩
abbrev S1700000x128 : Shape := ⟨2, ![1700000, 128]⟩
abbrev S1x128 : Shape := ⟨2, ![1, 128]⟩
abbrev S100000x1 : Shape := ⟨2, ![100000, 1]⟩
abbrev S512x128 : Shape := ⟨2, ![512, 128]⟩
abbrev S5000x1 : Shape := ⟨2, ![5000, 1]⟩
abbrev S1x512 : Shape := ⟨2, ![1, 512]⟩
abbrev S5000x512 : Shape := ⟨2, ![5000, 512]⟩
abbrev S512 : Shape := ⟨1, ![512]⟩
abbrev S512x1 : Shape := ⟨2, ![512, 1]⟩
abbrev S1x1 : Shape := ⟨2, ![1, 1]⟩

abbrev nBuf : Space → Nat
  | .hbm => 119
  | .vmem => 36
  | .smem => 0
  | _ => 0

abbrev bufTy : (tb : Table) → Fin (tcTables nBuf tb) → BufTy
  | .hbm, ⟨0, _⟩ => ⟨S100000x226, .f32⟩
  | .hbm, ⟨1, _⟩ => ⟨S2x1600000, .i32⟩
  | .hbm, ⟨2, _⟩ => ⟨S100000, .i32⟩
  | .hbm, ⟨3, _⟩ => ⟨S226x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S100000, .i32⟩
  | .hbm, ⟨16, _⟩ => ⟨S1700000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S100000x128, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x128, .f32⟩
  | .hbm, ⟨54, _⟩ => ⟨S1700000x1, .f32⟩
  | .hbm, ⟨55, _⟩ => ⟨S1700000x128, .f32⟩
  | .hbm, ⟨56, _⟩ => ⟨S1700000x128, .f32⟩
  | .hbm, ⟨57, _⟩ => ⟨S_, .f32⟩
  | .hbm, ⟨58, _⟩ => ⟨S100000x128, .f32⟩
  | .hbm, ⟨59, _⟩ => ⟨S1700000x1, .i32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .i32⟩
  | .hbm, ⟨65, _⟩ => ⟨S1700000, .i32⟩
  | .hbm, ⟨66, _⟩ => ⟨S1700000, .i1⟩
  | .hbm, ⟨67, _⟩ => ⟨S_, .i32⟩
  | .hbm, ⟨68, _⟩ => ⟨S1700000, .i32⟩
  | .hbm, ⟨69, _⟩ => ⟨S1700000, .i32⟩
  | .hbm, ⟨70, _⟩ => ⟨S1700000, .i32⟩
  | .hbm, ⟨71, _⟩ => ⟨S1700000x1, .i32⟩
  | .hbm, ⟨72, _⟩ => ⟨S1700000x128, .f32⟩
  | .hbm, ⟨73, _⟩ => ⟨S1700000x1, .f32⟩
  | .hbm, ⟨74, _⟩ => ⟨S1700000x128, .f32⟩
  | .hbm, ⟨75, _⟩ => ⟨S1700000x128, .f32⟩
  | .hbm, ⟨76, _⟩ => ⟨S_, .f32⟩
  | .hbm, ⟨77, _⟩ => ⟨S100000x128, .f32⟩
  | .hbm, ⟨78, _⟩ => ⟨S1700000x1, .i32⟩
  | .hbm, ⟨79, _⟩ => ⟨S100000x128, .f32⟩
  | .hbm, ⟨80, _⟩ => ⟨S1x128, .f32⟩
  | .hbm, ⟨81, _⟩ => ⟨S100000x128, .f32⟩
  | .hbm, ⟨82, _⟩ => ⟨S100000x128, .f32⟩
  | .hbm, ⟨83, _⟩ => ⟨S_, .i32⟩
  | .hbm, ⟨84, _⟩ => ⟨S1700000, .i32⟩
  | .hbm, ⟨85, _⟩ => ⟨S1700000, .i1⟩
  | .hbm, ⟨86, _⟩ => ⟨S_, .i32⟩
  | .hbm, ⟨87, _⟩ => ⟨S1700000, .i32⟩
  | .hbm, ⟨88, _⟩ => ⟨S1700000, .i32⟩
  | .hbm, ⟨89, _⟩ => ⟨S1700000, .i32⟩
  | .hbm, ⟨90, _⟩ => ⟨S1700000x1, .i32⟩
  | .hbm, ⟨91, _⟩ => ⟨S1700000x128, .f32⟩
  | .hbm, ⟨92, _⟩ => ⟨S1700000x1, .f32⟩
  | .hbm, ⟨93, _⟩ => ⟨S1700000x128, .f32⟩
  | .hbm, ⟨94, _⟩ => ⟨S1700000x128, .f32⟩
  | .hbm, ⟨95, _⟩ => ⟨S_, .f32⟩
  | .hbm, ⟨96, _⟩ => ⟨S100000x128, .f32⟩
  | .hbm, ⟨97, _⟩ => ⟨S1700000x1, .i32⟩
  | .hbm, ⟨98, _⟩ => ⟨S100000x128, .f32⟩
  | .hbm, ⟨99, _⟩ => ⟨S1x128, .f32⟩
  | .hbm, ⟨100, _⟩ => ⟨S100000x128, .f32⟩
  | .hbm, ⟨101, _⟩ => ⟨S100000x1, .i32⟩
  | .hbm, ⟨102, _⟩ => ⟨S512x128, .f32⟩
  | .hbm, ⟨103, _⟩ => ⟨S_, .f32⟩
  | .hbm, ⟨104, _⟩ => ⟨S100000, .f32⟩
  | .hbm, ⟨105, _⟩ => ⟨S_, .f32⟩
  | .hbm, ⟨106, _⟩ => ⟨S512, .f32⟩
  | .hbm, ⟨107, _⟩ => ⟨S100000x1, .i32⟩
  | .hbm, ⟨108, _⟩ => ⟨S512, .f32⟩
  | .hbm, ⟨109, _⟩ => ⟨S_, .f32⟩
  | .hbm, ⟨110, _⟩ => ⟨S512, .f32⟩
  | .hbm, ⟨111, _⟩ => ⟨S512, .f32⟩
  | .hbm, ⟨112, _⟩ => ⟨S512x1, .f32⟩
  | .hbm, ⟨113, _⟩ => ⟨S512x128, .f32⟩
  | .hbm, ⟨114, _⟩ => ⟨S512x128, .f32⟩
  | .hbm, ⟨115, _⟩ => ⟨S512x1, .f32⟩
  | .hbm, ⟨116, _⟩ => ⟨S1x1, .f32⟩
  | .hbm, ⟨117, _⟩ => ⟨S512x1, .f32⟩
  | .hbm, ⟨118, _⟩ => ⟨S512x1, .f32⟩
  | .local _ .vmem, ⟨0, _⟩ => ⟨S5000x226, .f32⟩
  | .local _ .vmem, ⟨1, _⟩ => ⟨S5000x226, .f32⟩
  | .local _ .vmem, ⟨2, _⟩ => ⟨S226x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x1, .i32⟩
  | .local _ .vmem, ⟨33, _⟩ => ⟨S5000x1, .i32⟩
  | .local _ .vmem, ⟨34, _⟩ => ⟨S512x128, .f32⟩
  | .local _ .vmem, ⟨35, _⟩ => ⟨S512x128, .f32⟩
  | _, _ => ⟨S100000x226, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_7 : Ref sig .tc := ⟨.hbm, 64, rfl⟩
abbrev main_v44 : Ref sig .tc := ⟨.hbm, 65, rfl⟩
abbrev main_v45 : Ref sig .tc := ⟨.hbm, 66, rfl⟩
abbrev main_c_8 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_9 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_c_10 : Ref sig .tc := ⟨.hbm, 83, rfl⟩
abbrev main_v60 : Ref sig .tc := ⟨.hbm, 84, rfl⟩
abbrev main_v61 : Ref sig .tc := ⟨.hbm, 85, rfl⟩
abbrev main_c_11 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_12 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_13 : Ref sig .tc := ⟨.hbm, 103, rfl⟩
abbrev main_v77 : Ref sig .tc := ⟨.hbm, 104, rfl⟩
abbrev main_cst_14 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_15 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg1_1 : Ref sig .tc := ⟨.vmem, 33, rfl⟩
abbrev cc6_stg2_0 : Ref sig .tc := ⟨.vmem, 34, rfl⟩
abbrev cc6_scratch0 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem1_1 : DmaSem sig := 33
abbrev cc6_sem2_0 : DmaSem sig := 34

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x226 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S226x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S512x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x226_S5000x226_0_0 : ∀ a, (![0, 0] : Fin 2 → Nat) a + S5000x226.size a ≤ S5000x226.size a
  h_S5000x226 : 0 < S5000x226.numel
  bitsLt_bf16_f32 : FTy.bits .bf16 < FTy.bits .f32
  inb_S226x128_S226x128_0_0 : ∀ a, (![0, 0] : Fin 2 → Nat) a + S226x128.size a ≤ S226x128.size a
  h_S226x128 : 0 < S226x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  shapeCasts_S100000_S100000x1 : S100000.ShapeCasts S100000x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S1x512_d1_w32 : S1x512.Iotas .tc 32 [1]
  broadcasts_S5000x1_S5000x512 : S5000x1.Broadcasts S5000x512
  broadcasts_S1x512_S5000x512 : S1x512.Broadcasts S5000x512
  natLt_1_32 : 1 < 32
  bcast_S_S512 : S_.BroadcastsInDim S512 (![] : Fin 0 → Fin S512.rank)
  bcast_S100000_S100000x1_0 : S100000.BroadcastsInDim S100000x1 (![0] : Fin 1 → Fin S100000x1.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x226_S226x128_S5000x128_1_0_0_1_n_n_wf : DotDims.WF S5000x226 S226x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  dot_S5000x512_S5000x128_S512x128_0_0_1_1_n_n_wf : DotDims.WF S5000x512 S5000x128 S512x128 [0] [0] [1] [1] [] []
  scatter_S512_S100000x1_S100000_n_0_0_1_wf : ScatterDims.WF S512 S100000x1 S100000 [] [0] [0] 1
  dot_S512x128_S128x1_S512x1_1_0_0_1_n_n_wf : DotDims.WF S512x128 S128x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x226.size a ≤ S100000x226.size a
  hwx0_0 : ∀ i : grid0.Coords, EltTy.bits .f32 = 32 ∨ (Rect.block (s := S100000x226) S5000x226.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S226x128.size a ≤ S226x128.size a
  hwx0_1 : ∀ i : grid0.Coords, EltTy.bits .f32 = 32 ∨ (Rect.block (s := S226x128) S226x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S100000x1.size a
  hwx6_1 : ∀ i : grid6.Coords, EltTy.bits .i32 = 32 ∨ (Rect.block (s := S100000x1) S5000x1.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S512x128.size a ≤ S512x128.size a
  hwx6_2 : ∀ i : grid6.Coords, EltTy.bits .f32 = 32 ∨ (Rect.block (s := S512x128) S512x128.size (cc6_transform_2 i) (hinb6_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x226_S226x128_S5000x128_1_0_0_1_n_n : DotDims S5000x226 S226x128 S5000x128 where
  lhsContracting := [1]
  rhsContracting := [0]
  lhsNonContracting := [0]
  rhsNonContracting := [1]
  lhsBatch := []
  rhsBatch := []
  wf := dot_S5000x226_S226x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x512_S5000x128_S512x128_0_0_1_1_n_n : DotDims S5000x512 S5000x128 S512x128 where
  lhsContracting := [0]
  rhsContracting := [0]
  lhsNonContracting := [1]
  rhsNonContracting := [1]
  lhsBatch := []
  rhsBatch := []
  wf := dot_S5000x512_S5000x128_S512x128_0_0_1_1_n_n_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

abbrev win0_0 : Pipeline.Window sig grid0 :=
  Pipeline.Window.ofSpec (Memref.whole main_arg0) S5000x226.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S226x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v58) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v59) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v72) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v73) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v74) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v74) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v75) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v76) S512x128.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S100000x226 : Shape := ⟨2, ![100000, 226]⟩
abbrev S2x1600000 : Shape := ⟨2, ![2, 1600000]⟩
abbrev S100000 : Shape := ⟨1, ![100000]⟩
abbrev S226x128 : Shape := ⟨2, ![226, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S1x1 : Shape := ⟨2, ![1, 1]⟩

abbrev nBuf : Space → Nat
  | .hbm => 191
  | .vmem => 0
  | .smem => 0
  | _ => 0

abbrev hbmTy0_0 (i : Nat) : BufTy := match i % 128 with
  | 0 => ⟨S100000x226, .f32⟩
  | 1 => ⟨S2x1600000, .i32⟩
  | 2 => ⟨S100000, .i32⟩
  | 3 => ⟨S226x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x1, .f32⟩
  | 10 => ⟨S1, .f32⟩
  | 11 => ⟨S1x1600000, .i32⟩
  | 12 => ⟨S1600000, .i32⟩
  | 13 => ⟨S1x1600000, .i32⟩
  | 14 => ⟨S1600000, .i32⟩
  | 15 => ⟨S100000, .i32⟩
  | 16 => ⟨S1700000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S100000, .f32⟩
  | 25 => ⟨S_, .i32⟩
  | 26 => ⟨S1700000, .i32⟩
  | 27 => ⟨S1700000, .i1⟩
  | 28 => ⟨S_, .i32⟩
  | 29 => ⟨S1700000, .i32⟩
  | 30 => ⟨S1700000, .i32⟩
  | 31 => ⟨S1700000, .i32⟩
  | 32 => ⟨S1700000x1, .i32⟩
  | 33 => ⟨S1700000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S1700000, .f32⟩
  | 44 => ⟨S100000x128, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000x128, .f32⟩
  | 54 => ⟨S1700000x1, .f32⟩
  | 55 => ⟨S1700000x128, .f32⟩
  | 56 => ⟨S1700000x128, .f32⟩
  | 57 => ⟨S_, .f32⟩
  | 58 => ⟨S100000x128, .f32⟩
  | 59 => ⟨S1700000x1, .i32⟩
  | 60 => ⟨S100000x128, .f32⟩
  | 61 => ⟨S1x128, .f32⟩
  | 62 => ⟨S100000x128, .f32⟩
  | 63 => ⟨S100000x128, .f32⟩
  | 64 => ⟨S_, .f32⟩
  | 65 => ⟨S100000x128, .f32⟩
  | 66 => ⟨S100000x128, .f32⟩
  | 67 => ⟨S100000, .i32⟩
  | 68 => ⟨S1700000, .i32⟩
  | 69 => ⟨S1700000, .i32⟩
  | 70 => ⟨S_, .f32⟩
  | 71 => ⟨S1700000, .f32⟩
  | 72 => ⟨S_, .f32⟩
  | 73 => ⟨S100000, .f32⟩
  | 74 => ⟨S1700000x1, .i32⟩
  | 75 => ⟨S100000, .f32⟩
  | 76 => ⟨S100000, .f32⟩
  | 77 => ⟨S_, .i32⟩
  | 78 => ⟨S1700000, .i32⟩
  | 79 => ⟨S1700000, .i1⟩
  | 80 => ⟨S_, .i32⟩
  | 81 => ⟨S1700000, .i32⟩
  | 82 => ⟨S1700000, .i32⟩
  | 83 => ⟨S1700000, .i32⟩
  | 84 => ⟨S1700000x1, .i32⟩
  | 85 => ⟨S1700000, .f32⟩
  | 86 => ⟨S_, .i32⟩
  | 87 => ⟨S1700000, .i32⟩
  | 88 => ⟨S1700000, .i1⟩
  | 89 => ⟨S_, .i32⟩
  | 90 => ⟨S1700000, .i32⟩
  | 91 => ⟨S1700000, .i32⟩
  | 92 => ⟨S1700000, .i32⟩
  | 93 => ⟨S1700000x1, .i32⟩
  | 94 => ⟨S1700000, .f32⟩
  | 95 => ⟨S1700000, .f32⟩
  | 96 => ⟨S100000x128, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S1700000x128, .f32⟩
  | 106 => ⟨S1700000x1, .f32⟩
  | 107 => ⟨S1700000x128, .f32⟩
  | 108 => ⟨S1700000x128, .f32⟩
  | 109 => ⟨S_, .f32⟩
  | 110 => ⟨S100000x128, .f32⟩
  | 111 => ⟨S1700000x1, .i32⟩
  | 112 => ⟨S100000x128, .f32⟩
  | 113 => ⟨S1x128, .f32⟩
  | 114 => ⟨S100000x128, .f32⟩
  | 115 => ⟨S100000x128, .f32⟩
  | 116 => ⟨S_, .f32⟩
  | 117 => ⟨S100000x128, .f32⟩
  | 118 => ⟨S100000x128, .f32⟩
  | 119 => ⟨S100000, .i32⟩
  | 120 => ⟨S1700000, .i32⟩
  | 121 => ⟨S1700000, .i32⟩
  | 122 => ⟨S_, .f32⟩
  | 123 => ⟨S1700000, .f32⟩
  | 124 => ⟨S_, .f32⟩
  | 125 => ⟨S100000, .f32⟩
  | 126 => ⟨S1700000x1, .i32⟩
  | 127 => ⟨S100000, .f32⟩
  | _ => ⟨S100000x226, .f32⟩

abbrev hbmTy0_1 (i : Nat) : BufTy := match i % 128 with
  | 0 => ⟨S100000, .f32⟩
  | 1 => ⟨S_, .i32⟩
  | 2 => ⟨S1700000, .i32⟩
  | 3 => ⟨S1700000, .i1⟩
  | 4 => ⟨S_, .i32⟩
  | 5 => ⟨S1700000, .i32⟩
  | 6 => ⟨S1700000, .i32⟩
  | 7 => ⟨S1700000, .i32⟩
  | 8 => ⟨S1700000x1, .i32⟩
  | 9 => ⟨S1700000, .f32⟩
  | 10 => ⟨S_, .i32⟩
  | 11 => ⟨S1700000, .i32⟩
  | 12 => ⟨S1700000, .i1⟩
  | 13 => ⟨S_, .i32⟩
  | 14 => ⟨S1700000, .i32⟩
  | 15 => ⟨S1700000, .i32⟩
  | 16 => ⟨S1700000, .i32⟩
  | 17 => ⟨S1700000x1, .i32⟩
  | 18 => ⟨S1700000, .f32⟩
  | 19 => ⟨S1700000, .f32⟩
  | 20 => ⟨S100000x128, .f32⟩
  | 21 => ⟨S_, .i32⟩
  | 22 => ⟨S1700000, .i32⟩
  | 23 => ⟨S1700000, .i1⟩
  | 24 => ⟨S_, .i32⟩
  | 25 => ⟨S1700000, .i32⟩
  | 26 => ⟨S1700000, .i32⟩
  | 27 => ⟨S1700000, .i32⟩
  | 28 => ⟨S1700000x1, .i32⟩
  | 29 => ⟨S1700000x128, .f32⟩
  | 30 => ⟨S1700000x1, .f32⟩
  | 31 => ⟨S1700000x128, .f32⟩
  | 32 => ⟨S1700000x128, .f32⟩
  | 33 => ⟨S_, .f32⟩
  | 34 => ⟨S100000x128, .f32⟩
  | 35 => ⟨S1700000x1, .i32⟩
  | 36 => ⟨S100000x128, .f32⟩
  | 37 => ⟨S1x128, .f32⟩
  | 38 => ⟨S100000x128, .f32⟩
  | 39 => ⟨S100000x128, .f32⟩
  | 40 => ⟨S_, .f32⟩
  | 41 => ⟨S100000x128, .f32⟩
  | 42 => ⟨S100000x128, .f32⟩
  | 43 => ⟨S_, .f32⟩
  | 44 => ⟨S512x128, .f32⟩
  | 45 => ⟨S100000x1, .i32⟩
  | 46 => ⟨S512x128, .f32⟩
  | 47 => ⟨S_, .f32⟩
  | 48 => ⟨S100000, .f32⟩
  | 49 => ⟨S_, .f32⟩
  | 50 => ⟨S512, .f32⟩
  | 51 => ⟨S100000x1, .i32⟩
  | 52 => ⟨S512, .f32⟩
  | 53 => ⟨S_, .f32⟩
  | 54 => ⟨S512, .f32⟩
  | 55 => ⟨S512, .f32⟩
  | 56 => ⟨S512x1, .f32⟩
  | 57 => ⟨S512x128, .f32⟩
  | 58 => ⟨S512x128, .f32⟩
  | 59 => ⟨S512x1, .f32⟩
  | 60 => ⟨S1x1, .f32⟩
  | 61 => ⟨S512x1, .f32⟩
  | 62 => ⟨S512x1, .f32⟩
  | _ => ⟨S100000x226, .f32⟩

abbrev hbmTy (i : Nat) : BufTy := match i / 128 with
  | 0 => hbmTy0_0 i
  | 1 => hbmTy0_1 i
  | _ => ⟨S100000x226, .f32⟩

abbrev bufTy : (tb : Table) → Fin (tcTables nBuf tb) → BufTy
  | .hbm, ⟨i, _⟩ => hbmTy i
  | _, _ => ⟨S100000x226, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_call0_cst : Ref sig .tc := ⟨.hbm, 64, rfl⟩
abbrev main_call0_v0 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_7 : Ref sig .tc := ⟨.hbm, 70, rfl⟩
abbrev main_v48 : Ref sig .tc := ⟨.hbm, 71, rfl⟩
abbrev main_cst_8 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_9 : Ref sig .tc := ⟨.hbm, 77, rfl⟩
abbrev main_v53 : Ref sig .tc := ⟨.hbm, 78, rfl⟩
abbrev main_v54 : Ref sig .tc := ⟨.hbm, 79, rfl⟩
abbrev main_c_10 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_c_11 : Ref sig .tc := ⟨.hbm, 86, rfl⟩
abbrev main_v60 : Ref sig .tc := ⟨.hbm, 87, rfl⟩
abbrev main_v61 : Ref sig .tc := ⟨.hbm, 88, rfl⟩
abbrev main_c_12 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_c_13 : Ref sig .tc := ⟨.hbm, 97, rfl⟩
abbrev main_v69 : Ref sig .tc := ⟨.hbm, 98, rfl⟩
abbrev main_v70 : Ref sig .tc := ⟨.hbm, 99, rfl⟩
abbrev main_c_14 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_15 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_call1_cst : Ref sig .tc := ⟨.hbm, 116, rfl⟩
abbrev main_call1_v0 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_16 : Ref sig .tc := ⟨.hbm, 122, rfl⟩
abbrev main_v89 : Ref sig .tc := ⟨.hbm, 123, rfl⟩
abbrev main_cst_17 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_c_18 : Ref sig .tc := ⟨.hbm, 129, rfl⟩
abbrev main_v94 : Ref sig .tc := ⟨.hbm, 130, rfl⟩
abbrev main_v95 : Ref sig .tc := ⟨.hbm, 131, rfl⟩
abbrev main_c_19 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_c_20 : Ref sig .tc := ⟨.hbm, 138, rfl⟩
abbrev main_v101 : Ref sig .tc := ⟨.hbm, 139, rfl⟩
abbrev main_v102 : Ref sig .tc := ⟨.hbm, 140, rfl⟩
abbrev main_c_21 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_c_22 : Ref sig .tc := ⟨.hbm, 149, rfl⟩
abbrev main_v110 : Ref sig .tc := ⟨.hbm, 150, rfl⟩
abbrev main_v111 : Ref sig .tc := ⟨.hbm, 151, rfl⟩
abbrev main_c_23 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_cst_24 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_call2_cst : Ref sig .tc := ⟨.hbm, 168, rfl⟩
abbrev main_call2_v0 : Ref sig .tc := ⟨.hbm, 169, rfl⟩
abbrev main_v126 : Ref sig .tc := ⟨.hbm, 170, rfl⟩
abbrev main_cst_25 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_cst_26 : Ref sig .tc := ⟨.hbm, 175, rfl⟩
abbrev main_v130 : Ref sig .tc := ⟨.hbm, 176, rfl⟩
abbrev main_cst_27 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_cst_28 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512x128 : S_.BroadcastsInDim S512x128 (![] : Fin 0 → Fin S512x128.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x226_S226x128_S100000x128_1_0_0_1_n_n_wf : DotDims.WF S100000x226 S226x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x1_S512x1_1_0_0_1_n_n_wf : DotDims.WF S512x128 S128x1 S512x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x226_S226x128_S100000x128_1_0_0_1_n_n : DotDims S100000x226 S226x128 S100000x128 where
  lhsContracting := [1]
  rhsContracting := [0]
  lhsNonContracting := [0]
  rhsNonContracting := [1]
  lhsBatch := []
  rhsBatch := []
  wf := dot_S100000x226_S226x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

class Facts : Prop extends Facts₀ where

variable [Facts]
-- ==== Proof.K.Reg0.lean ====
/- Region 0 of @main: the first linear layer, one row tile of 5000 rows per grid point.
   At a grid point the body reads the tile of the node features (window 0) and the whole weight
   matrix (window 1), and stores their product over the whole output tile (window 2). Stated at
   any contents `V` of the unscoped buffers at the region's entry: what each window's staging
   buffer holds after the body, the body's triple, and the pipeline's body obligation with the
   invariant "the scoped rest and the generator register, untouched". -/
import proofs.«401414_j12292196401223_1_alg».proof.Proof.Gen.Kernel.Launch
import proofs.«401414_j12292196401223_1_alg».proof.Proof.Gen.Kernel.Skeleton
import proofs.«401414_j12292196401223_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature tile is in its staging buffer at every point: the window is fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix is in its staging buffer at every point: fetched at the first point, and its
    block index never moves afterwards. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev r0_0 : Rect S5000x226 := Rect.unit (s := S5000x226) ![0, 0] S5000x226.size inb_S5000x226_S5000x226_0_0
abbrev r0_1 : Rect S226x128 := Rect.unit (s := S226x128) ![0, 0] S226x128.size inb_S226x128_S226x128_0_0
abbrev r0_2 : Rect S5000x128 := Rect.unit (s := S5000x128) ![0, 0] S5000x128.size inb_S5000x128_S5000x128_0_0

/-- The output tile after the body: the one store's payload, the product of the two loaded blocks. -/
def out0_2 (x0 : Vec F S5000x226 .f32) (x1 : Vec F S226x128 .f32) : Vec F S5000x128 .f32 :=
  View.canon [⟨r0_2, k0_pay1 (View.ld x0 r0_0) (View.ld x1 r0_1)⟩]

/-- The one store covers the output tile. -/
theorem cover0_2 (p0 : Vec F S5000x128 .f32) (y : S5000x128.Idx) :
    ∃ pc ∈ ([⟨r0_2, p0⟩] : List (View.Piece (Elt F) S5000x128 .f32)), y ∈ pc.1.set :=
  View.cover_of_tiled [⟨r0_2, p0⟩] S5000x128.size (by rfl) y

/-! ## The body's triple -/

set_option maxHeartbeats 1000000 in
/-- On whole staging memrefs, the inputs at contents `x0`, `x1` and the output at anything, the body
    runs to the continuation with the inputs as they were and the output at `out0_2 x0 x1`. -/
theorem sound_kernel0 (c : Dev nD) (E : Set ℕ) (i : grid0.Coords) (arg1 : Memref sig .tc .vmem S5000x226 .f32) (harg1 : arg1.IsWhole)
    (arg2 : Memref sig .tc .vmem S226x128 .f32) (harg2 : arg2.IsWhole) (arg3 : Memref sig .tc .vmem S5000x128 .f32) (harg3 : arg3.IsWhole)
    (x0 : Vec F S5000x226 .f32) (x1 : Vec F S226x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- Pipeline 0's proof data on core `c`: the arrays as the region finds them; after the body at point
    `t` each input's buffer at its block and the output's at the product of the two; the invariant is
    the scoped rest and the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' staging buffers hold their blocks, so the triple applies; the
    invariant and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
/- Region 1 of @main: bias and rectifier after the first aggregation, one row tile of 5000 rows per
   grid point. At a grid point the body reads the tile of aggregated messages (window 0) and the
   bias as one row (window 1), and stores max(tile + bias, 0) over the whole output tile (window 2).
   Stated at any contents `V` of the unscoped buffers at the region's entry. -/
import proofs.«401414_j12292196401223_1_alg».proof.Proof.Gen.Kernel.Launch
import proofs.«401414_j12292196401223_1_alg».proof.Proof.Gen.Kernel.Skeleton
import proofs.«401414_j12292196401223_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The tile of aggregated messages is in its staging buffer at every point (fetched at every point). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The bias row is in its staging buffer at every point: fetched at the first point, its block index
    constant afterwards. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its buffer -/

abbrev r1_0 : Rect S5000x128 := Rect.unit (s := S5000x128) ![0, 0] S5000x128.size inb_S5000x128_S5000x128_0_0
abbrev r1_1 : Rect S1x128 := Rect.unit (s := S1x128) ![0, 0] S1x128.size inb_S1x128_S1x128_0_0
abbrev r1_2 : Rect S5000x128 := Rect.unit (s := S5000x128) ![0, 0] S5000x128.size inb_S5000x128_S5000x128_0_0

/-- The output tile after the body: the one store's payload, max(tile + bias row, 0). -/
def out1_2 (x0 : Vec F S5000x128 .f32) (x1 : Vec F S1x128 .f32) : Vec F S5000x128 .f32 :=
  View.canon [⟨r1_2, k1_pay1 (View.ld x0 r1_0) (View.ld x1 r1_1)⟩]

/-- The one store covers the output tile. -/
theorem cover1_2 (p0 : Vec F S5000x128 .f32) (y : S5000x128.Idx) :
    ∃ pc ∈ ([⟨r1_2, p0⟩] : List (View.Piece (Elt F) S5000x128 .f32)), y ∈ pc.1.set :=
  View.cover_of_tiled [⟨r1_2, p0⟩] S5000x128.size (by rfl) y

/-! ## The body's triple -/

set_option maxHeartbeats 1000000 in
/-- On whole staging memrefs, the inputs at contents `x0`, `x1` and the output at anything, the body
    runs to the continuation with the inputs as they were and the output at `out1_2 x0 x1`. -/
theorem sound_kernel1 (c : Dev nD) (E : Set ℕ) (i : grid1.Coords) (arg1 : Memref sig .tc .vmem S5000x128 .f32) (harg1 : arg1.IsWhole)
    (arg2 : Memref sig .tc .vmem S1x128 .f32) (harg2 : arg2.IsWhole) (arg3 : Memref sig .tc .vmem S5000x128 .f32) (harg3 : arg3.IsWhole)
    (x0 : Vec F S5000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__bias_relu_kernel i arg1 harg1 arg2 harg2 arg3 harg3) K := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- Pipeline 1's proof data on core `c`: the arrays as the region finds them; after the body at point
    `t` each input's buffer at its block and the output's at max(tile + bias, 0); the invariant is the
    scoped rest and the generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' staging buffers hold their blocks, so the triple applies; the
    invariant and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
/- Region 2 of @main: the second linear layer, one row tile of 5000 rows per grid point.
   At a grid point the body reads the tile of activations of the first layer (window 0) and the whole weight
   matrix (window 1), and stores their product over the whole output tile (window 2). Stated at
   any contents `V` of the unscoped buffers at the region's entry: what each window's staging
   buffer holds after the body, the body's triple, and the pipeline's body obligation with the
   invariant "the scoped rest and the generator register, untouched". -/
import proofs.«401414_j12292196401223_1_alg».proof.Proof.Gen.Kernel.Launch
import proofs.«401414_j12292196401223_1_alg».proof.Proof.Gen.Kernel.Skeleton
import proofs.«401414_j12292196401223_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The activation tile is in its staging buffer at every point: the window is fetched at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight matrix is in its staging buffer at every point: fetched at the first point, and its
    block index never moves afterwards. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is the whole of its buffer -/

abbrev r2_0 : Rect S5000x128 := Rect.unit (s := S5000x128) ![0, 0] S5000x128.size inb_S5000x128_S5000x128_0_0
abbrev r2_1 : Rect S128x128 := Rect.unit (s := S128x128) ![0, 0] S128x128.size inb_S128x128_S128x128_0_0
abbrev r2_2 : Rect S5000x128 := Rect.unit (s := S5000x128) ![0, 0] S5000x128.size inb_S5000x128_S5000x128_0_0

/-- The output tile after the body: the one store's payload, the product of the two loaded blocks. -/
def out2_2 (x0 : Vec F S5000x128 .f32) (x1 : Vec F S128x128 .f32) : Vec F S5000x128 .f32 :=
  View.canon [⟨r2_2, k2_pay1 (View.ld x0 r2_0) (View.ld x1 r2_1)⟩]

/-- The one store covers the output tile. -/
theorem cover2_2 (p0 : Vec F S5000x128 .f32) (y : S5000x128.Idx) :
    ∃ pc ∈ ([⟨r2_2, p0⟩] : List (View.Piece (Elt F) S5000x128 .f32)), y ∈ pc.1.set :=
  View.cover_of_tiled [⟨r2_2, p0⟩] S5000x128.size (by rfl) y

/-! ## The body's triple -/

set_option maxHeartbeats 1000000 in
/-- On whole staging memrefs, the inputs at contents `x0`, `x1` and the output at anything, the body
    runs to the continuation with the inputs as they were and the output at `out2_2 x0 x1`. -/
theorem sound_kernel2 (c : Dev nD) (E : Set ℕ) (i : grid2.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- Pipeline 2's proof data on core `c`: the arrays as the region finds them; after the body at point
    `t` each input's buffer at its block and the output's at the product of the two; the invariant is
    the scoped rest and the generator register; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' staging buffers hold their blocks, so the triple applies; the
    invariant and the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg3.lean ====
/- Region 3 of @main: bias and rectifier after the second aggregation, one row tile of 5000 rows per
   grid point. At a grid point the body reads the tile of aggregated messages (window 0) and the
   bias as one row (window 1), and stores max(tile + bias, 0) over the whole output tile (window 2).
   Stated at any contents `V` of the unscoped buffers at the region's entry. -/
import proofs.«401414_j12292196401223_1_alg».proof.Proof.Gen.Kernel.Launch
import proofs.«401414_j12292196401223_1_alg».proof.Proof.Gen.Kernel.Skeleton
import proofs.«401414_j12292196401223_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The tile of aggregated messages is in its staging buffer at every point (fetched at every point). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The bias row is in its staging buffer at every point: fetched at the first point, its block index
    constant afterwards. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each is the whole of its buffer -/

abbrev r3_0 : Rect S5000x128 := Rect.unit (s := S5000x128) ![0, 0] S5000x128.size inb_S5000x128_S5000x128_0_0
abbrev r3_1 : Rect S1x128 := Rect.unit (s := S1x128) ![0, 0] S1x128.size inb_S1x128_S1x128_0_0
abbrev r3_2 : Rect S5000x128 := Rect.unit (s := S5000x128) ![0, 0] S5000x128.size inb_S5000x128_S5000x128_0_0

/-- The output tile after the body: the one store's payload, max(tile + bias row, 0). -/
def out3_2 (x0 : Vec F S5000x128 .f32) (x1 : Vec F S1x128 .f32) : Vec F S5000x128 .f32 :=
  View.canon [⟨r3_2, k3_pay1 (View.ld x0 r3_0) (View.ld x1 r3_1)⟩]

/-- The one store covers the output tile. -/
theorem cover3_2 (p0 : Vec F S5000x128 .f32) (y : S5000x128.Idx) :
    ∃ pc ∈ ([⟨r3_2, p0⟩] : List (View.Piece (Elt F) S5000x128 .f32)), y ∈ pc.1.set :=
  View.cover_of_tiled [⟨r3_2, p0⟩] S5000x128.size (by rfl) y

/-! ## The body's triple -/

set_option maxHeartbeats 1000000 in
/-- On whole staging memrefs, the inputs at contents `x0`, `x1` and the output at anything, the body
    runs to the continuation with the inputs as they were and the output at `out3_2 x0 x1`. -/
theorem sound_kernel3 (c : Dev nD) (E : Set ℕ) (i : grid3.Coords) (arg1 : Memref sig .tc .vmem S5000x128 .f32) (harg1 : arg1.IsWhole)
    (arg2 : Memref sig .tc .vmem S1x128 .f32) (harg2 : arg2.IsWhole) (arg3 : Memref sig .tc .vmem S5000x128 .f32) (harg3 : arg3.IsWhole)
    (x0 : Vec F S5000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__bias_relu_kernel i arg1 harg1 arg2 harg2 arg3 harg3) K := by
  simp only [cc3__bias_relu_kernel_eq_skeleton]; unfold cc3__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- Pipeline 3's proof data on core `c`: the arrays as the region finds them; after the body at point
    `t` each input's buffer at its block and the output's at max(tile + bias, 0); the invariant is the
    scoped rest and the generator register; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' staging buffers hold their blocks, so the triple applies; the
    invariant and the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Reg4.lean ====
/- Region 4 of @main: the third linear layer, one row tile of 5000 rows per grid point.
   At a grid point the body reads the tile of activations of the second layer (window 0) and the whole weight
   matrix (window 1), and stores their product over the whole output tile (window 2). Stated at
   any contents `V` of the unscoped buffers at the region's entry: what each window's staging
   buffer holds after the body, the body's triple, and the pipeline's body obligation with the
   invariant "the scoped rest and the generator register, untouched". -/
import proofs.«401414_j12292196401223_1_alg».proof.Proof.Gen.Kernel.Launch
import proofs.«401414_j12292196401223_1_alg».proof.Proof.Gen.Kernel.Skeleton
import proofs.«401414_j12292196401223_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The activation tile is in its staging buffer at every point: the window is fetched at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The weight matrix is in its staging buffer at every point: fetched at the first point, and its
    block index never moves afterwards. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each is the whole of its buffer -/

abbrev r4_0 : Rect S5000x128 := Rect.unit (s := S5000x128) ![0, 0] S5000x128.size inb_S5000x128_S5000x128_0_0
abbrev r4_1 : Rect S128x128 := Rect.unit (s := S128x128) ![0, 0] S128x128.size inb_S128x128_S128x128_0_0
abbrev r4_2 : Rect S5000x128 := Rect.unit (s := S5000x128) ![0, 0] S5000x128.size inb_S5000x128_S5000x128_0_0

/-- The output tile after the body: the one store's payload, the product of the two loaded blocks. -/
def out4_2 (x0 : Vec F S5000x128 .f32) (x1 : Vec F S128x128 .f32) : Vec F S5000x128 .f32 :=
  View.canon [⟨r4_2, k4_pay1 (View.ld x0 r4_0) (View.ld x1 r4_1)⟩]

/-- The one store covers the output tile. -/
theorem cover4_2 (p0 : Vec F S5000x128 .f32) (y : S5000x128.Idx) :
    ∃ pc ∈ ([⟨r4_2, p0⟩] : List (View.Piece (Elt F) S5000x128 .f32)), y ∈ pc.1.set :=
  View.cover_of_tiled [⟨r4_2, p0⟩] S5000x128.size (by rfl) y

/-! ## The body's triple -/

set_option maxHeartbeats 1000000 in
/-- On whole staging memrefs, the inputs at contents `x0`, `x1` and the output at anything, the body
    runs to the continuation with the inputs as they were and the output at `out4_2 x0 x1`. -/
theorem sound_kernel4 (c : Dev nD) (E : Set ℕ) (i : grid4.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__matmul_kernel i arg1 harg1 arg2 harg2 arg3 harg3) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- Pipeline 4's proof data on core `c`: the arrays as the region finds them; after the body at point
    `t` each input's buffer at its block and the output's at the product of the two; the invariant is
    the scoped rest and the generator register; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' staging buffers hold their blocks, so the triple applies; the
    invariant and the core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Reg5.lean ====
/- Region 5 of @main: bias and rectifier after the third aggregation, one row tile of 5000 rows per
   grid point. At a grid point the body reads the tile of aggregated messages (window 0) and the
   bias as one row (window 1), and stores max(tile + bias, 0) over the whole output tile (window 2).
   Stated at any contents `V` of the unscoped buffers at the region's entry. -/
import proofs.«401414_j12292196401223_1_alg».proof.Proof.Gen.Kernel.Launch
import proofs.«401414_j12292196401223_1_alg».proof.Proof.Gen.Kernel.Skeleton
import proofs.«401414_j12292196401223_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The tile of aggregated messages is in its staging buffer at every point (fetched at every point). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The bias row is in its staging buffer at every point: fetched at the first point, its block index
    constant afterwards. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each is the whole of its buffer -/

abbrev r5_0 : Rect S5000x128 := Rect.unit (s := S5000x128) ![0, 0] S5000x128.size inb_S5000x128_S5000x128_0_0
abbrev r5_1 : Rect S1x128 := Rect.unit (s := S1x128) ![0, 0] S1x128.size inb_S1x128_S1x128_0_0
abbrev r5_2 : Rect S5000x128 := Rect.unit (s := S5000x128) ![0, 0] S5000x128.size inb_S5000x128_S5000x128_0_0

/-- The output tile after the body: the one store's payload, max(tile + bias row, 0). -/
def out5_2 (x0 : Vec F S5000x128 .f32) (x1 : Vec F S1x128 .f32) : Vec F S5000x128 .f32 :=
  View.canon [⟨r5_2, k5_pay1 (View.ld x0 r5_0) (View.ld x1 r5_1)⟩]

/-- The one store covers the output tile. -/
theorem cover5_2 (p0 : Vec F S5000x128 .f32) (y : S5000x128.Idx) :
    ∃ pc ∈ ([⟨r5_2, p0⟩] : List (View.Piece (Elt F) S5000x128 .f32)), y ∈ pc.1.set :=
  View.cover_of_tiled [⟨r5_2, p0⟩] S5000x128.size (by rfl) y

/-! ## The body's triple -/

set_option maxHeartbeats 1000000 in
/-- On whole staging memrefs, the inputs at contents `x0`, `x1` and the output at anything, the body
    runs to the continuation with the inputs as they were and the output at `out5_2 x0 x1`. -/
theorem sound_kernel5 (c : Dev nD) (E : Set ℕ) (i : grid5.Coords) (arg1 : Memref sig .tc .vmem S5000x128 .f32) (harg1 : arg1.IsWhole)
    (arg2 : Memref sig .tc .vmem S1x128 .f32) (harg2 : arg2.IsWhole) (arg3 : Memref sig .tc .vmem S5000x128 .f32) (harg3 : arg3.IsWhole)
    (x0 : Vec F S5000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5_2 x0 x1)) -∗ K ⟨⟩))
      ⊢ wp frame (wpE (defs₀ (F := F)) Variants.none c none) E (cc5__bias_relu_kernel i arg1 harg1 arg2 harg2 arg3 harg3) K := by
  simp only [cc5__bias_relu_kernel_eq_skeleton]; unfold cc5__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-! ## The pipeline's proof data -/

/-- Pipeline 5's proof data on core `c`: the arrays as the region finds them; after the body at point
    `t` each input's buffer at its block and the output's at max(tile + bias, 0); the invariant is the
    scoped rest and the generator register; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' staging buffers hold their blocks, so the triple applies; the
    invariant and the core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.Reg6.lean ====
/- Region 6 of @main: the pooling kernel, one row tile of 5000 nodes per grid point, the grid run in
   order. A scratch accumulator [512, 128] lives across the grid points: the first point clears it,
   every point adds to it the product (one-hot of the tile's graph ids)ᵀ · (the tile's activations), and
   copies it to the output block, which the pipeline writes back after the last point only.
   Stated at any contents `V` of the unscoped buffers at the region's entry: the accumulator after
   each point as a recursion over the points, the body's triple in its two cases (first point, later
   point), and the pipeline's body obligation with an invariant that carries the accumulator. -/
import proofs.«401414_j12292196401223_1_alg».proof.Proof.Gen.Kernel.Launch
import proofs.«401414_j12292196401223_1_alg».proof.Proof.Gen.Kernel.Skeleton
import proofs.«401414_j12292196401223_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The accumulator after the body at position `n`: the point's contribution added to what the point
    before left, the first point starting from the cleared accumulator. -/
def acc6 (c : Dev nD) : (n : ℕ) → n < cfg6.N → Vec F S512x128 .f32
  | 0, h => k6_pay2 (iblk6 V c 0 ⟨0, h⟩) (iblk6 V c 1 ⟨0, h⟩) (k6_pay1 (F := F))
  | n + 1, h => k6_pay2 (iblk6 V c 0 ⟨n + 1, h⟩) (iblk6 V c 1 ⟨n + 1, h⟩) (acc6 c n (Nat.lt_of_succ_lt h))

theorem acc6_zero (c : Dev nD) (h : 0 < cfg6.N) :
    acc6 V c 0 h = k6_pay2 (iblk6 V c 0 ⟨0, h⟩) (iblk6 V c 1 ⟨0, h⟩) (k6_pay1 (F := F)) := rfl
theorem acc6_succ (c : Dev nD) (n : ℕ) (h : n + 1 < cfg6.N) :
    acc6 V c (n + 1) h = k6_pay2 (iblk6 V c 0 ⟨n + 1, h⟩) (iblk6 V c 1 ⟨n + 1, h⟩) (acc6 V c n (Nat.lt_of_succ_lt h)) := rfl

/-- The kernel's scratch operand, a whole scoped buffer of its own. -/
abbrev scM6 : Memref sig .tc .vmem S512x128 .f32 := Memref.whole cc6_scratch0

/-- The region's invariant before position `n`: before the first point what the launch hands every
    kernel (the scoped rest and the generator register); afterwards the scratch at the accumulator
    the point before left, the rest of the scoped buffers, and the generator register. -/
def Phi6 (c : Dev nD) : (n : ℕ) → n ≤ cfg6.N → sProp 𝕄
  | 0, _ => Pipeline.ΦA spec6 c
  | n + 1, hn => iprop(owns (c : Thread nD τ) scM6 fullShare (acc6 V c n hn)
      ∗ Pipeline.scopedRestBut (Ix := Unit) (Name := ℕ) (U := UR sig nD τ) (Lvl := ℕ) (Val := Elt F) spec6 c [cc6_scratch0]
      ∗ (∃ r, prngReg c r))

/-! ## The pipeline's proof data -/

/-- Pipeline 6's proof data on core `c`: the arrays as the region finds them; after the body at point
    `t` each input's buffer at its block and the output's at the accumulator; the invariant carries
    the accumulator; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => acc6 V c t.val t.isLt
  Φ t := Phi6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = acc6 V c t.val t.isLt := by dsimp only [dat6]

/-! ## The body's branch: taken at the first point only -/

/-- The condition of the body's one conditional, from the grid coordinates. -/
abbrev cond6 (i : grid6.Coords) : Prop :=
  (Scalar.cmpi .ne (Scalar.extui (Scalar.cmpi .eq (BitVec.ofNat 32 (i 0).val) 0#32)) 0#32) = 1#1

/-- It holds at the first point only. -/
theorem hcond6 : ∀ t : Fin cfg6.N, cond6 (grid6.coords t) ↔ t.val % 20 = 0 :=
  (by decide +kernel : ∀ t : Fin grid6.N, cond6 (grid6.coords t) ↔ t.val % 20 = 0)

/-! ## The body's accesses: each is the whole of its buffer -/

/-- The zero offsets of a rank-2 access, as the constant function: the accumulator's shape, -/
theorem hz6_acc : (![0, 0] : Fin S512x128.rank → Nat) = fun _ => 0 := by
  funext a; fin_cases a <;> rfl
/-- the activations' tile's, -/
theorem hz6_h : (![0, 0] : Fin S5000x128.rank → Nat) = fun _ => 0 := by
  funext a; fin_cases a <;> rfl
/-- and the graph ids' tile's. -/
theorem hz6_g : (![0, 0] : Fin S5000x1.rank → Nat) = fun _ => 0 := by
  funext a; fin_cases a <;> rfl

/-- The whole of the accumulator's shape as a rectangle: what every access of the scratch and of the output goes through. -/
abbrev r6_acc : Rect S512x128 := Rect.unit (s := S512x128) ![0, 0] S512x128.size inb_S512x128_S512x128_0_0

/-- A store through the whole of the accumulator's shape, made last, covers it whatever was stored before. -/
theorem cover6 (p0 : Vec F S512x128 .f32) (L : List (View.Piece (Elt F) S512x128 .f32)) (y : S512x128.Idx) :
    ∃ pc ∈ ((⟨r6_acc, p0⟩ : View.Piece (Elt F) S512x128 .f32) :: L), y ∈ pc.1.set :=
  ⟨_, List.mem_cons_self, View.mem_set_unit_zero hz6_acc inb_S512x128_S512x128_0_0 y⟩

/-! ## The body's triple, in its two cases -/

set_option maxHeartbeats 1000000 in
/-- At the first point (the branch taken): on whole memrefs, the inputs at `x0`, `x1`, the output and the
    scratch at anything, the body runs to the continuation with the inputs as they were and the scratch
    and the output both at the point's contribution added to the cleared accumulator. -/
theorem sound_kernel6_first (c : Dev nD) (E : Set ℕ) (i : grid6.Coords) (hc : cond6 i)
    (arg1 : Memref sig .tc .vmem S5000x128 .f32) (harg1 : arg1.IsWhole)
    (arg2 : Memref sig .tc .vmem S5000x1 .i32) (harg2 : arg2.IsWhole)
    (arg3 : Memref sig .tc .vmem S512x128 .f32) (harg3 : arg3.IsWhole)
    (arg4 : Memref sig .tc .vmem S512x128 .f32) (harg4 : arg4.IsWhole)
    (x0 : Vec F S5000x128 .f32) (x1 : Vec F S5000x1 .i32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (k6_pay2 x0 x1 (k6_pay1 (F := F)))
            ∗ owns (c : Thread nD τ) arg4 fullShare (k6_pay2 x0 x1 (k6_pay1 (F := F)))) -∗ K ⟨⟩))
      ⊢ wp frame (wpE (defs₀ (F := F)) Variants.none c none) E (cc6__pool_kernel i arg1 harg1 arg2 harg2 arg3 harg3 arg4 harg4) K := by
  simp only [cc6__pool_kernel_eq_skeleton]; unfold cc6__pool_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (cover6 _ _),
      View.canon_unit_zero hz6_acc]
    simp only [View.readCov_cons_toLoadRect, View.readAt_eq_ld, View.ld_unit_zero (S := S5000x128) hz6_h, View.ld_unit_zero (S := S5000x1) hz6_g]
  · iexists _; isplitr
    swap; · iexact H3
    ipureintro
    sl_unfold_words
    rw [View.read_writes_eq_canon _ _ _ (cover6 _ _),
      View.canon_cons_unit_zero hz6_acc]
    simp only [View.readCov_cons_toLoadRect, View.readAt_eq_ld, View.ld_unit_zero (S := S5000x128) hz6_h, View.ld_unit_zero (S := S5000x1) hz6_g]

set_option maxHeartbeats 1000000 in
/-- At a later point (the branch not taken): the same with the scratch at `xs`, what the point before
    left; the scratch and the output end at the point's contribution added to `xs`. -/
theorem sound_kernel6_later (c : Dev nD) (E : Set ℕ) (i : grid6.Coords) (hc : ¬cond6 i)
    (arg1 : Memref sig .tc .vmem S5000x128 .f32) (harg1 : arg1.IsWhole)
    (arg2 : Memref sig .tc .vmem S5000x1 .i32) (harg2 : arg2.IsWhole)
    (arg3 : Memref sig .tc .vmem S512x128 .f32) (harg3 : arg3.IsWhole)
    (arg4 : Memref sig .tc .vmem S512x128 .f32) (harg4 : arg4.IsWhole)
    (x0 : Vec F S5000x128 .f32) (x1 : Vec F S5000x1 .i32) (xs : Vec F S512x128 .f32) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare xs
        ∗ (iprop(owns (c : Thread nD τ) arg1 fullShare x0 ∗ owns (c : Thread nD τ) arg2 fullShare x1
            ∗ owns (c : Thread nD τ) arg3 fullShare (k6_pay2 x0 x1 xs)
            ∗ owns (c : Thread nD τ) arg4 fullShare (k6_pay2 x0 x1 xs)) -∗ K ⟨⟩))
      ⊢ wp frame (wpE (defs₀ (F := F)) Variants.none c none) E (cc6__pool_kernel i arg1 harg1 arg2 harg2 arg3 harg3 arg4 harg4) K := by
  simp only [cc6__pool_kernel_eq_skeleton]; unfold cc6__pool_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (cover6 _ _),
      View.canon_unit_zero hz6_acc]
    simp only [View.readCov_cons_toLoadRect, View.readAt_eq_ld, View.ld_unit_zero (S := S5000x128) hz6_h, View.ld_unit_zero (S := S5000x1) hz6_g,
      View.ld_unit_zero (S := S512x128) hz6_acc]
  · iexists _; isplitr
    swap; · iexact H3
    ipureintro
    sl_unfold_words
    rw [View.read_writes_eq_canon _ _ _ (cover6 _ _),
      View.canon_unit_zero hz6_acc]
    simp only [View.readAt_eq_ld, View.ld_unit_zero (S := S5000x128) hz6_h, View.ld_unit_zero (S := S5000x1) hz6_g, View.ld_unit_zero (S := S512x128) hz6_acc]

/-! ## The invariant, point by point -/

/-- What the launch hands every kernel, with the scratch as a memref owned at some contents. -/
theorem PhiA6_eq (c : Dev nD) :
    (Pipeline.ΦA spec6 c : sProp 𝕄)
      = iprop(iprop((∃ d, owns (c : Thread nD τ) scM6 fullShare d)
            ∗ Pipeline.scopedRestBut (Ix := Unit) (Name := ℕ) (U := UR sig nD τ) (Lvl := ℕ) (Val := Elt F) spec6 c [cc6_scratch0])
          ∗ (∃ r, prngReg c r)) := by
  unfold Pipeline.ΦA; rw [scopedRest6_split]; simp only [scM6, owns_whole]; try rfl

/-- Before the first point: what the launch hands over. -/
theorem Phi6_zero (c : Dev nD) (n : ℕ) (h : n ≤ cfg6.N) (hz : n = 0) : Phi6 V c n h = Pipeline.ΦA spec6 c := by
  subst hz; rfl

/-- After point `n`: the scratch at that point's accumulator. -/
theorem Phi6_succ (c : Dev nD) (n : ℕ) (hn : n < cfg6.N) :
    Phi6 V c (n + 1) hn = iprop(owns (c : Thread nD τ) scM6 fullShare (acc6 V c n hn)
      ∗ Pipeline.scopedRestBut (Ix := Unit) (Name := ℕ) (U := UR sig nD τ) (Lvl := ℕ) (Val := Elt F) spec6 c [cc6_scratch0]
      ∗ (∃ r, prngReg c r)) := rfl

/-- Before a point that is not the first: the scratch at the accumulator the point before left. -/
theorem Phi6_pos (c : Dev nD) (n : ℕ) (h : n ≤ cfg6.N) (hz : n ≠ 0) :
    Phi6 V c n h = iprop(owns (c : Thread nD τ) scM6 fullShare (acc6 V c (n - 1) (by omega))
      ∗ Pipeline.scopedRestBut (Ix := Unit) (Name := ℕ) (U := UR sig nD τ) (Lvl := ℕ) (Val := Elt F) spec6 c [cc6_scratch0]
      ∗ (∃ r, prngReg c r)) := by
  cases n with
  | zero => exact absurd rfl hz
  | succ n => rfl

/-- The invariant at a point's start, restated at the point's position. -/
theorem Phi6_castSucc (c : Dev nD) (t : Fin cfg6.N) :
    (dat6 V c).Φ t.castSucc = Phi6 V c t.val (Nat.le_of_lt t.isLt) := by
  dsimp only [dat6]; simp only [Fin.coe_castSucc]

/-- The accumulator at a point that is not the first, over the one the point before left. -/
theorem acc6_pos (c : Dev nD) (t : Fin cfg6.N) (hz : t.val ≠ 0) :
    acc6 V c t.val t.isLt = k6_pay2 (iblk6 V c 0 t) (iblk6 V c 1 t) (acc6 V c (t.val - 1) (Nat.lt_of_le_of_lt (Nat.sub_le _ _) t.isLt)) := by
  obtain ⟨n, hn⟩ := t
  cases n with
  | zero => exact absurd rfl hz
  | succ n => rfl

/-- The accumulator at the first point. -/
theorem acc6_first (c : Dev nD) (t : Fin cfg6.N) (hz : t.val = 0) :
    acc6 V c t.val t.isLt = k6_pay2 (iblk6 V c 0 t) (iblk6 V c 1 t) (k6_pay1 (F := F)) := by
  obtain ⟨n, hn⟩ := t
  cases n with
  | zero => rfl
  | succ n => exact absurd hz (Nat.succ_ne_zero n)

/-! ## The inputs' staging buffers -/

/-- The activations' tile is in its staging buffer at every point: the window is fetched at every point. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- So is the tile of graph ids. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

set_option maxHeartbeats 1000000 in
/-- The body at any point. The inputs' staging buffers hold their blocks. At the first point the invariant
    is what the launch hands over, the scratch at anything, and the first case of the triple applies; at a
    later point the invariant holds the scratch at the accumulator the point before left, and the second
    case applies. Either way the scratch and the output's buffer end at this point's accumulator; the rest
    of the scoped buffers, the generator register and the core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl,
    show (dat6 V c).Φ t.succ = Phi6 V c (t.val + 1) t.isLt from rfl, Phi6_succ,
    after6_0, after6_1, after6_2]
  by_cases hz : t.val = 0
  · have hc : cond6 (grid6.coords t) := (hcond6 t).mpr (by rw [hz])
    rw [Phi6_castSucc V c t, Phi6_zero V c _ _ hz, PhiA6_eq, acc6_first V c t hz]
    iintro ⟨⟨⟨⟨%ds, HS⟩, HR⟩, Hg⟩, Ho, ⟨%d0, H0⟩, ⟨%d1, H1⟩, ⟨%d2, H2⟩⟩
    iapply (sound_kernel6_first c Set.univ (grid6.coords t) hc _ _ _ _ _ _ _ _ (iblk6 V c 0 t) (iblk6 V c 1 t) _)
    isplitl [H0]; · iexact H0
    isplitl [H1]; · iexact H1
    isplitl [H2]; · iexists _; iexact H2
    isplitl [HS]; · iexists _; iexact HS
    iintro ⟨H0, H1, H2, HS⟩
    isplitl [HS HR Hg]
    · isplitl [HS]; · iexact HS
      isplitl [HR]; · iexact HR
      iexact Hg
    isplitl [Ho]; · iexact Ho
    isplitl [H0]; · iexact H0
    isplitl [H1]; · iexact H1
    iexact H2
  · have hc : ¬cond6 (grid6.coords t) := fun h => hz (by
      have h20 : t.val < 20 := lt_of_lt_of_eq t.isLt (show cfg6.N = 20 from N_6)
      have := (hcond6 t).mp h; omega)
    rw [Phi6_castSucc V c t, Phi6_pos V c _ _ hz, acc6_pos V c t hz]
    iintro ⟨⟨HS, HR, Hg⟩, Ho, ⟨%d0, H0⟩, ⟨%d1, H1⟩, ⟨%d2, H2⟩⟩
    iapply (sound_kernel6_later c Set.univ (grid6.coords t) hc _ _ _ _ _ _ _ _ (iblk6 V c 0 t) (iblk6 V c 1 t) _ _)
    isplitl [H0]; · iexact H0
    isplitl [H1]; · iexact H1
    isplitl [H2]; · iexists _; iexact H2
    isplitl [HS]; · iexact HS
    iintro ⟨H0, H1, H2, HS⟩
    isplitl [HS HR Hg]
    · isplitl [HS]; · iexact HS
      isplitl [HR]; · iexact HR
      iexact Hg
    isplitl [Ho]; · iexact Ho
    isplitl [H0]; · iexact H0
    isplitl [H1]; · iexact H1
    iexact H2

/-- What the launch hands the region is the invariant before the first point. -/
theorem hin6 (c : Dev nD) : Pipeline.ΦA spec6 c ⊢ (dat6 V c).Φ 0 := by
  rw [show (dat6 V c).Φ 0 = Phi6 V c 0 (Nat.zero_le _) from rfl, Phi6_zero V c 0 _ rfl]
  try exact Idealize.SL.BI.Entails.refl _

/-- After the last point the invariant gives back what the launch handed the region: the accumulator's
    contents are forgotten. -/
theorem hout6 (c : Dev nD) : (dat6 V c).Φ (Fin.last cfg6.N) ⊢ Pipeline.ΦA spec6 c := by
  rw [show (dat6 V c).Φ (Fin.last cfg6.N) = Phi6 V c (Fin.last cfg6.N).val (Nat.le_of_lt_succ (Fin.last cfg6.N).isLt) from rfl,
    Phi6_pos V c _ _ (by rw [Fin.val_last]; have : cfg6.N = 20 := N_6; omega), PhiA6_eq]
  iintro ⟨HS, HR, Hg⟩
  isplitl [HS HR]
  · isplitl [HS]
    · iexists _; iexact HS
    iexact HR
  iexact Hg

/-- The pipeline library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.Fold.lean ====
/- The contents of core `c`'s unscoped buffers at every boundary between two items of @main — thirteen
   items: six stretches of host operations and the seven kernel regions —, as a fold from the launch
   memory: a host stretch applies its operations; a region leaves each of its windows' arrays at what
   the pipeline's write-backs leave (an input's array as entered) and every other buffer as entered.
   Each argument array is read back through the fold to its launch contents: no host operation
   writes one and every region that touches one only reads it. -/
import proofs.«401414_j12292196401223_1_alg».proof.Proof.Gen.Kernel.Regions
import proofs.«401414_j12292196401223_1_alg».proof.Proof.K.Reg0
import proofs.«401414_j12292196401223_1_alg».proof.Proof.K.Reg1
import proofs.«401414_j12292196401223_1_alg».proof.Proof.K.Reg2
import proofs.«401414_j12292196401223_1_alg».proof.Proof.K.Reg3
import proofs.«401414_j12292196401223_1_alg».proof.Proof.K.Reg4
import proofs.«401414_j12292196401223_1_alg».proof.Proof.K.Reg5
import proofs.«401414_j12292196401223_1_alg».proof.Proof.K.Reg6

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The fold -/

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At region 0's exit: its windows' arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the host stretch `hostOps1`. -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b
/-- At region 1's exit: its windows' arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- At region 2's exit: its windows' arrays at what the pipeline leaves, every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)
/-- After the host stretch `hostOps3`. -/
abbrev W6 : Dev nD → Valuation τ sig (Elt F) := fun c => StableHlo.after hostOps3 (W5 m ρ c)
/-- The same read at the TensorCore's references. -/
abbrev V6 : (c : Dev nD) → (b : Ref sig .tc) → Buf (Elt F) ((c : Thread nD τ).loc b) := fun c b => W6 m ρ c b
/-- At region 3's exit: its windows' arrays at what the pipeline leaves, every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)
/-- At region 4's exit: its windows' arrays at what the pipeline leaves, every other buffer as entered. -/
def W8 (c : Dev nD) : Valuation τ sig (Elt F) :=
  Pipeline.withArrays spec4 c (W7 m ρ c) fun w => (dat4 (V7 m ρ) c).arrAt w cfg4.N
theorem W8_arr (c : Dev nD) (w : Fin cfg4.W) :
    W8 m ρ c (Proc.devRef .tc (Pipeline.arrRef spec4 w)) = (dat4 (V7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
abbrev V8 : (c : Dev nD) → (b : Ref sig .tc) → Buf (Elt F) ((c : Thread nD τ).loc b) := fun c b => W8 m ρ c b
theorem hF4 (c : Dev nD) (w : Fin cfg4.W) : (dat4 (V7 m ρ) c).arrAt w cfg4.N = V8 m ρ c (Pipeline.arrRef spec4 w) :=
  (W8_arr m ρ c w).symm
theorem hrest4 (c : Dev nD) : ∀ b, b ∉ Finset.univ.image (Pipeline.arrRef spec4) → V8 m ρ c b = V7 m ρ c b :=
  fun b hb => W8_of_ne m ρ c b fun w e => hb (Finset.mem_image.mpr ⟨w, Finset.mem_univ _, e⟩)
/-- After the host stretch `hostOps5`. -/
abbrev W9 : Dev nD → Valuation τ sig (Elt F) := fun c => StableHlo.after hostOps5 (W8 m ρ c)
/-- The same read at the TensorCore's references. -/
abbrev V9 : (c : Dev nD) → (b : Ref sig .tc) → Buf (Elt F) ((c : Thread nD τ).loc b) := fun c b => W9 m ρ c b
/-- At region 5's exit: its windows' arrays at what the pipeline leaves, every other buffer as entered. -/
def W10 (c : Dev nD) : Valuation τ sig (Elt F) :=
  Pipeline.withArrays spec5 c (W9 m ρ c) fun w => (dat5 (V9 m ρ) c).arrAt w cfg5.N
theorem W10_arr (c : Dev nD) (w : Fin cfg5.W) :
    W10 m ρ c (Proc.devRef .tc (Pipeline.arrRef spec5 w)) = (dat5 (V9 m ρ) c).arrAt w cfg5.N := by
  unfold W10; exact Pipeline.withArrays_arr spec5 launch5.win.arr_inj c _ _ w
theorem W10_of_ne (c : Dev nD) (b : Ref sig .tc) (hb : ∀ w, Pipeline.arrRef spec5 w ≠ b) :
    W10 m ρ c (Proc.devRef .tc b) = W9 m ρ c (Proc.devRef .tc b) := by
  unfold W10; exact Pipeline.withArrays_of_ne spec5 c _ _ b hb
abbrev V10 : (c : Dev nD) → (b : Ref sig .tc) → Buf (Elt F) ((c : Thread nD τ).loc b) := fun c b => W10 m ρ c b
theorem hF5 (c : Dev nD) (w : Fin cfg5.W) : (dat5 (V9 m ρ) c).arrAt w cfg5.N = V10 m ρ c (Pipeline.arrRef spec5 w) :=
  (W10_arr m ρ c w).symm
theorem hrest5 (c : Dev nD) : ∀ b, b ∉ Finset.univ.image (Pipeline.arrRef spec5) → V10 m ρ c b = V9 m ρ c b :=
  fun b hb => W10_of_ne m ρ c b fun w e => hb (Finset.mem_image.mpr ⟨w, Finset.mem_univ _, e⟩)
/-- After the host stretch `hostOps6`. -/
abbrev W11 : Dev nD → Valuation τ sig (Elt F) := fun c => StableHlo.after hostOps6 (W10 m ρ c)
/-- The same read at the TensorCore's references. -/
abbrev V11 : (c : Dev nD) → (b : Ref sig .tc) → Buf (Elt F) ((c : Thread nD τ).loc b) := fun c b => W11 m ρ c b
/-- At region 6's exit: its windows' arrays at what the pipeline leaves, every other buffer as entered. -/
def W12 (c : Dev nD) : Valuation τ sig (Elt F) :=
  Pipeline.withArrays spec6 c (W11 m ρ c) fun w => (dat6 (V11 m ρ) c).arrAt w cfg6.N
theorem W12_arr (c : Dev nD) (w : Fin cfg6.W) :
    W12 m ρ c (Proc.devRef .tc (Pipeline.arrRef spec6 w)) = (dat6 (V11 m ρ) c).arrAt w cfg6.N := by
  unfold W12; exact Pipeline.withArrays_arr spec6 launch6.win.arr_inj c _ _ w
theorem W12_of_ne (c : Dev nD) (b : Ref sig .tc) (hb : ∀ w, Pipeline.arrRef spec6 w ≠ b) :
    W12 m ρ c (Proc.devRef .tc b) = W11 m ρ c (Proc.devRef .tc b) := by
  unfold W12; exact Pipeline.withArrays_of_ne spec6 c _ _ b hb
abbrev V12 : (c : Dev nD) → (b : Ref sig .tc) → Buf (Elt F) ((c : Thread nD τ).loc b) := fun c b => W12 m ρ c b
theorem hF6 (c : Dev nD) (w : Fin cfg6.W) : (dat6 (V11 m ρ) c).arrAt w cfg6.N = V12 m ρ c (Pipeline.arrRef spec6 w) :=
  (W12_arr m ρ c w).symm
theorem hrest6 (c : Dev nD) : ∀ b, b ∉ Finset.univ.image (Pipeline.arrRef spec6) → V12 m ρ c b = V11 m ρ c b :=
  fun b hb => W12_of_ne m ρ c b fun w e => hb (Finset.mem_image.mpr ⟨w, Finset.mem_univ _, e⟩)
/-- After the host stretch `hostOps7`. -/
abbrev W13 : Dev nD → Valuation τ sig (Elt F) := fun c => StableHlo.after hostOps7 (W12 m ρ c)
/-- The same read at the TensorCore's references. -/
abbrev V13 : (c : Dev nD) → (b : Ref sig .tc) → Buf (Elt F) ((c : Thread nD τ).loc b) := fun c b => W13 m ρ c b

/-! ## What each item leaves unchanged

A host stretch leaves every buffer none of its operations writes; a region leaves every buffer but its
output window's array (an input window's array is read, never written). -/

theorem W1_keep (c : Dev nD) (b : Ref sig .tc) (hb : b ∉ hostOps0_W) :
    W1 m ρ c (Proc.devRef .tc b) = W0 m ρ c (Proc.devRef .tc b) :=
  StableHlo.after_of_writes_sub hostOps0 _ hostOps0_writes hb
theorem W2_keep (c : Dev nD) (b : Ref sig .tc) (hb : Pipeline.arrRef spec0 2 ≠ b) :
    W2 m ρ c (Proc.devRef .tc b) = W1 m ρ c (Proc.devRef .tc b) := by
  by_cases h0 : Pipeline.arrRef spec0 0 = b
  · subst h0
    exact (W2_arr m ρ c 0).trans (((dat0 (V1 m ρ) c).arrAt_in 0 rfl _).trans (A_eq0 (V1 m ρ) c 0))
  by_cases h1 : Pipeline.arrRef spec0 1 = b
  · subst h1
    exact (W2_arr m ρ c 1).trans (((dat0 (V1 m ρ) c).arrAt_in 1 rfl _).trans (A_eq0 (V1 m ρ) c 1))
  exact W2_of_ne m ρ c b (fun w => match w with | ⟨0, _⟩ => h0 | ⟨1, _⟩ => h1 | ⟨2, _⟩ => hb)
theorem W3_keep (c : Dev nD) (b : Ref sig .tc) (hb : b ∉ hostOps1_W) :
    W3 m ρ c (Proc.devRef .tc b) = W2 m ρ c (Proc.devRef .tc b) :=
  StableHlo.after_of_writes_sub hostOps1 _ hostOps1_writes hb
theorem W4_keep (c : Dev nD) (b : Ref sig .tc) (hb : Pipeline.arrRef spec1 2 ≠ b) :
    W4 m ρ c (Proc.devRef .tc b) = W3 m ρ c (Proc.devRef .tc b) := by
  by_cases h0 : Pipeline.arrRef spec1 0 = b
  · subst h0
    exact (W4_arr m ρ c 0).trans (((dat1 (V3 m ρ) c).arrAt_in 0 rfl _).trans (A_eq1 (V3 m ρ) c 0))
  by_cases h1 : Pipeline.arrRef spec1 1 = b
  · subst h1
    exact (W4_arr m ρ c 1).trans (((dat1 (V3 m ρ) c).arrAt_in 1 rfl _).trans (A_eq1 (V3 m ρ) c 1))
  exact W4_of_ne m ρ c b (fun w => match w with | ⟨0, _⟩ => h0 | ⟨1, _⟩ => h1 | ⟨2, _⟩ => hb)
theorem W5_keep (c : Dev nD) (b : Ref sig .tc) (hb : Pipeline.arrRef spec2 2 ≠ b) :
    W5 m ρ c (Proc.devRef .tc b) = W4 m ρ c (Proc.devRef .tc b) := by
  by_cases h0 : Pipeline.arrRef spec2 0 = b
  · subst h0
    exact (W5_arr m ρ c 0).trans (((dat2 (V4 m ρ) c).arrAt_in 0 rfl _).trans (A_eq2 (V4 m ρ) c 0))
  by_cases h1 : Pipeline.arrRef spec2 1 = b
  · subst h1
    exact (W5_arr m ρ c 1).trans (((dat2 (V4 m ρ) c).arrAt_in 1 rfl _).trans (A_eq2 (V4 m ρ) c 1))
  exact W5_of_ne m ρ c b (fun w => match w with | ⟨0, _⟩ => h0 | ⟨1, _⟩ => h1 | ⟨2, _⟩ => hb)
theorem W6_keep (c : Dev nD) (b : Ref sig .tc) (hb : b ∉ hostOps3_W) :
    W6 m ρ c (Proc.devRef .tc b) = W5 m ρ c (Proc.devRef .tc b) :=
  StableHlo.after_of_writes_sub hostOps3 _ hostOps3_writes hb
theorem W7_keep (c : Dev nD) (b : Ref sig .tc) (hb : Pipeline.arrRef spec3 2 ≠ b) :
    W7 m ρ c (Proc.devRef .tc b) = W6 m ρ c (Proc.devRef .tc b) := by
  by_cases h0 : Pipeline.arrRef spec3 0 = b
  · subst h0
    exact (W7_arr m ρ c 0).trans (((dat3 (V6 m ρ) c).arrAt_in 0 rfl _).trans (A_eq3 (V6 m ρ) c 0))
  by_cases h1 : Pipeline.arrRef spec3 1 = b
  · subst h1
    exact (W7_arr m ρ c 1).trans (((dat3 (V6 m ρ) c).arrAt_in 1 rfl _).trans (A_eq3 (V6 m ρ) c 1))
  exact W7_of_ne m ρ c b (fun w => match w with | ⟨0, _⟩ => h0 | ⟨1, _⟩ => h1 | ⟨2, _⟩ => hb)
theorem W8_keep (c : Dev nD) (b : Ref sig .tc) (hb : Pipeline.arrRef spec4 2 ≠ b) :
    W8 m ρ c (Proc.devRef .tc b) = W7 m ρ c (Proc.devRef .tc b) := by
  by_cases h0 : Pipeline.arrRef spec4 0 = b
  · subst h0
    exact (W8_arr m ρ c 0).trans (((dat4 (V7 m ρ) c).arrAt_in 0 rfl _).trans (A_eq4 (V7 m ρ) c 0))
  by_cases h1 : Pipeline.arrRef spec4 1 = b
  · subst h1
    exact (W8_arr m ρ c 1).trans (((dat4 (V7 m ρ) c).arrAt_in 1 rfl _).trans (A_eq4 (V7 m ρ) c 1))
  exact W8_of_ne m ρ c b (fun w => match w with | ⟨0, _⟩ => h0 | ⟨1, _⟩ => h1 | ⟨2, _⟩ => hb)
theorem W9_keep (c : Dev nD) (b : Ref sig .tc) (hb : b ∉ hostOps5_W) :
    W9 m ρ c (Proc.devRef .tc b) = W8 m ρ c (Proc.devRef .tc b) :=
  StableHlo.after_of_writes_sub hostOps5 _ hostOps5_writes hb
theorem W10_keep (c : Dev nD) (b : Ref sig .tc) (hb : Pipeline.arrRef spec5 2 ≠ b) :
    W10 m ρ c (Proc.devRef .tc b) = W9 m ρ c (Proc.devRef .tc b) := by
  by_cases h0 : Pipeline.arrRef spec5 0 = b
  · subst h0
    exact (W10_arr m ρ c 0).trans (((dat5 (V9 m ρ) c).arrAt_in 0 rfl _).trans (A_eq5 (V9 m ρ) c 0))
  by_cases h1 : Pipeline.arrRef spec5 1 = b
  · subst h1
    exact (W10_arr m ρ c 1).trans (((dat5 (V9 m ρ) c).arrAt_in 1 rfl _).trans (A_eq5 (V9 m ρ) c 1))
  exact W10_of_ne m ρ c b (fun w => match w with | ⟨0, _⟩ => h0 | ⟨1, _⟩ => h1 | ⟨2, _⟩ => hb)
theorem W11_keep (c : Dev nD) (b : Ref sig .tc) (hb : b ∉ hostOps6_W) :
    W11 m ρ c (Proc.devRef .tc b) = W10 m ρ c (Proc.devRef .tc b) :=
  StableHlo.after_of_writes_sub hostOps6 _ hostOps6_writes hb
theorem W12_keep (c : Dev nD) (b : Ref sig .tc) (hb : Pipeline.arrRef spec6 2 ≠ b) :
    W12 m ρ c (Proc.devRef .tc b) = W11 m ρ c (Proc.devRef .tc b) := by
  by_cases h0 : Pipeline.arrRef spec6 0 = b
  · subst h0
    exact (W12_arr m ρ c 0).trans (((dat6 (V11 m ρ) c).arrAt_in 0 rfl _).trans (A_eq6 (V11 m ρ) c 0))
  by_cases h1 : Pipeline.arrRef spec6 1 = b
  · subst h1
    exact (W12_arr m ρ c 1).trans (((dat6 (V11 m ρ) c).arrAt_in 1 rfl _).trans (A_eq6 (V11 m ρ) c 1))
  exact W12_of_ne m ρ c b (fun w => match w with | ⟨0, _⟩ => h0 | ⟨1, _⟩ => h1 | ⟨2, _⟩ => hb)
theorem W13_keep (c : Dev nD) (b : Ref sig .tc) (hb : b ∉ hostOps7_W) :
    W13 m ρ c (Proc.devRef .tc b) = W12 m ρ c (Proc.devRef .tc b) :=
  StableHlo.after_of_writes_sub hostOps7 _ hostOps7_writes hb

/-! ## The arguments at every boundary: as launched -/

theorem W1_main_arg0 (c : Dev nD) : W1 m ρ c (Proc.devRef .tc main_arg0) = m ((c : Thread nD τ).loc main_arg0) :=
  (W1_keep m ρ c main_arg0 (by decide)).trans rfl
theorem W2_main_arg0 (c : Dev nD) : W2 m ρ c (Proc.devRef .tc main_arg0) = m ((c : Thread nD τ).loc main_arg0) :=
  (W2_keep m ρ c main_arg0 (by decide)).trans (W1_main_arg0 m ρ c)
theorem W3_main_arg0 (c : Dev nD) : W3 m ρ c (Proc.devRef .tc main_arg0) = m ((c : Thread nD τ).loc main_arg0) :=
  (W3_keep m ρ c main_arg0 (by decide)).trans (W2_main_arg0 m ρ c)
theorem W4_main_arg0 (c : Dev nD) : W4 m ρ c (Proc.devRef .tc main_arg0) = m ((c : Thread nD τ).loc main_arg0) :=
  (W4_keep m ρ c main_arg0 (by decide)).trans (W3_main_arg0 m ρ c)
theorem W5_main_arg0 (c : Dev nD) : W5 m ρ c (Proc.devRef .tc main_arg0) = m ((c : Thread nD τ).loc main_arg0) :=
  (W5_keep m ρ c main_arg0 (by decide)).trans (W4_main_arg0 m ρ c)
theorem W6_main_arg0 (c : Dev nD) : W6 m ρ c (Proc.devRef .tc main_arg0) = m ((c : Thread nD τ).loc main_arg0) :=
  (W6_keep m ρ c main_arg0 (by decide)).trans (W5_main_arg0 m ρ c)
theorem W7_main_arg0 (c : Dev nD) : W7 m ρ c (Proc.devRef .tc main_arg0) = m ((c : Thread nD τ).loc main_arg0) :=
  (W7_keep m ρ c main_arg0 (by decide)).trans (W6_main_arg0 m ρ c)
theorem W8_main_arg0 (c : Dev nD) : W8 m ρ c (Proc.devRef .tc main_arg0) = m ((c : Thread nD τ).loc main_arg0) :=
  (W8_keep m ρ c main_arg0 (by decide)).trans (W7_main_arg0 m ρ c)
theorem W9_main_arg0 (c : Dev nD) : W9 m ρ c (Proc.devRef .tc main_arg0) = m ((c : Thread nD τ).loc main_arg0) :=
  (W9_keep m ρ c main_arg0 (by decide)).trans (W8_main_arg0 m ρ c)
theorem W10_main_arg0 (c : Dev nD) : W10 m ρ c (Proc.devRef .tc main_arg0) = m ((c : Thread nD τ).loc main_arg0) :=
  (W10_keep m ρ c main_arg0 (by decide)).trans (W9_main_arg0 m ρ c)
theorem W11_main_arg0 (c : Dev nD) : W11 m ρ c (Proc.devRef .tc main_arg0) = m ((c : Thread nD τ).loc main_arg0) :=
  (W11_keep m ρ c main_arg0 (by decide)).trans (W10_main_arg0 m ρ c)
theorem W12_main_arg0 (c : Dev nD) : W12 m ρ c (Proc.devRef .tc main_arg0) = m ((c : Thread nD τ).loc main_arg0) :=
  (W12_keep m ρ c main_arg0 (by decide)).trans (W11_main_arg0 m ρ c)
theorem W13_main_arg0 (c : Dev nD) : W13 m ρ c (Proc.devRef .tc main_arg0) = m ((c : Thread nD τ).loc main_arg0) :=
  (W13_keep m ρ c main_arg0 (by decide)).trans (W12_main_arg0 m ρ c)
theorem W1_main_arg1 (c : Dev nD) : W1 m ρ c (Proc.devRef .tc main_arg1) = m ((c : Thread nD τ).loc main_arg1) :=
  (W1_keep m ρ c main_arg1 (by decide)).trans rfl
theorem W2_main_arg1 (c : Dev nD) : W2 m ρ c (Proc.devRef .tc main_arg1) = m ((c : Thread nD τ).loc main_arg1) :=
  (W2_keep m ρ c main_arg1 (by decide)).trans (W1_main_arg1 m ρ c)
theorem W3_main_arg1 (c : Dev nD) : W3 m ρ c (Proc.devRef .tc main_arg1) = m ((c : Thread nD τ).loc main_arg1) :=
  (W3_keep m ρ c main_arg1 (by decide)).trans (W2_main_arg1 m ρ c)
theorem W4_main_arg1 (c : Dev nD) : W4 m ρ c (Proc.devRef .tc main_arg1) = m ((c : Thread nD τ).loc main_arg1) :=
  (W4_keep m ρ c main_arg1 (by decide)).trans (W3_main_arg1 m ρ c)
theorem W5_main_arg1 (c : Dev nD) : W5 m ρ c (Proc.devRef .tc main_arg1) = m ((c : Thread nD τ).loc main_arg1) :=
  (W5_keep m ρ c main_arg1 (by decide)).trans (W4_main_arg1 m ρ c)
theorem W6_main_arg1 (c : Dev nD) : W6 m ρ c (Proc.devRef .tc main_arg1) = m ((c : Thread nD τ).loc main_arg1) :=
  (W6_keep m ρ c main_arg1 (by decide)).trans (W5_main_arg1 m ρ c)
theorem W7_main_arg1 (c : Dev nD) : W7 m ρ c (Proc.devRef .tc main_arg1) = m ((c : Thread nD τ).loc main_arg1) :=
  (W7_keep m ρ c main_arg1 (by decide)).trans (W6_main_arg1 m ρ c)
theorem W8_main_arg1 (c : Dev nD) : W8 m ρ c (Proc.devRef .tc main_arg1) = m ((c : Thread nD τ).loc main_arg1) :=
  (W8_keep m ρ c main_arg1 (by decide)).trans (W7_main_arg1 m ρ c)
theorem W9_main_arg1 (c : Dev nD) : W9 m ρ c (Proc.devRef .tc main_arg1) = m ((c : Thread nD τ).loc main_arg1) :=
  (W9_keep m ρ c main_arg1 (by decide)).trans (W8_main_arg1 m ρ c)
theorem W10_main_arg1 (c : Dev nD) : W10 m ρ c (Proc.devRef .tc main_arg1) = m ((c : Thread nD τ).loc main_arg1) :=
  (W10_keep m ρ c main_arg1 (by decide)).trans (W9_main_arg1 m ρ c)
theorem W11_main_arg1 (c : Dev nD) : W11 m ρ c (Proc.devRef .tc main_arg1) = m ((c : Thread nD τ).loc main_arg1) :=
  (W11_keep m ρ c main_arg1 (by decide)).trans (W10_main_arg1 m ρ c)
theorem W12_main_arg1 (c : Dev nD) : W12 m ρ c (Proc.devRef .tc main_arg1) = m ((c : Thread nD τ).loc main_arg1) :=
  (W12_keep m ρ c main_arg1 (by decide)).trans (W11_main_arg1 m ρ c)
theorem W13_main_arg1 (c : Dev nD) : W13 m ρ c (Proc.devRef .tc main_arg1) = m ((c : Thread nD τ).loc main_arg1) :=
  (W13_keep m ρ c main_arg1 (by decide)).trans (W12_main_arg1 m ρ c)
theorem W1_main_arg2 (c : Dev nD) : W1 m ρ c (Proc.devRef .tc main_arg2) = m ((c : Thread nD τ).loc main_arg2) :=
  (W1_keep m ρ c main_arg2 (by decide)).trans rfl
theorem W2_main_arg2 (c : Dev nD) : W2 m ρ c (Proc.devRef .tc main_arg2) = m ((c : Thread nD τ).loc main_arg2) :=
  (W2_keep m ρ c main_arg2 (by decide)).trans (W1_main_arg2 m ρ c)
theorem W3_main_arg2 (c : Dev nD) : W3 m ρ c (Proc.devRef .tc main_arg2) = m ((c : Thread nD τ).loc main_arg2) :=
  (W3_keep m ρ c main_arg2 (by decide)).trans (W2_main_arg2 m ρ c)
theorem W4_main_arg2 (c : Dev nD) : W4 m ρ c (Proc.devRef .tc main_arg2) = m ((c : Thread nD τ).loc main_arg2) :=
  (W4_keep m ρ c main_arg2 (by decide)).trans (W3_main_arg2 m ρ c)
theorem W5_main_arg2 (c : Dev nD) : W5 m ρ c (Proc.devRef .tc main_arg2) = m ((c : Thread nD τ).loc main_arg2) :=
  (W5_keep m ρ c main_arg2 (by decide)).trans (W4_main_arg2 m ρ c)
theorem W6_main_arg2 (c : Dev nD) : W6 m ρ c (Proc.devRef .tc main_arg2) = m ((c : Thread nD τ).loc main_arg2) :=
  (W6_keep m ρ c main_arg2 (by decide)).trans (W5_main_arg2 m ρ c)
theorem W7_main_arg2 (c : Dev nD) : W7 m ρ c (Proc.devRef .tc main_arg2) = m ((c : Thread nD τ).loc main_arg2) :=
  (W7_keep m ρ c main_arg2 (by decide)).trans (W6_main_arg2 m ρ c)
theorem W8_main_arg2 (c : Dev nD) : W8 m ρ c (Proc.devRef .tc main_arg2) = m ((c : Thread nD τ).loc main_arg2) :=
  (W8_keep m ρ c main_arg2 (by decide)).trans (W7_main_arg2 m ρ c)
theorem W9_main_arg2 (c : Dev nD) : W9 m ρ c (Proc.devRef .tc main_arg2) = m ((c : Thread nD τ).loc main_arg2) :=
  (W9_keep m ρ c main_arg2 (by decide)).trans (W8_main_arg2 m ρ c)
theorem W10_main_arg2 (c : Dev nD) : W10 m ρ c (Proc.devRef .tc main_arg2) = m ((c : Thread nD τ).loc main_arg2) :=
  (W10_keep m ρ c main_arg2 (by decide)).trans (W9_main_arg2 m ρ c)
theorem W11_main_arg2 (c : Dev nD) : W11 m ρ c (Proc.devRef .tc main_arg2) = m ((c : Thread nD τ).loc main_arg2) :=
  (W11_keep m ρ c main_arg2 (by decide)).trans (W10_main_arg2 m ρ c)
theorem W12_main_arg2 (c : Dev nD) : W12 m ρ c (Proc.devRef .tc main_arg2) = m ((c : Thread nD τ).loc main_arg2) :=
  (W12_keep m ρ c main_arg2 (by decide)).trans (W11_main_arg2 m ρ c)
theorem W13_main_arg2 (c : Dev nD) : W13 m ρ c (Proc.devRef .tc main_arg2) = m ((c : Thread nD τ).loc main_arg2) :=
  (W13_keep m ρ c main_arg2 (by decide)).trans (W12_main_arg2 m ρ c)
theorem W1_main_arg3 (c : Dev nD) : W1 m ρ c (Proc.devRef .tc main_arg3) = m ((c : Thread nD τ).loc main_arg3) :=
  (W1_keep m ρ c main_arg3 (by decide)).trans rfl
theorem W2_main_arg3 (c : Dev nD) : W2 m ρ c (Proc.devRef .tc main_arg3) = m ((c : Thread nD τ).loc main_arg3) :=
  (W2_keep m ρ c main_arg3 (by decide)).trans (W1_main_arg3 m ρ c)
theorem W3_main_arg3 (c : Dev nD) : W3 m ρ c (Proc.devRef .tc main_arg3) = m ((c : Thread nD τ).loc main_arg3) :=
  (W3_keep m ρ c main_arg3 (by decide)).trans (W2_main_arg3 m ρ c)
theorem W4_main_arg3 (c : Dev nD) : W4 m ρ c (Proc.devRef .tc main_arg3) = m ((c : Thread nD τ).loc main_arg3) :=
  (W4_keep m ρ c main_arg3 (by decide)).trans (W3_main_arg3 m ρ c)
theorem W5_main_arg3 (c : Dev nD) : W5 m ρ c (Proc.devRef .tc main_arg3) = m ((c : Thread nD τ).loc main_arg3) :=
  (W5_keep m ρ c main_arg3 (by decide)).trans (W4_main_arg3 m ρ c)
theorem W6_main_arg3 (c : Dev nD) : W6 m ρ c (Proc.devRef .tc main_arg3) = m ((c : Thread nD τ).loc main_arg3) :=
  (W6_keep m ρ c main_arg3 (by decide)).trans (W5_main_arg3 m ρ c)
theorem W7_main_arg3 (c : Dev nD) : W7 m ρ c (Proc.devRef .tc main_arg3) = m ((c : Thread nD τ).loc main_arg3) :=
  (W7_keep m ρ c main_arg3 (by decide)).trans (W6_main_arg3 m ρ c)
theorem W8_main_arg3 (c : Dev nD) : W8 m ρ c (Proc.devRef .tc main_arg3) = m ((c : Thread nD τ).loc main_arg3) :=
  (W8_keep m ρ c main_arg3 (by decide)).trans (W7_main_arg3 m ρ c)
theorem W9_main_arg3 (c : Dev nD) : W9 m ρ c (Proc.devRef .tc main_arg3) = m ((c : Thread nD τ).loc main_arg3) :=
  (W9_keep m ρ c main_arg3 (by decide)).trans (W8_main_arg3 m ρ c)
theorem W10_main_arg3 (c : Dev nD) : W10 m ρ c (Proc.devRef .tc main_arg3) = m ((c : Thread nD τ).loc main_arg3) :=
  (W10_keep m ρ c main_arg3 (by decide)).trans (W9_main_arg3 m ρ c)
theorem W11_main_arg3 (c : Dev nD) : W11 m ρ c (Proc.devRef .tc main_arg3) = m ((c : Thread nD τ).loc main_arg3) :=
  (W11_keep m ρ c main_arg3 (by decide)).trans (W10_main_arg3 m ρ c)
theorem W12_main_arg3 (c : Dev nD) : W12 m ρ c (Proc.devRef .tc main_arg3) = m ((c : Thread nD τ).loc main_arg3) :=
  (W12_keep m ρ c main_arg3 (by decide)).trans (W11_main_arg3 m ρ c)
theorem W13_main_arg3 (c : Dev nD) : W13 m ρ c (Proc.devRef .tc main_arg3) = m ((c : Thread nD τ).loc main_arg3) :=
  (W13_keep m ρ c main_arg3 (by decide)).trans (W12_main_arg3 m ρ c)
theorem W1_main_arg4 (c : Dev nD) : W1 m ρ c (Proc.devRef .tc main_arg4) = m ((c : Thread nD τ).loc main_arg4) :=
  (W1_keep m ρ c main_arg4 (by decide)).trans rfl
theorem W2_main_arg4 (c : Dev nD) : W2 m ρ c (Proc.devRef .tc main_arg4) = m ((c : Thread nD τ).loc main_arg4) :=
  (W2_keep m ρ c main_arg4 (by decide)).trans (W1_main_arg4 m ρ c)
theorem W3_main_arg4 (c : Dev nD) : W3 m ρ c (Proc.devRef .tc main_arg4) = m ((c : Thread nD τ).loc main_arg4) :=
  (W3_keep m ρ c main_arg4 (by decide)).trans (W2_main_arg4 m ρ c)
theorem W4_main_arg4 (c : Dev nD) : W4 m ρ c (Proc.devRef .tc main_arg4) = m ((c : Thread nD τ).loc main_arg4) :=
  (W4_keep m ρ c main_arg4 (by decide)).trans (W3_main_arg4 m ρ c)
theorem W5_main_arg4 (c : Dev nD) : W5 m ρ c (Proc.devRef .tc main_arg4) = m ((c : Thread nD τ).loc main_arg4) :=
  (W5_keep m ρ c main_arg4 (by decide)).trans (W4_main_arg4 m ρ c)
theorem W6_main_arg4 (c : Dev nD) : W6 m ρ c (Proc.devRef .tc main_arg4) = m ((c : Thread nD τ).loc main_arg4) :=
  (W6_keep m ρ c main_arg4 (by decide)).trans (W5_main_arg4 m ρ c)
theorem W7_main_arg4 (c : Dev nD) : W7 m ρ c (Proc.devRef .tc main_arg4) = m ((c : Thread nD τ).loc main_arg4) :=
  (W7_keep m ρ c main_arg4 (by decide)).trans (W6_main_arg4 m ρ c)
theorem W8_main_arg4 (c : Dev nD) : W8 m ρ c (Proc.devRef .tc main_arg4) = m ((c : Thread nD τ).loc main_arg4) :=
  (W8_keep m ρ c main_arg4 (by decide)).trans (W7_main_arg4 m ρ c)
theorem W9_main_arg4 (c : Dev nD) : W9 m ρ c (Proc.devRef .tc main_arg4) = m ((c : Thread nD τ).loc main_arg4) :=
  (W9_keep m ρ c main_arg4 (by decide)).trans (W8_main_arg4 m ρ c)
theorem W10_main_arg4 (c : Dev nD) : W10 m ρ c (Proc.devRef .tc main_arg4) = m ((c : Thread nD τ).loc main_arg4) :=
  (W10_keep m ρ c main_arg4 (by decide)).trans (W9_main_arg4 m ρ c)
theorem W11_main_arg4 (c : Dev nD) : W11 m ρ c (Proc.devRef .tc main_arg4) = m ((c : Thread nD τ).loc main_arg4) :=
  (W11_keep m ρ c main_arg4 (by decide)).trans (W10_main_arg4 m ρ c)
theorem W12_main_arg4 (c : Dev nD) : W12 m ρ c (Proc.devRef .tc main_arg4) = m ((c : Thread nD τ).loc main_arg4) :=
  (W12_keep m ρ c main_arg4 (by decide)).trans (W11_main_arg4 m ρ c)
theorem W13_main_arg4 (c : Dev nD) : W13 m ρ c (Proc.devRef .tc main_arg4) = m ((c : Thread nD τ).loc main_arg4) :=
  (W13_keep m ρ c main_arg4 (by decide)).trans (W12_main_arg4 m ρ c)
theorem W1_main_arg5 (c : Dev nD) : W1 m ρ c (Proc.devRef .tc main_arg5) = m ((c : Thread nD τ).loc main_arg5) :=
  (W1_keep m ρ c main_arg5 (by decide)).trans rfl
theorem W2_main_arg5 (c : Dev nD) : W2 m ρ c (Proc.devRef .tc main_arg5) = m ((c : Thread nD τ).loc main_arg5) :=
  (W2_keep m ρ c main_arg5 (by decide)).trans (W1_main_arg5 m ρ c)
theorem W3_main_arg5 (c : Dev nD) : W3 m ρ c (Proc.devRef .tc main_arg5) = m ((c : Thread nD τ).loc main_arg5) :=
  (W3_keep m ρ c main_arg5 (by decide)).trans (W2_main_arg5 m ρ c)
theorem W4_main_arg5 (c : Dev nD) : W4 m ρ c (Proc.devRef .tc main_arg5) = m ((c : Thread nD τ).loc main_arg5) :=
  (W4_keep m ρ c main_arg5 (by decide)).trans (W3_main_arg5 m ρ c)
theorem W5_main_arg5 (c : Dev nD) : W5 m ρ c (Proc.devRef .tc main_arg5) = m ((c : Thread nD τ).loc main_arg5) :=
  (W5_keep m ρ c main_arg5 (by decide)).trans (W4_main_arg5 m ρ c)
theorem W6_main_arg5 (c : Dev nD) : W6 m ρ c (Proc.devRef .tc main_arg5) = m ((c : Thread nD τ).loc main_arg5) :=
  (W6_keep m ρ c main_arg5 (by decide)).trans (W5_main_arg5 m ρ c)
theorem W7_main_arg5 (c : Dev nD) : W7 m ρ c (Proc.devRef .tc main_arg5) = m ((c : Thread nD τ).loc main_arg5) :=
  (W7_keep m ρ c main_arg5 (by decide)).trans (W6_main_arg5 m ρ c)
theorem W8_main_arg5 (c : Dev nD) : W8 m ρ c (Proc.devRef .tc main_arg5) = m ((c : Thread nD τ).loc main_arg5) :=
  (W8_keep m ρ c main_arg5 (by decide)).trans (W7_main_arg5 m ρ c)
theorem W9_main_arg5 (c : Dev nD) : W9 m ρ c (Proc.devRef .tc main_arg5) = m ((c : Thread nD τ).loc main_arg5) :=
  (W9_keep m ρ c main_arg5 (by decide)).trans (W8_main_arg5 m ρ c)
theorem W10_main_arg5 (c : Dev nD) : W10 m ρ c (Proc.devRef .tc main_arg5) = m ((c : Thread nD τ).loc main_arg5) :=
  (W10_keep m ρ c main_arg5 (by decide)).trans (W9_main_arg5 m ρ c)
theorem W11_main_arg5 (c : Dev nD) : W11 m ρ c (Proc.devRef .tc main_arg5) = m ((c : Thread nD τ).loc main_arg5) :=
  (W11_keep m ρ c main_arg5 (by decide)).trans (W10_main_arg5 m ρ c)
theorem W12_main_arg5 (c : Dev nD) : W12 m ρ c (Proc.devRef .tc main_arg5) = m ((c : Thread nD τ).loc main_arg5) :=
  (W12_keep m ρ c main_arg5 (by decide)).trans (W11_main_arg5 m ρ c)
theorem W13_main_arg5 (c : Dev nD) : W13 m ρ c (Proc.devRef .tc main_arg5) = m ((c : Thread nD τ).loc main_arg5) :=
  (W13_keep m ρ c main_arg5 (by decide)).trans (W12_main_arg5 m ρ c)
theorem W1_main_arg6 (c : Dev nD) : W1 m ρ c (Proc.devRef .tc main_arg6) = m ((c : Thread nD τ).loc main_arg6) :=
  (W1_keep m ρ c main_arg6 (by decide)).trans rfl
theorem W2_main_arg6 (c : Dev nD) : W2 m ρ c (Proc.devRef .tc main_arg6) = m ((c : Thread nD τ).loc main_arg6) :=
  (W2_keep m ρ c main_arg6 (by decide)).trans (W1_main_arg6 m ρ c)
theorem W3_main_arg6 (c : Dev nD) : W3 m ρ c (Proc.devRef .tc main_arg6) = m ((c : Thread nD τ).loc main_arg6) :=
  (W3_keep m ρ c main_arg6 (by decide)).trans (W2_main_arg6 m ρ c)
theorem W4_main_arg6 (c : Dev nD) : W4 m ρ c (Proc.devRef .tc main_arg6) = m ((c : Thread nD τ).loc main_arg6) :=
  (W4_keep m ρ c main_arg6 (by decide)).trans (W3_main_arg6 m ρ c)
theorem W5_main_arg6 (c : Dev nD) : W5 m ρ c (Proc.devRef .tc main_arg6) = m ((c : Thread nD τ).loc main_arg6) :=
  (W5_keep m ρ c main_arg6 (by decide)).trans (W4_main_arg6 m ρ c)
theorem W6_main_arg6 (c : Dev nD) : W6 m ρ c (Proc.devRef .tc main_arg6) = m ((c : Thread nD τ).loc main_arg6) :=
  (W6_keep m ρ c main_arg6 (by decide)).trans (W5_main_arg6 m ρ c)
theorem W7_main_arg6 (c : Dev nD) : W7 m ρ c (Proc.devRef .tc main_arg6) = m ((c : Thread nD τ).loc main_arg6) :=
  (W7_keep m ρ c main_arg6 (by decide)).trans (W6_main_arg6 m ρ c)
theorem W8_main_arg6 (c : Dev nD) : W8 m ρ c (Proc.devRef .tc main_arg6) = m ((c : Thread nD τ).loc main_arg6) :=
  (W8_keep m ρ c main_arg6 (by decide)).trans (W7_main_arg6 m ρ c)
theorem W9_main_arg6 (c : Dev nD) : W9 m ρ c (Proc.devRef .tc main_arg6) = m ((c : Thread nD τ).loc main_arg6) :=
  (W9_keep m ρ c main_arg6 (by decide)).trans (W8_main_arg6 m ρ c)
theorem W10_main_arg6 (c : Dev nD) : W10 m ρ c (Proc.devRef .tc main_arg6) = m ((c : Thread nD τ).loc main_arg6) :=
  (W10_keep m ρ c main_arg6 (by decide)).trans (W9_main_arg6 m ρ c)
theorem W11_main_arg6 (c : Dev nD) : W11 m ρ c (Proc.devRef .tc main_arg6) = m ((c : Thread nD τ).loc main_arg6) :=
  (W11_keep m ρ c main_arg6 (by decide)).trans (W10_main_arg6 m ρ c)
theorem W12_main_arg6 (c : Dev nD) : W12 m ρ c (Proc.devRef .tc main_arg6) = m ((c : Thread nD τ).loc main_arg6) :=
  (W12_keep m ρ c main_arg6 (by decide)).trans (W11_main_arg6 m ρ c)
theorem W13_main_arg6 (c : Dev nD) : W13 m ρ c (Proc.devRef .tc main_arg6) = m ((c : Thread nD τ).loc main_arg6) :=
  (W13_keep m ρ c main_arg6 (by decide)).trans (W12_main_arg6 m ρ c)
theorem W1_main_arg7 (c : Dev nD) : W1 m ρ c (Proc.devRef .tc main_arg7) = m ((c : Thread nD τ).loc main_arg7) :=
  (W1_keep m ρ c main_arg7 (by decide)).trans rfl
theorem W2_main_arg7 (c : Dev nD) : W2 m ρ c (Proc.devRef .tc main_arg7) = m ((c : Thread nD τ).loc main_arg7) :=
  (W2_keep m ρ c main_arg7 (by decide)).trans (W1_main_arg7 m ρ c)
theorem W3_main_arg7 (c : Dev nD) : W3 m ρ c (Proc.devRef .tc main_arg7) = m ((c : Thread nD τ).loc main_arg7) :=
  (W3_keep m ρ c main_arg7 (by decide)).trans (W2_main_arg7 m ρ c)
theorem W4_main_arg7 (c : Dev nD) : W4 m ρ c (Proc.devRef .tc main_arg7) = m ((c : Thread nD τ).loc main_arg7) :=
  (W4_keep m ρ c main_arg7 (by decide)).trans (W3_main_arg7 m ρ c)
theorem W5_main_arg7 (c : Dev nD) : W5 m ρ c (Proc.devRef .tc main_arg7) = m ((c : Thread nD τ).loc main_arg7) :=
  (W5_keep m ρ c main_arg7 (by decide)).trans (W4_main_arg7 m ρ c)
theorem W6_main_arg7 (c : Dev nD) : W6 m ρ c (Proc.devRef .tc main_arg7) = m ((c : Thread nD τ).loc main_arg7) :=
  (W6_keep m ρ c main_arg7 (by decide)).trans (W5_main_arg7 m ρ c)
theorem W7_main_arg7 (c : Dev nD) : W7 m ρ c (Proc.devRef .tc main_arg7) = m ((c : Thread nD τ).loc main_arg7) :=
  (W7_keep m ρ c main_arg7 (by decide)).trans (W6_main_arg7 m ρ c)
theorem W8_main_arg7 (c : Dev nD) : W8 m ρ c (Proc.devRef .tc main_arg7) = m ((c : Thread nD τ).loc main_arg7) :=
  (W8_keep m ρ c main_arg7 (by decide)).trans (W7_main_arg7 m ρ c)
theorem W9_main_arg7 (c : Dev nD) : W9 m ρ c (Proc.devRef .tc main_arg7) = m ((c : Thread nD τ).loc main_arg7) :=
  (W9_keep m ρ c main_arg7 (by decide)).trans (W8_main_arg7 m ρ c)
theorem W10_main_arg7 (c : Dev nD) : W10 m ρ c (Proc.devRef .tc main_arg7) = m ((c : Thread nD τ).loc main_arg7) :=
  (W10_keep m ρ c main_arg7 (by decide)).trans (W9_main_arg7 m ρ c)
theorem W11_main_arg7 (c : Dev nD) : W11 m ρ c (Proc.devRef .tc main_arg7) = m ((c : Thread nD τ).loc main_arg7) :=
  (W11_keep m ρ c main_arg7 (by decide)).trans (W10_main_arg7 m ρ c)
theorem W12_main_arg7 (c : Dev nD) : W12 m ρ c (Proc.devRef .tc main_arg7) = m ((c : Thread nD τ).loc main_arg7) :=
  (W12_keep m ρ c main_arg7 (by decide)).trans (W11_main_arg7 m ρ c)
theorem W13_main_arg7 (c : Dev nD) : W13 m ρ c (Proc.devRef .tc main_arg7) = m ((c : Thread nD τ).loc main_arg7) :=
  (W13_keep m ρ c main_arg7 (by decide)).trans (W12_main_arg7 m ρ c)
theorem W1_main_arg8 (c : Dev nD) : W1 m ρ c (Proc.devRef .tc main_arg8) = m ((c : Thread nD τ).loc main_arg8) :=
  (W1_keep m ρ c main_arg8 (by decide)).trans rfl
theorem W2_main_arg8 (c : Dev nD) : W2 m ρ c (Proc.devRef .tc main_arg8) = m ((c : Thread nD τ).loc main_arg8) :=
  (W2_keep m ρ c main_arg8 (by decide)).trans (W1_main_arg8 m ρ c)
theorem W3_main_arg8 (c : Dev nD) : W3 m ρ c (Proc.devRef .tc main_arg8) = m ((c : Thread nD τ).loc main_arg8) :=
  (W3_keep m ρ c main_arg8 (by decide)).trans (W2_main_arg8 m ρ c)
theorem W4_main_arg8 (c : Dev nD) : W4 m ρ c (Proc.devRef .tc main_arg8) = m ((c : Thread nD τ).loc main_arg8) :=
  (W4_keep m ρ c main_arg8 (by decide)).trans (W3_main_arg8 m ρ c)
theorem W5_main_arg8 (c : Dev nD) : W5 m ρ c (Proc.devRef .tc main_arg8) = m ((c : Thread nD τ).loc main_arg8) :=
  (W5_keep m ρ c main_arg8 (by decide)).trans (W4_main_arg8 m ρ c)
theorem W6_main_arg8 (c : Dev nD) : W6 m ρ c (Proc.devRef .tc main_arg8) = m ((c : Thread nD τ).loc main_arg8) :=
  (W6_keep m ρ c main_arg8 (by decide)).trans (W5_main_arg8 m ρ c)
theorem W7_main_arg8 (c : Dev nD) : W7 m ρ c (Proc.devRef .tc main_arg8) = m ((c : Thread nD τ).loc main_arg8) :=
  (W7_keep m ρ c main_arg8 (by decide)).trans (W6_main_arg8 m ρ c)
theorem W8_main_arg8 (c : Dev nD) : W8 m ρ c (Proc.devRef .tc main_arg8) = m ((c : Thread nD τ).loc main_arg8) :=
  (W8_keep m ρ c main_arg8 (by decide)).trans (W7_main_arg8 m ρ c)
theorem W9_main_arg8 (c : Dev nD) : W9 m ρ c (Proc.devRef .tc main_arg8) = m ((c : Thread nD τ).loc main_arg8) :=
  (W9_keep m ρ c main_arg8 (by decide)).trans (W8_main_arg8 m ρ c)
theorem W10_main_arg8 (c : Dev nD) : W10 m ρ c (Proc.devRef .tc main_arg8) = m ((c : Thread nD τ).loc main_arg8) :=
  (W10_keep m ρ c main_arg8 (by decide)).trans (W9_main_arg8 m ρ c)
theorem W11_main_arg8 (c : Dev nD) : W11 m ρ c (Proc.devRef .tc main_arg8) = m ((c : Thread nD τ).loc main_arg8) :=
  (W11_keep m ρ c main_arg8 (by decide)).trans (W10_main_arg8 m ρ c)
theorem W12_main_arg8 (c : Dev nD) : W12 m ρ c (Proc.devRef .tc main_arg8) = m ((c : Thread nD τ).loc main_arg8) :=
  (W12_keep m ρ c main_arg8 (by decide)).trans (W11_main_arg8 m ρ c)
theorem W13_main_arg8 (c : Dev nD) : W13 m ρ c (Proc.devRef .tc main_arg8) = m ((c : Thread nD τ).loc main_arg8) :=
  (W13_keep m ρ c main_arg8 (by decide)).trans (W12_main_arg8 m ρ c)
theorem W1_main_arg9 (c : Dev nD) : W1 m ρ c (Proc.devRef .tc main_arg9) = m ((c : Thread nD τ).loc main_arg9) :=
  (W1_keep m ρ c main_arg9 (by decide)).trans rfl
theorem W2_main_arg9 (c : Dev nD) : W2 m ρ c (Proc.devRef .tc main_arg9) = m ((c : Thread nD τ).loc main_arg9) :=
  (W2_keep m ρ c main_arg9 (by decide)).trans (W1_main_arg9 m ρ c)
theorem W3_main_arg9 (c : Dev nD) : W3 m ρ c (Proc.devRef .tc main_arg9) = m ((c : Thread nD τ).loc main_arg9) :=
  (W3_keep m ρ c main_arg9 (by decide)).trans (W2_main_arg9 m ρ c)
theorem W4_main_arg9 (c : Dev nD) : W4 m ρ c (Proc.devRef .tc main_arg9) = m ((c : Thread nD τ).loc main_arg9) :=
  (W4_keep m ρ c main_arg9 (by decide)).trans (W3_main_arg9 m ρ c)
theorem W5_main_arg9 (c : Dev nD) : W5 m ρ c (Proc.devRef .tc main_arg9) = m ((c : Thread nD τ).loc main_arg9) :=
  (W5_keep m ρ c main_arg9 (by decide)).trans (W4_main_arg9 m ρ c)
theorem W6_main_arg9 (c : Dev nD) : W6 m ρ c (Proc.devRef .tc main_arg9) = m ((c : Thread nD τ).loc main_arg9) :=
  (W6_keep m ρ c main_arg9 (by decide)).trans (W5_main_arg9 m ρ c)
theorem W7_main_arg9 (c : Dev nD) : W7 m ρ c (Proc.devRef .tc main_arg9) = m ((c : Thread nD τ).loc main_arg9) :=
  (W7_keep m ρ c main_arg9 (by decide)).trans (W6_main_arg9 m ρ c)
theorem W8_main_arg9 (c : Dev nD) : W8 m ρ c (Proc.devRef .tc main_arg9) = m ((c : Thread nD τ).loc main_arg9) :=
  (W8_keep m ρ c main_arg9 (by decide)).trans (W7_main_arg9 m ρ c)
theorem W9_main_arg9 (c : Dev nD) : W9 m ρ c (Proc.devRef .tc main_arg9) = m ((c : Thread nD τ).loc main_arg9) :=
  (W9_keep m ρ c main_arg9 (by decide)).trans (W8_main_arg9 m ρ c)
theorem W10_main_arg9 (c : Dev nD) : W10 m ρ c (Proc.devRef .tc main_arg9) = m ((c : Thread nD τ).loc main_arg9) :=
  (W10_keep m ρ c main_arg9 (by decide)).trans (W9_main_arg9 m ρ c)
theorem W11_main_arg9 (c : Dev nD) : W11 m ρ c (Proc.devRef .tc main_arg9) = m ((c : Thread nD τ).loc main_arg9) :=
  (W11_keep m ρ c main_arg9 (by decide)).trans (W10_main_arg9 m ρ c)
theorem W12_main_arg9 (c : Dev nD) : W12 m ρ c (Proc.devRef .tc main_arg9) = m ((c : Thread nD τ).loc main_arg9) :=
  (W12_keep m ρ c main_arg9 (by decide)).trans (W11_main_arg9 m ρ c)
theorem W13_main_arg9 (c : Dev nD) : W13 m ρ c (Proc.devRef .tc main_arg9) = m ((c : Thread nD τ).loc main_arg9) :=
  (W13_keep m ρ c main_arg9 (by decide)).trans (W12_main_arg9 m ρ c)
theorem W1_main_arg10 (c : Dev nD) : W1 m ρ c (Proc.devRef .tc main_arg10) = m ((c : Thread nD τ).loc main_arg10) :=
  (W1_keep m ρ c main_arg10 (by decide)).trans rfl
theorem W2_main_arg10 (c : Dev nD) : W2 m ρ c (Proc.devRef .tc main_arg10) = m ((c : Thread nD τ).loc main_arg10) :=
  (W2_keep m ρ c main_arg10 (by decide)).trans (W1_main_arg10 m ρ c)
theorem W3_main_arg10 (c : Dev nD) : W3 m ρ c (Proc.devRef .tc main_arg10) = m ((c : Thread nD τ).loc main_arg10) :=
  (W3_keep m ρ c main_arg10 (by decide)).trans (W2_main_arg10 m ρ c)
theorem W4_main_arg10 (c : Dev nD) : W4 m ρ c (Proc.devRef .tc main_arg10) = m ((c : Thread nD τ).loc main_arg10) :=
  (W4_keep m ρ c main_arg10 (by decide)).trans (W3_main_arg10 m ρ c)
theorem W5_main_arg10 (c : Dev nD) : W5 m ρ c (Proc.devRef .tc main_arg10) = m ((c : Thread nD τ).loc main_arg10) :=
  (W5_keep m ρ c main_arg10 (by decide)).trans (W4_main_arg10 m ρ c)
theorem W6_main_arg10 (c : Dev nD) : W6 m ρ c (Proc.devRef .tc main_arg10) = m ((c : Thread nD τ).loc main_arg10) :=
  (W6_keep m ρ c main_arg10 (by decide)).trans (W5_main_arg10 m ρ c)
theorem W7_main_arg10 (c : Dev nD) : W7 m ρ c (Proc.devRef .tc main_arg10) = m ((c : Thread nD τ).loc main_arg10) :=
  (W7_keep m ρ c main_arg10 (by decide)).trans (W6_main_arg10 m ρ c)
theorem W8_main_arg10 (c : Dev nD) : W8 m ρ c (Proc.devRef .tc main_arg10) = m ((c : Thread nD τ).loc main_arg10) :=
  (W8_keep m ρ c main_arg10 (by decide)).trans (W7_main_arg10 m ρ c)
theorem W9_main_arg10 (c : Dev nD) : W9 m ρ c (Proc.devRef .tc main_arg10) = m ((c : Thread nD τ).loc main_arg10) :=
  (W9_keep m ρ c main_arg10 (by decide)).trans (W8_main_arg10 m ρ c)
theorem W10_main_arg10 (c : Dev nD) : W10 m ρ c (Proc.devRef .tc main_arg10) = m ((c : Thread nD τ).loc main_arg10) :=
  (W10_keep m ρ c main_arg10 (by decide)).trans (W9_main_arg10 m ρ c)
theorem W11_main_arg10 (c : Dev nD) : W11 m ρ c (Proc.devRef .tc main_arg10) = m ((c : Thread nD τ).loc main_arg10) :=
  (W11_keep m ρ c main_arg10 (by decide)).trans (W10_main_arg10 m ρ c)
theorem W12_main_arg10 (c : Dev nD) : W12 m ρ c (Proc.devRef .tc main_arg10) = m ((c : Thread nD τ).loc main_arg10) :=
  (W12_keep m ρ c main_arg10 (by decide)).trans (W11_main_arg10 m ρ c)
theorem W13_main_arg10 (c : Dev nD) : W13 m ρ c (Proc.devRef .tc main_arg10) = m ((c : Thread nD τ).loc main_arg10) :=
  (W13_keep m ρ c main_arg10 (by decide)).trans (W12_main_arg10 m ρ c)

end Cert.Kernel.Hand

end
-- ==== Proof.K.Run.lean ====
/- @main as a list of segments — a host segment per stretch of host operations, a region per kernel
   launch —, and the launch: from any memory with zero counters every weakly fair execution of @main
   terminates, nothing faulting, and in every final state each unscoped buffer of core `c` holds the
   fold's last contents. -/
import proofs.«401414_j12292196401223_1_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 7) → (pcfgs (F := F) p).Adm := fun p => (cfgs p).toPCfg_adm

/-- Every pipeline's proof data, each at the contents its region is entered from: a literal match on the
    pipeline's number, so that the pinned configuration at a numeral reduces to the printed one. -/
def pdats : (p : Fin 7) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
  | ⟨3, _⟩ => fun c => dat3 (V6 m ρ) c
  | ⟨4, _⟩ => fun c => dat4 (V7 m ρ) c
  | ⟨5, _⟩ => fun c => dat5 (V9 m ρ) c
  | ⟨6, _⟩ => fun c => dat6 (V11 m ρ) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item of @main: the core's generator register at some
    state (a region's invariant takes it in and gives it back) and the core owing nothing. -/
abbrev R (c : Dev nD) : sProp 𝕄 :=
  iprop((∃ r, prngReg c r) ∗ ∃ W, owes (c : Thread nD τ) (0 : CellTallies nD τ sig Unit) W)

/-- A stretch of host operations as a segment over the unscoped references, entered at the contents `W`
    and left at `StableHlo.after ops (W c)`, which is the next boundary's contents by name; `R` rides along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without what the core owes: every unscoped buffer at the fold's last contents
    `W13`, the generator register at some state. -/
abbrev Tₙ (c : Dev nD) : sProp 𝕄 :=
  iprop(StableHlo.held (c : Thread nD τ) (Pipeline.ucRefs τ sig) (W13 m ρ c) ∗ ∃ r, prngReg c r)

/-! ## The regions as segments -/

set_option backward.isDefEq.respectTransparency.types false in
/-- REGION 0 over the thread state: entered from every unscoped buffer at `W1`, left at `W2`. Its windows'
    arrays are split out of the unscoped buffers at entry and put back at their exit contents; the generator
    register goes into the region's invariant and comes back; nothing is owed; the kernel has no semaphore
    of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. Its windows'
    arrays are split out of the unscoped buffers at entry and put back at their exit contents; the generator
    register goes into the region's invariant and comes back; nothing is owed; the kernel has no semaphore
    of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W4`, left at `W5`. Its windows'
    arrays are split out of the unscoped buffers at entry and put back at their exit contents; the generator
    register goes into the region's invariant and comes back; nothing is owed; the kernel has no semaphore
    of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W6`, left at `W7`. Its windows'
    arrays are split out of the unscoped buffers at entry and put back at their exit contents; the generator
    register goes into the region's invariant and comes back; nothing is owed; the kernel has no semaphore
    of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at `W7`, left at `W8`. Its windows'
    arrays are split out of the unscoped buffers at entry and put back at their exit contents; the generator
    register goes into the region's invariant and comes back; nothing is owed; the kernel has no semaphore
    of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V7 m ρ) c).loose
  hwaits := Pipeline.hwaits_of_owed_zero _ _ _ _ L lv 4 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec4 c (V7 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V7 m ρ c) (V8 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 5 over the thread state: entered from every unscoped buffer at `W9`, left at `W10`. Its windows'
    arrays are split out of the unscoped buffers at entry and put back at their exit contents; the generator
    register goes into the region's invariant and comes back; nothing is owed; the kernel has no semaphore
    of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V9 m ρ) c).loose
  hwaits := Pipeline.hwaits_of_owed_zero _ _ _ _ L lv 5 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec5 c (V9 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V9 m ρ c) (V10 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 6 over the thread state: entered from every unscoped buffer at `W11`, left at `W12`. Its windows'
    arrays are split out of the unscoped buffers at entry and put back at their exit contents; the generator
    register goes into the region's invariant and comes back; nothing is owed; the kernel has no semaphore
    of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V11 m ρ) c).loose
  hwaits := Pipeline.hwaits_of_owed_zero _ _ _ _ L lv 6 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec6 c (V11 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin6 (V11 m ρ) c)
    unfold Pipeline.ΦA
    iintro ⟨Hp, -, Hr⟩
    isplitl [Hr]; · iexact Hr
    iexact Hp
  hout c := by
    rw [Pipeline.ownSems0_none]
    refine BIBase.Entails.trans (hout6 (V11 m ρ) c) ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V11 m ρ c) (V12 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's thirteen items in order: a host segment per stretch, from its boundary's contents, and a region
    per kernel launch. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)),
    .region (reg3 m ρ),
    .region (reg4 m ρ),
    .host (hseg hostOps5 hostOps5_sub hostOps5_fresh (W8 m ρ)),
    .region (reg5 m ρ),
    .host (hseg hostOps6 hostOps6_sub hostOps6_fresh (W10 m ρ)),
    .region (reg6 m ρ),
    .host (hseg hostOps7 hostOps7_sub hostOps7_fresh (W12 m ρ)) ]

/-- @main is the run of the segments: it is the chain of its items, and the segments' run is the chain of
    their fragments, item by item the same. -/
theorem main_run (c : Dev nD) : main (F := F) c = Pipeline.Seg.run (segs m ρ) := (main_chain c).trans (by chain_rfl)

set_option backward.isDefEq.respectTransparency.types false in
/-- THE RUN. Every weakly fair execution of @main from memory `m` with zero counters terminates, and every
    final state holds, on every core, each unscoped buffer at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl,
      fun c => by
        show iprop(StableHlo.held (c : Thread nD τ) (Pipeline.ucRefs τ sig) (W13 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun _ h => h)

end Cert.Kernel.Hand

end
-- ==== Proof.K.Frame.lean ====
/- The frame of the program, at any float instance: every weakly fair execution of @main terminates,
   nothing faulting, and each argument array ends as launched — the run's last contents read at the
   arguments, which no item of @main writes. And the run with the result buffer's last contents named
   beside the arguments. -/
import proofs.«401414_j12292196401223_1_alg».proof.Proof.K.Run

set_option maxRecDepth 16384

noncomputable section

namespace Cert.Kernel.Hand

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

/-- An unscoped TensorCore reference is among the buffers the run's post names. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W13_main_arg0 m ρ c),
      (h c _ (mem_uc main_arg1 (by decide))).trans (W13_main_arg1 m ρ c),
      (h c _ (mem_uc main_arg2 (by decide))).trans (W13_main_arg2 m ρ c),
      (h c _ (mem_uc main_arg3 (by decide))).trans (W13_main_arg3 m ρ c),
      (h c _ (mem_uc main_arg4 (by decide))).trans (W13_main_arg4 m ρ c),
      (h c _ (mem_uc main_arg5 (by decide))).trans (W13_main_arg5 m ρ c),
      (h c _ (mem_uc main_arg6 (by decide))).trans (W13_main_arg6 m ρ c),
      (h c _ (mem_uc main_arg7 (by decide))).trans (W13_main_arg7 m ρ c),
      (h c _ (mem_uc main_arg8 (by decide))).trans (W13_main_arg8 m ρ c),
      (h c _ (mem_uc main_arg9 (by decide))).trans (W13_main_arg9 m ρ c),
      (h c _ (mem_uc main_arg10 (by decide))).trans (W13_main_arg10 m ρ c)⟩)
    (run_all m ρ)

/-- THE RUN WITH THE RESULT NAMED: the result buffer ends at the fold's last contents, the arguments as launched. -/
theorem run_result : θ_run defs (onTc (τ := τ) (main (F := F))) ⟨m, fun _ => 0, ρ⟩ (fun r => ∀ c : Dev nD,
      r.2.mem ((c.tc : Thread nD τ).loc main_v89) = W13 m ρ c (Proc.devRef .tc main_v89)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨h c _ (mem_uc main_v89 (by decide)),
      (h c _ (mem_uc main_arg0 (by decide))).trans (W13_main_arg0 m ρ c),
      (h c _ (mem_uc main_arg1 (by decide))).trans (W13_main_arg1 m ρ c),
      (h c _ (mem_uc main_arg2 (by decide))).trans (W13_main_arg2 m ρ c),
      (h c _ (mem_uc main_arg3 (by decide))).trans (W13_main_arg3 m ρ c),
      (h c _ (mem_uc main_arg4 (by decide))).trans (W13_main_arg4 m ρ c),
      (h c _ (mem_uc main_arg5 (by decide))).trans (W13_main_arg5 m ρ c),
      (h c _ (mem_uc main_arg6 (by decide))).trans (W13_main_arg6 m ρ c),
      (h c _ (mem_uc main_arg7 (by decide))).trans (W13_main_arg7 m ρ c),
      (h c _ (mem_uc main_arg8 (by decide))).trans (W13_main_arg8 m ρ c),
      (h c _ (mem_uc main_arg9 (by decide))).trans (W13_main_arg9 m ρ c),
      (h c _ (mem_uc main_arg10 (by decide))).trans (W13_main_arg10 m ρ c)⟩)
    (run_all m ρ)

end Cert.Kernel.Hand

end
-- ==== Proof.KI.Reg0.lean ====
/- Region 0 of @main: the first linear layer, one row tile of 5000 rows per grid point.
   At a grid point the body reads the tile of the node features (window 0) and the whole weight
   matrix (window 1), and stores their product over the whole output tile (window 2). Stated at
   any contents `V` of the unscoped buffers at the region's entry: what each window's staging
   buffer holds after the body, the body's triple, and the pipeline's body obligation with the
   invariant "the scoped rest and the generator register, untouched". -/
import proofs.«401414_j12292196401223_1_alg».proof.Proof.Gen.KernelIdeal.Launch
import proofs.«401414_j12292196401223_1_alg».proof.Proof.Gen.KernelIdeal.Skeleton
import proofs.«401414_j12292196401223_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature tile is in its staging buffer at every point: the window is fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix is in its staging buffer at every point: fetched at the first point, and its
    block index never moves afterwards. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev r0_0 : Rect S5000x226 := Rect.unit (s := S5000x226) ![0, 0] S5000x226.size inb_S5000x226_S5000x226_0_0
abbrev r0_1 : Rect S226x128 := Rect.unit (s := S226x128) ![0, 0] S226x128.size inb_S226x128_S226x128_0_0
abbrev r0_2 : Rect S5000x128 := Rect.unit (s := S5000x128) ![0, 0] S5000x128.size inb_S5000x128_S5000x128_0_0

/-- The output tile after the body: the one store's payload, the product of the two loaded blocks. -/
def out0_2 (x0 : Vec F S5000x226 .f32) (x1 : Vec F S226x128 .f32) : Vec F S5000x128 .f32 :=
  View.canon [⟨r0_2, k0_pay1 (View.ld x0 r0_0) (View.ld x1 r0_1)⟩]

/-- The one store covers the output tile. -/
theorem cover0_2 (p0 : Vec F S5000x128 .f32) (y : S5000x128.Idx) :
    ∃ pc ∈ ([⟨r0_2, p0⟩] : List (View.Piece (Elt F) S5000x128 .f32)), y ∈ pc.1.set :=
  View.cover_of_tiled [⟨r0_2, p0⟩] S5000x128.size (by rfl) y

/-! ## The body's triple -/

set_option maxHeartbeats 1000000 in
/-- On whole staging memrefs, the inputs at contents `x0`, `x1` and the output at anything, the body
    runs to the continuation with the inputs as they were and the output at `out0_2 x0 x1`. -/
theorem sound_kernel0 (c : Dev nD) (E : Set ℕ) (i : grid0.Coords) (arg1 : Memref sig .tc .vmem S5000x226 .f32) (harg1 : arg1.IsWhole)
    (arg2 : Memref sig .tc .vmem S226x128 .f32) (harg2 : arg2.IsWhole) (arg3 : Memref sig .tc .vmem S5000x128 .f32) (harg3 : arg3.IsWhole)
    (x0 : Vec F S5000x226 .f32) (x1 : Vec F S226x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- Pipeline 0's proof data on core `c`: the arrays as the region finds them; after the body at point
    `t` each input's buffer at its block and the output's at the product of the two; the invariant is
    the scoped rest and the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' staging buffers hold their blocks, so the triple applies; the
    invariant and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/- Region 1 of @main: bias and rectifier after the first aggregation, one row tile of 5000 rows per
   grid point. At a grid point the body reads the tile of aggregated messages (window 0) and the
   bias as one row (window 1), and stores max(tile + bias, 0) over the whole output tile (window 2).
   Stated at any contents `V` of the unscoped buffers at the region's entry. -/
import proofs.«401414_j12292196401223_1_alg».proof.Proof.Gen.KernelIdeal.Launch
import proofs.«401414_j12292196401223_1_alg».proof.Proof.Gen.KernelIdeal.Skeleton
import proofs.«401414_j12292196401223_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The tile of aggregated messages is in its staging buffer at every point (fetched at every point). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The bias row is in its staging buffer at every point: fetched at the first point, its block index
    constant afterwards. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its buffer -/

abbrev r1_0 : Rect S5000x128 := Rect.unit (s := S5000x128) ![0, 0] S5000x128.size inb_S5000x128_S5000x128_0_0
abbrev r1_1 : Rect S1x128 := Rect.unit (s := S1x128) ![0, 0] S1x128.size inb_S1x128_S1x128_0_0
abbrev r1_2 : Rect S5000x128 := Rect.unit (s := S5000x128) ![0, 0] S5000x128.size inb_S5000x128_S5000x128_0_0

/-- The output tile after the body: the one store's payload, max(tile + bias row, 0). -/
def out1_2 (x0 : Vec F S5000x128 .f32) (x1 : Vec F S1x128 .f32) : Vec F S5000x128 .f32 :=
  View.canon [⟨r1_2, k1_pay1 (View.ld x0 r1_0) (View.ld x1 r1_1)⟩]

/-- The one store covers the output tile. -/
theorem cover1_2 (p0 : Vec F S5000x128 .f32) (y : S5000x128.Idx) :
    ∃ pc ∈ ([⟨r1_2, p0⟩] : List (View.Piece (Elt F) S5000x128 .f32)), y ∈ pc.1.set :=
  View.cover_of_tiled [⟨r1_2, p0⟩] S5000x128.size (by rfl) y

/-! ## The body's triple -/

set_option maxHeartbeats 1000000 in
/-- On whole staging memrefs, the inputs at contents `x0`, `x1` and the output at anything, the body
    runs to the continuation with the inputs as they were and the output at `out1_2 x0 x1`. -/
theorem sound_kernel1 (c : Dev nD) (E : Set ℕ) (i : grid1.Coords) (arg1 : Memref sig .tc .vmem S5000x128 .f32) (harg1 : arg1.IsWhole)
    (arg2 : Memref sig .tc .vmem S1x128 .f32) (harg2 : arg2.IsWhole) (arg3 : Memref sig .tc .vmem S5000x128 .f32) (harg3 : arg3.IsWhole)
    (x0 : Vec F S5000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__bias_relu_kernel i arg1 harg1 arg2 harg2 arg3 harg3) K := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- Pipeline 1's proof data on core `c`: the arrays as the region finds them; after the body at point
    `t` each input's buffer at its block and the output's at max(tile + bias, 0); the invariant is the
    scoped rest and the generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' staging buffers hold their blocks, so the triple applies; the
    invariant and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/- Region 2 of @main: the second linear layer, one row tile of 5000 rows per grid point.
   At a grid point the body reads the tile of activations of the first layer (window 0) and the whole weight
   matrix (window 1), and stores their product over the whole output tile (window 2). Stated at
   any contents `V` of the unscoped buffers at the region's entry: what each window's staging
   buffer holds after the body, the body's triple, and the pipeline's body obligation with the
   invariant "the scoped rest and the generator register, untouched". -/
import proofs.«401414_j12292196401223_1_alg».proof.Proof.Gen.KernelIdeal.Launch
import proofs.«401414_j12292196401223_1_alg».proof.Proof.Gen.KernelIdeal.Skeleton
import proofs.«401414_j12292196401223_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The activation tile is in its staging buffer at every point: the window is fetched at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight matrix is in its staging buffer at every point: fetched at the first point, and its
    block index never moves afterwards. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is the whole of its buffer -/

abbrev r2_0 : Rect S5000x128 := Rect.unit (s := S5000x128) ![0, 0] S5000x128.size inb_S5000x128_S5000x128_0_0
abbrev r2_1 : Rect S128x128 := Rect.unit (s := S128x128) ![0, 0] S128x128.size inb_S128x128_S128x128_0_0
abbrev r2_2 : Rect S5000x128 := Rect.unit (s := S5000x128) ![0, 0] S5000x128.size inb_S5000x128_S5000x128_0_0

/-- The output tile after the body: the one store's payload, the product of the two loaded blocks. -/
def out2_2 (x0 : Vec F S5000x128 .f32) (x1 : Vec F S128x128 .f32) : Vec F S5000x128 .f32 :=
  View.canon [⟨r2_2, k2_pay1 (View.ld x0 r2_0) (View.ld x1 r2_1)⟩]

/-- The one store covers the output tile. -/
theorem cover2_2 (p0 : Vec F S5000x128 .f32) (y : S5000x128.Idx) :
    ∃ pc ∈ ([⟨r2_2, p0⟩] : List (View.Piece (Elt F) S5000x128 .f32)), y ∈ pc.1.set :=
  View.cover_of_tiled [⟨r2_2, p0⟩] S5000x128.size (by rfl) y

/-! ## The body's triple -/

set_option maxHeartbeats 1000000 in
/-- On whole staging memrefs, the inputs at contents `x0`, `x1` and the output at anything, the body
    runs to the continuation with the inputs as they were and the output at `out2_2 x0 x1`. -/
theorem sound_kernel2 (c : Dev nD) (E : Set ℕ) (i : grid2.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- Pipeline 2's proof data on core `c`: the arrays as the region finds them; after the body at point
    `t` each input's buffer at its block and the output's at the product of the two; the invariant is
    the scoped rest and the generator register; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' staging buffers hold their blocks, so the triple applies; the
    invariant and the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
/- Region 3 of @main: bias and rectifier after the second aggregation, one row tile of 5000 rows per
   grid point. At a grid point the body reads the tile of aggregated messages (window 0) and the
   bias as one row (window 1), and stores max(tile + bias, 0) over the whole output tile (window 2).
   Stated at any contents `V` of the unscoped buffers at the region's entry. -/
import proofs.«401414_j12292196401223_1_alg».proof.Proof.Gen.KernelIdeal.Launch
import proofs.«401414_j12292196401223_1_alg».proof.Proof.Gen.KernelIdeal.Skeleton
import proofs.«401414_j12292196401223_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The tile of aggregated messages is in its staging buffer at every point (fetched at every point). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The bias row is in its staging buffer at every point: fetched at the first point, its block index
    constant afterwards. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each is the whole of its buffer -/

abbrev r3_0 : Rect S5000x128 := Rect.unit (s := S5000x128) ![0, 0] S5000x128.size inb_S5000x128_S5000x128_0_0
abbrev r3_1 : Rect S1x128 := Rect.unit (s := S1x128) ![0, 0] S1x128.size inb_S1x128_S1x128_0_0
abbrev r3_2 : Rect S5000x128 := Rect.unit (s := S5000x128) ![0, 0] S5000x128.size inb_S5000x128_S5000x128_0_0

/-- The output tile after the body: the one store's payload, max(tile + bias row, 0). -/
def out3_2 (x0 : Vec F S5000x128 .f32) (x1 : Vec F S1x128 .f32) : Vec F S5000x128 .f32 :=
  View.canon [⟨r3_2, k3_pay1 (View.ld x0 r3_0) (View.ld x1 r3_1)⟩]

/-- The one store covers the output tile. -/
theorem cover3_2 (p0 : Vec F S5000x128 .f32) (y : S5000x128.Idx) :
    ∃ pc ∈ ([⟨r3_2, p0⟩] : List (View.Piece (Elt F) S5000x128 .f32)), y ∈ pc.1.set :=
  View.cover_of_tiled [⟨r3_2, p0⟩] S5000x128.size (by rfl) y

/-! ## The body's triple -/

set_option maxHeartbeats 1000000 in
/-- On whole staging memrefs, the inputs at contents `x0`, `x1` and the output at anything, the body
    runs to the continuation with the inputs as they were and the output at `out3_2 x0 x1`. -/
theorem sound_kernel3 (c : Dev nD) (E : Set ℕ) (i : grid3.Coords) (arg1 : Memref sig .tc .vmem S5000x128 .f32) (harg1 : arg1.IsWhole)
    (arg2 : Memref sig .tc .vmem S1x128 .f32) (harg2 : arg2.IsWhole) (arg3 : Memref sig .tc .vmem S5000x128 .f32) (harg3 : arg3.IsWhole)
    (x0 : Vec F S5000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__bias_relu_kernel i arg1 harg1 arg2 harg2 arg3 harg3) K := by
  simp only [cc3__bias_relu_kernel_eq_skeleton]; unfold cc3__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- Pipeline 3's proof data on core `c`: the arrays as the region finds them; after the body at point
    `t` each input's buffer at its block and the output's at max(tile + bias, 0); the invariant is the
    scoped rest and the generator register; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' staging buffers hold their blocks, so the triple applies; the
    invariant and the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Reg4.lean ====
/- Region 4 of @main: the third linear layer, one row tile of 5000 rows per grid point.
   At a grid point the body reads the tile of activations of the second layer (window 0) and the whole weight
   matrix (window 1), and stores their product over the whole output tile (window 2). Stated at
   any contents `V` of the unscoped buffers at the region's entry: what each window's staging
   buffer holds after the body, the body's triple, and the pipeline's body obligation with the
   invariant "the scoped rest and the generator register, untouched". -/
import proofs.«401414_j12292196401223_1_alg».proof.Proof.Gen.KernelIdeal.Launch
import proofs.«401414_j12292196401223_1_alg».proof.Proof.Gen.KernelIdeal.Skeleton
import proofs.«401414_j12292196401223_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The activation tile is in its staging buffer at every point: the window is fetched at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The weight matrix is in its staging buffer at every point: fetched at the first point, and its
    block index never moves afterwards. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each is the whole of its buffer -/

abbrev r4_0 : Rect S5000x128 := Rect.unit (s := S5000x128) ![0, 0] S5000x128.size inb_S5000x128_S5000x128_0_0
abbrev r4_1 : Rect S128x128 := Rect.unit (s := S128x128) ![0, 0] S128x128.size inb_S128x128_S128x128_0_0
abbrev r4_2 : Rect S5000x128 := Rect.unit (s := S5000x128) ![0, 0] S5000x128.size inb_S5000x128_S5000x128_0_0

/-- The output tile after the body: the one store's payload, the product of the two loaded blocks. -/
def out4_2 (x0 : Vec F S5000x128 .f32) (x1 : Vec F S128x128 .f32) : Vec F S5000x128 .f32 :=
  View.canon [⟨r4_2, k4_pay1 (View.ld x0 r4_0) (View.ld x1 r4_1)⟩]

/-- The one store covers the output tile. -/
theorem cover4_2 (p0 : Vec F S5000x128 .f32) (y : S5000x128.Idx) :
    ∃ pc ∈ ([⟨r4_2, p0⟩] : List (View.Piece (Elt F) S5000x128 .f32)), y ∈ pc.1.set :=
  View.cover_of_tiled [⟨r4_2, p0⟩] S5000x128.size (by rfl) y

/-! ## The body's triple -/

set_option maxHeartbeats 1000000 in
/-- On whole staging memrefs, the inputs at contents `x0`, `x1` and the output at anything, the body
    runs to the continuation with the inputs as they were and the output at `out4_2 x0 x1`. -/
theorem sound_kernel4 (c : Dev nD) (E : Set ℕ) (i : grid4.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__matmul_kernel i arg1 harg1 arg2 harg2 arg3 harg3) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- Pipeline 4's proof data on core `c`: the arrays as the region finds them; after the body at point
    `t` each input's buffer at its block and the output's at the product of the two; the invariant is
    the scoped rest and the generator register; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' staging buffers hold their blocks, so the triple applies; the
    invariant and the core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Reg5.lean ====
/- Region 5 of @main: bias and rectifier after the third aggregation, one row tile of 5000 rows per
   grid point. At a grid point the body reads the tile of aggregated messages (window 0) and the
   bias as one row (window 1), and stores max(tile + bias, 0) over the whole output tile (window 2).
   Stated at any contents `V` of the unscoped buffers at the region's entry. -/
import proofs.«401414_j12292196401223_1_alg».proof.Proof.Gen.KernelIdeal.Launch
import proofs.«401414_j12292196401223_1_alg».proof.Proof.Gen.KernelIdeal.Skeleton
import proofs.«401414_j12292196401223_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The tile of aggregated messages is in its staging buffer at every point (fetched at every point). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The bias row is in its staging buffer at every point: fetched at the first point, its block index
    constant afterwards. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each is the whole of its buffer -/

abbrev r5_0 : Rect S5000x128 := Rect.unit (s := S5000x128) ![0, 0] S5000x128.size inb_S5000x128_S5000x128_0_0
abbrev r5_1 : Rect S1x128 := Rect.unit (s := S1x128) ![0, 0] S1x128.size inb_S1x128_S1x128_0_0
abbrev r5_2 : Rect S5000x128 := Rect.unit (s := S5000x128) ![0, 0] S5000x128.size inb_S5000x128_S5000x128_0_0

/-- The output tile after the body: the one store's payload, max(tile + bias row, 0). -/
def out5_2 (x0 : Vec F S5000x128 .f32) (x1 : Vec F S1x128 .f32) : Vec F S5000x128 .f32 :=
  View.canon [⟨r5_2, k5_pay1 (View.ld x0 r5_0) (View.ld x1 r5_1)⟩]

/-- The one store covers the output tile. -/
theorem cover5_2 (p0 : Vec F S5000x128 .f32) (y : S5000x128.Idx) :
    ∃ pc ∈ ([⟨r5_2, p0⟩] : List (View.Piece (Elt F) S5000x128 .f32)), y ∈ pc.1.set :=
  View.cover_of_tiled [⟨r5_2, p0⟩] S5000x128.size (by rfl) y

/-! ## The body's triple -/

set_option maxHeartbeats 1000000 in
/-- On whole staging memrefs, the inputs at contents `x0`, `x1` and the output at anything, the body
    runs to the continuation with the inputs as they were and the output at `out5_2 x0 x1`. -/
theorem sound_kernel5 (c : Dev nD) (E : Set ℕ) (i : grid5.Coords) (arg1 : Memref sig .tc .vmem S5000x128 .f32) (harg1 : arg1.IsWhole)
    (arg2 : Memref sig .tc .vmem S1x128 .f32) (harg2 : arg2.IsWhole) (arg3 : Memref sig .tc .vmem S5000x128 .f32) (harg3 : arg3.IsWhole)
    (x0 : Vec F S5000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5_2 x0 x1)) -∗ K ⟨⟩))
      ⊢ wp frame (wpE (defs₀ (F := F)) Variants.none c none) E (cc5__bias_relu_kernel i arg1 harg1 arg2 harg2 arg3 harg3) K := by
  simp only [cc5__bias_relu_kernel_eq_skeleton]; unfold cc5__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-! ## The pipeline's proof data -/

/-- Pipeline 5's proof data on core `c`: the arrays as the region finds them; after the body at point
    `t` each input's buffer at its block and the output's at max(tile + bias, 0); the invariant is the
    scoped rest and the generator register; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' staging buffers hold their blocks, so the triple applies; the
    invariant and the core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Reg6.lean ====
/- Region 6 of @main: the pooling kernel, one row tile of 5000 nodes per grid point, the grid run in
   order. A scratch accumulator [512, 128] lives across the grid points: the first point clears it,
   every point adds to it the product (one-hot of the tile's graph ids)ᵀ · (the tile's activations), and
   copies it to the output block, which the pipeline writes back after the last point only.
   Stated at any contents `V` of the unscoped buffers at the region's entry: the accumulator after
   each point as a recursion over the points, the body's triple in its two cases (first point, later
   point), and the pipeline's body obligation with an invariant that carries the accumulator. -/
import proofs.«401414_j12292196401223_1_alg».proof.Proof.Gen.KernelIdeal.Launch
import proofs.«401414_j12292196401223_1_alg».proof.Proof.Gen.KernelIdeal.Skeleton
import proofs.«401414_j12292196401223_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The accumulator after the body at position `n`: the point's contribution added to what the point
    before left, the first point starting from the cleared accumulator. -/
def acc6 (c : Dev nD) : (n : ℕ) → n < cfg6.N → Vec F S512x128 .f32
  | 0, h => k6_pay2 (iblk6 V c 0 ⟨0, h⟩) (iblk6 V c 1 ⟨0, h⟩) (k6_pay1 (F := F))
  | n + 1, h => k6_pay2 (iblk6 V c 0 ⟨n + 1, h⟩) (iblk6 V c 1 ⟨n + 1, h⟩) (acc6 c n (Nat.lt_of_succ_lt h))

theorem acc6_zero (c : Dev nD) (h : 0 < cfg6.N) :
    acc6 V c 0 h = k6_pay2 (iblk6 V c 0 ⟨0, h⟩) (iblk6 V c 1 ⟨0, h⟩) (k6_pay1 (F := F)) := rfl
theorem acc6_succ (c : Dev nD) (n : ℕ) (h : n + 1 < cfg6.N) :
    acc6 V c (n + 1) h = k6_pay2 (iblk6 V c 0 ⟨n + 1, h⟩) (iblk6 V c 1 ⟨n + 1, h⟩) (acc6 V c n (Nat.lt_of_succ_lt h)) := rfl

/-- The kernel's scratch operand, a whole scoped buffer of its own. -/
abbrev scM6 : Memref sig .tc .vmem S512x128 .f32 := Memref.whole cc6_scratch0

/-- The region's invariant before position `n`: before the first point what the launch hands every
    kernel (the scoped rest and the generator register); afterwards the scratch at the accumulator
    the point before left, the rest of the scoped buffers, and the generator register. -/
def Phi6 (c : Dev nD) : (n : ℕ) → n ≤ cfg6.N → sProp 𝕄
  | 0, _ => Pipeline.ΦA spec6 c
  | n + 1, hn => iprop(owns (c : Thread nD τ) scM6 fullShare (acc6 V c n hn)
      ∗ Pipeline.scopedRestBut (Ix := Unit) (Name := ℕ) (U := UR sig nD τ) (Lvl := ℕ) (Val := Elt F) spec6 c [cc6_scratch0]
      ∗ (∃ r, prngReg c r))

/-! ## The pipeline's proof data -/

/-- Pipeline 6's proof data on core `c`: the arrays as the region finds them; after the body at point
    `t` each input's buffer at its block and the output's at the accumulator; the invariant carries
    the accumulator; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => acc6 V c t.val t.isLt
  Φ t := Phi6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = acc6 V c t.val t.isLt := by dsimp only [dat6]

/-! ## The body's branch: taken at the first point only -/

/-- The condition of the body's one conditional, from the grid coordinates. -/
abbrev cond6 (i : grid6.Coords) : Prop :=
  (Scalar.cmpi .ne (Scalar.extui (Scalar.cmpi .eq (BitVec.ofNat 32 (i 0).val) 0#32)) 0#32) = 1#1

/-- It holds at the first point only. -/
theorem hcond6 : ∀ t : Fin cfg6.N, cond6 (grid6.coords t) ↔ t.val % 20 = 0 :=
  (by decide +kernel : ∀ t : Fin grid6.N, cond6 (grid6.coords t) ↔ t.val % 20 = 0)

/-! ## The body's accesses: each is the whole of its buffer -/

/-- The zero offsets of a rank-2 access, as the constant function: the accumulator's shape, -/
theorem hz6_acc : (![0, 0] : Fin S512x128.rank → Nat) = fun _ => 0 := by
  funext a; fin_cases a <;> rfl
/-- the activations' tile's, -/
theorem hz6_h : (![0, 0] : Fin S5000x128.rank → Nat) = fun _ => 0 := by
  funext a; fin_cases a <;> rfl
/-- and the graph ids' tile's. -/
theorem hz6_g : (![0, 0] : Fin S5000x1.rank → Nat) = fun _ => 0 := by
  funext a; fin_cases a <;> rfl

/-- The whole of the accumulator's shape as a rectangle: what every access of the scratch and of the output goes through. -/
abbrev r6_acc : Rect S512x128 := Rect.unit (s := S512x128) ![0, 0] S512x128.size inb_S512x128_S512x128_0_0

/-- A store through the whole of the accumulator's shape, made last, covers it whatever was stored before. -/
theorem cover6 (p0 : Vec F S512x128 .f32) (L : List (View.Piece (Elt F) S512x128 .f32)) (y : S512x128.Idx) :
    ∃ pc ∈ ((⟨r6_acc, p0⟩ : View.Piece (Elt F) S512x128 .f32) :: L), y ∈ pc.1.set :=
  ⟨_, List.mem_cons_self, View.mem_set_unit_zero hz6_acc inb_S512x128_S512x128_0_0 y⟩

/-! ## The body's triple, in its two cases -/

set_option maxHeartbeats 1000000 in
/-- At the first point (the branch taken): on whole memrefs, the inputs at `x0`, `x1`, the output and the
    scratch at anything, the body runs to the continuation with the inputs as they were and the scratch
    and the output both at the point's contribution added to the cleared accumulator. -/
theorem sound_kernel6_first (c : Dev nD) (E : Set ℕ) (i : grid6.Coords) (hc : cond6 i)
    (arg1 : Memref sig .tc .vmem S5000x128 .f32) (harg1 : arg1.IsWhole)
    (arg2 : Memref sig .tc .vmem S5000x1 .i32) (harg2 : arg2.IsWhole)
    (arg3 : Memref sig .tc .vmem S512x128 .f32) (harg3 : arg3.IsWhole)
    (arg4 : Memref sig .tc .vmem S512x128 .f32) (harg4 : arg4.IsWhole)
    (x0 : Vec F S5000x128 .f32) (x1 : Vec F S5000x1 .i32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (k6_pay2 x0 x1 (k6_pay1 (F := F)))
            ∗ owns (c : Thread nD τ) arg4 fullShare (k6_pay2 x0 x1 (k6_pay1 (F := F)))) -∗ K ⟨⟩))
      ⊢ wp frame (wpE (defs₀ (F := F)) Variants.none c none) E (cc6__pool_kernel i arg1 harg1 arg2 harg2 arg3 harg3 arg4 harg4) K := by
  simp only [cc6__pool_kernel_eq_skeleton]; unfold cc6__pool_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (cover6 _ _),
      View.canon_unit_zero hz6_acc]
    simp only [View.readCov_cons_toLoadRect, View.readAt_eq_ld, View.ld_unit_zero (S := S5000x128) hz6_h, View.ld_unit_zero (S := S5000x1) hz6_g]
  · iexists _; isplitr
    swap; · iexact H3
    ipureintro
    sl_unfold_words
    rw [View.read_writes_eq_canon _ _ _ (cover6 _ _),
      View.canon_cons_unit_zero hz6_acc]
    simp only [View.readCov_cons_toLoadRect, View.readAt_eq_ld, View.ld_unit_zero (S := S5000x128) hz6_h, View.ld_unit_zero (S := S5000x1) hz6_g]

set_option maxHeartbeats 1000000 in
/-- At a later point (the branch not taken): the same with the scratch at `xs`, what the point before
    left; the scratch and the output end at the point's contribution added to `xs`. -/
theorem sound_kernel6_later (c : Dev nD) (E : Set ℕ) (i : grid6.Coords) (hc : ¬cond6 i)
    (arg1 : Memref sig .tc .vmem S5000x128 .f32) (harg1 : arg1.IsWhole)
    (arg2 : Memref sig .tc .vmem S5000x1 .i32) (harg2 : arg2.IsWhole)
    (arg3 : Memref sig .tc .vmem S512x128 .f32) (harg3 : arg3.IsWhole)
    (arg4 : Memref sig .tc .vmem S512x128 .f32) (harg4 : arg4.IsWhole)
    (x0 : Vec F S5000x128 .f32) (x1 : Vec F S5000x1 .i32) (xs : Vec F S512x128 .f32) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare xs
        ∗ (iprop(owns (c : Thread nD τ) arg1 fullShare x0 ∗ owns (c : Thread nD τ) arg2 fullShare x1
            ∗ owns (c : Thread nD τ) arg3 fullShare (k6_pay2 x0 x1 xs)
            ∗ owns (c : Thread nD τ) arg4 fullShare (k6_pay2 x0 x1 xs)) -∗ K ⟨⟩))
      ⊢ wp frame (wpE (defs₀ (F := F)) Variants.none c none) E (cc6__pool_kernel i arg1 harg1 arg2 harg2 arg3 harg3 arg4 harg4) K := by
  simp only [cc6__pool_kernel_eq_skeleton]; unfold cc6__pool_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (cover6 _ _),
      View.canon_unit_zero hz6_acc]
    simp only [View.readCov_cons_toLoadRect, View.readAt_eq_ld, View.ld_unit_zero (S := S5000x128) hz6_h, View.ld_unit_zero (S := S5000x1) hz6_g,
      View.ld_unit_zero (S := S512x128) hz6_acc]
  · iexists _; isplitr
    swap; · iexact H3
    ipureintro
    sl_unfold_words
    rw [View.read_writes_eq_canon _ _ _ (cover6 _ _),
      View.canon_unit_zero hz6_acc]
    simp only [View.readAt_eq_ld, View.ld_unit_zero (S := S5000x128) hz6_h, View.ld_unit_zero (S := S5000x1) hz6_g, View.ld_unit_zero (S := S512x128) hz6_acc]

/-! ## The invariant, point by point -/

/-- What the launch hands every kernel, with the scratch as a memref owned at some contents. -/
theorem PhiA6_eq (c : Dev nD) :
    (Pipeline.ΦA spec6 c : sProp 𝕄)
      = iprop(iprop((∃ d, owns (c : Thread nD τ) scM6 fullShare d)
            ∗ Pipeline.scopedRestBut (Ix := Unit) (Name := ℕ) (U := UR sig nD τ) (Lvl := ℕ) (Val := Elt F) spec6 c [cc6_scratch0])
          ∗ (∃ r, prngReg c r)) := by
  unfold Pipeline.ΦA; rw [scopedRest6_split]; simp only [scM6, owns_whole]; try rfl

/-- Before the first point: what the launch hands over. -/
theorem Phi6_zero (c : Dev nD) (n : ℕ) (h : n ≤ cfg6.N) (hz : n = 0) : Phi6 V c n h = Pipeline.ΦA spec6 c := by
  subst hz; rfl

/-- After point `n`: the scratch at that point's accumulator. -/
theorem Phi6_succ (c : Dev nD) (n : ℕ) (hn : n < cfg6.N) :
    Phi6 V c (n + 1) hn = iprop(owns (c : Thread nD τ) scM6 fullShare (acc6 V c n hn)
      ∗ Pipeline.scopedRestBut (Ix := Unit) (Name := ℕ) (U := UR sig nD τ) (Lvl := ℕ) (Val := Elt F) spec6 c [cc6_scratch0]
      ∗ (∃ r, prngReg c r)) := rfl

/-- Before a point that is not the first: the scratch at the accumulator the point before left. -/
theorem Phi6_pos (c : Dev nD) (n : ℕ) (h : n ≤ cfg6.N) (hz : n ≠ 0) :
    Phi6 V c n h = iprop(owns (c : Thread nD τ) scM6 fullShare (acc6 V c (n - 1) (by omega))
      ∗ Pipeline.scopedRestBut (Ix := Unit) (Name := ℕ) (U := UR sig nD τ) (Lvl := ℕ) (Val := Elt F) spec6 c [cc6_scratch0]
      ∗ (∃ r, prngReg c r)) := by
  cases n with
  | zero => exact absurd rfl hz
  | succ n => rfl

/-- The invariant at a point's start, restated at the point's position. -/
theorem Phi6_castSucc (c : Dev nD) (t : Fin cfg6.N) :
    (dat6 V c).Φ t.castSucc = Phi6 V c t.val (Nat.le_of_lt t.isLt) := by
  dsimp only [dat6]; simp only [Fin.coe_castSucc]

/-- The accumulator at a point that is not the first, over the one the point before left. -/
theorem acc6_pos (c : Dev nD) (t : Fin cfg6.N) (hz : t.val ≠ 0) :
    acc6 V c t.val t.isLt = k6_pay2 (iblk6 V c 0 t) (iblk6 V c 1 t) (acc6 V c (t.val - 1) (Nat.lt_of_le_of_lt (Nat.sub_le _ _) t.isLt)) := by
  obtain ⟨n, hn⟩ := t
  cases n with
  | zero => exact absurd rfl hz
  | succ n => rfl

/-- The accumulator at the first point. -/
theorem acc6_first (c : Dev nD) (t : Fin cfg6.N) (hz : t.val = 0) :
    acc6 V c t.val t.isLt = k6_pay2 (iblk6 V c 0 t) (iblk6 V c 1 t) (k6_pay1 (F := F)) := by
  obtain ⟨n, hn⟩ := t
  cases n with
  | zero => rfl
  | succ n => exact absurd hz (Nat.succ_ne_zero n)

/-! ## The inputs' staging buffers -/

/-- The activations' tile is in its staging buffer at every point: the window is fetched at every point. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- So is the tile of graph ids. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

set_option maxHeartbeats 1000000 in
/-- The body at any point. The inputs' staging buffers hold their blocks. At the first point the invariant
    is what the launch hands over, the scratch at anything, and the first case of the triple applies; at a
    later point the invariant holds the scratch at the accumulator the point before left, and the second
    case applies. Either way the scratch and the output's buffer end at this point's accumulator; the rest
    of the scoped buffers, the generator register and the core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl,
    show (dat6 V c).Φ t.succ = Phi6 V c (t.val + 1) t.isLt from rfl, Phi6_succ,
    after6_0, after6_1, after6_2]
  by_cases hz : t.val = 0
  · have hc : cond6 (grid6.coords t) := (hcond6 t).mpr (by rw [hz])
    rw [Phi6_castSucc V c t, Phi6_zero V c _ _ hz, PhiA6_eq, acc6_first V c t hz]
    iintro ⟨⟨⟨⟨%ds, HS⟩, HR⟩, Hg⟩, Ho, ⟨%d0, H0⟩, ⟨%d1, H1⟩, ⟨%d2, H2⟩⟩
    iapply (sound_kernel6_first c Set.univ (grid6.coords t) hc _ _ _ _ _ _ _ _ (iblk6 V c 0 t) (iblk6 V c 1 t) _)
    isplitl [H0]; · iexact H0
    isplitl [H1]; · iexact H1
    isplitl [H2]; · iexists _; iexact H2
    isplitl [HS]; · iexists _; iexact HS
    iintro ⟨H0, H1, H2, HS⟩
    isplitl [HS HR Hg]
    · isplitl [HS]; · iexact HS
      isplitl [HR]; · iexact HR
      iexact Hg
    isplitl [Ho]; · iexact Ho
    isplitl [H0]; · iexact H0
    isplitl [H1]; · iexact H1
    iexact H2
  · have hc : ¬cond6 (grid6.coords t) := fun h => hz (by
      have h20 : t.val < 20 := lt_of_lt_of_eq t.isLt (show cfg6.N = 20 from N_6)
      have := (hcond6 t).mp h; omega)
    rw [Phi6_castSucc V c t, Phi6_pos V c _ _ hz, acc6_pos V c t hz]
    iintro ⟨⟨HS, HR, Hg⟩, Ho, ⟨%d0, H0⟩, ⟨%d1, H1⟩, ⟨%d2, H2⟩⟩
    iapply (sound_kernel6_later c Set.univ (grid6.coords t) hc _ _ _ _ _ _ _ _ (iblk6 V c 0 t) (iblk6 V c 1 t) _ _)
    isplitl [H0]; · iexact H0
    isplitl [H1]; · iexact H1
    isplitl [H2]; · iexists _; iexact H2
    isplitl [HS]; · iexact HS
    iintro ⟨H0, H1, H2, HS⟩
    isplitl [HS HR Hg]
    · isplitl [HS]; · iexact HS
      isplitl [HR]; · iexact HR
      iexact Hg
    isplitl [Ho]; · iexact Ho
    isplitl [H0]; · iexact H0
    isplitl [H1]; · iexact H1
    iexact H2

/-- What the launch hands the region is the invariant before the first point. -/
theorem hin6 (c : Dev nD) : Pipeline.ΦA spec6 c ⊢ (dat6 V c).Φ 0 := by
  rw [show (dat6 V c).Φ 0 = Phi6 V c 0 (Nat.zero_le _) from rfl, Phi6_zero V c 0 _ rfl]
  try exact Idealize.SL.BI.Entails.refl _

/-- After the last point the invariant gives back what the launch handed the region: the accumulator's
    contents are forgotten. -/
theorem hout6 (c : Dev nD) : (dat6 V c).Φ (Fin.last cfg6.N) ⊢ Pipeline.ΦA spec6 c := by
  rw [show (dat6 V c).Φ (Fin.last cfg6.N) = Phi6 V c (Fin.last cfg6.N).val (Nat.le_of_lt_succ (Fin.last cfg6.N).isLt) from rfl,
    Phi6_pos V c _ _ (by rw [Fin.val_last]; have : cfg6.N = 20 := N_6; omega), PhiA6_eq]
  iintro ⟨HS, HR, Hg⟩
  isplitl [HS HR]
  · isplitl [HS]
    · iexists _; iexact HS
    iexact HR
  iexact Hg

/-- The pipeline library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Fold.lean ====
/- The contents of core `c`'s unscoped buffers at every boundary between two items of @main — thirteen
   items: six stretches of host operations and the seven kernel regions —, as a fold from the launch
   memory: a host stretch applies its operations; a region leaves each of its windows' arrays at what
   the pipeline's write-backs leave (an input's array as entered) and every other buffer as entered.
   Each argument array is read back through the fold to its launch contents: no host operation
   writes one and every region that touches one only reads it. -/
import proofs.«401414_j12292196401223_1_alg».proof.Proof.Gen.KernelIdeal.Regions
import proofs.«401414_j12292196401223_1_alg».proof.Proof.KI.Reg0
import proofs.«401414_j12292196401223_1_alg».proof.Proof.KI.Reg1
import proofs.«401414_j12292196401223_1_alg».proof.Proof.KI.Reg2
import proofs.«401414_j12292196401223_1_alg».proof.Proof.KI.Reg3
import proofs.«401414_j12292196401223_1_alg».proof.Proof.KI.Reg4
import proofs.«401414_j12292196401223_1_alg».proof.Proof.KI.Reg5
import proofs.«401414_j12292196401223_1_alg».proof.Proof.KI.Reg6

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The fold -/

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At region 0's exit: its windows' arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the host stretch `hostOps1`. -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b
/-- At region 1's exit: its windows' arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- At region 2's exit: its windows' arrays at what the pipeline leaves, every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)
/-- After the host stretch `hostOps3`. -/
abbrev W6 : Dev nD → Valuation τ sig (Elt F) := fun c => StableHlo.after hostOps3 (W5 m ρ c)
/-- The same read at the TensorCore's references. -/
abbrev V6 : (c : Dev nD) → (b : Ref sig .tc) → Buf (Elt F) ((c : Thread nD τ).loc b) := fun c b => W6 m ρ c b
/-- At region 3's exit: its windows' arrays at what the pipeline leaves, every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)
/-- At region 4's exit: its windows' arrays at what the pipeline leaves, every other buffer as entered. -/
def W8 (c : Dev nD) : Valuation τ sig (Elt F) :=
  Pipeline.withArrays spec4 c (W7 m ρ c) fun w => (dat4 (V7 m ρ) c).arrAt w cfg4.N
theorem W8_arr (c : Dev nD) (w : Fin cfg4.W) :
    W8 m ρ c (Proc.devRef .tc (Pipeline.arrRef spec4 w)) = (dat4 (V7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
abbrev V8 : (c : Dev nD) → (b : Ref sig .tc) → Buf (Elt F) ((c : Thread nD τ).loc b) := fun c b => W8 m ρ c b
theorem hF4 (c : Dev nD) (w : Fin cfg4.W) : (dat4 (V7 m ρ) c).arrAt w cfg4.N = V8 m ρ c (Pipeline.arrRef spec4 w) :=
  (W8_arr m ρ c w).symm
theorem hrest4 (c : Dev nD) : ∀ b, b ∉ Finset.univ.image (Pipeline.arrRef spec4) → V8 m ρ c b = V7 m ρ c b :=
  fun b hb => W8_of_ne m ρ c b fun w e => hb (Finset.mem_image.mpr ⟨w, Finset.mem_univ _, e⟩)
/-- After the host stretch `hostOps5`. -/
abbrev W9 : Dev nD → Valuation τ sig (Elt F) := fun c => StableHlo.after hostOps5 (W8 m ρ c)
/-- The same read at the TensorCore's references. -/
abbrev V9 : (c : Dev nD) → (b : Ref sig .tc) → Buf (Elt F) ((c : Thread nD τ).loc b) := fun c b => W9 m ρ c b
/-- At region 5's exit: its windows' arrays at what the pipeline leaves, every other buffer as entered. -/
def W10 (c : Dev nD) : Valuation τ sig (Elt F) :=
  Pipeline.withArrays spec5 c (W9 m ρ c) fun w => (dat5 (V9 m ρ) c).arrAt w cfg5.N
theorem W10_arr (c : Dev nD) (w : Fin cfg5.W) :
    W10 m ρ c (Proc.devRef .tc (Pipeline.arrRef spec5 w)) = (dat5 (V9 m ρ) c).arrAt w cfg5.N := by
  unfold W10; exact Pipeline.withArrays_arr spec5 launch5.win.arr_inj c _ _ w
theorem W10_of_ne (c : Dev nD) (b : Ref sig .tc) (hb : ∀ w, Pipeline.arrRef spec5 w ≠ b) :
    W10 m ρ c (Proc.devRef .tc b) = W9 m ρ c (Proc.devRef .tc b) := by
  unfold W10; exact Pipeline.withArrays_of_ne spec5 c _ _ b hb
abbrev V10 : (c : Dev nD) → (b : Ref sig .tc) → Buf (Elt F) ((c : Thread nD τ).loc b) := fun c b => W10 m ρ c b
theorem hF5 (c : Dev nD) (w : Fin cfg5.W) : (dat5 (V9 m ρ) c).arrAt w cfg5.N = V10 m ρ c (Pipeline.arrRef spec5 w) :=
  (W10_arr m ρ c w).symm
theorem hrest5 (c : Dev nD) : ∀ b, b ∉ Finset.univ.image (Pipeline.arrRef spec5) → V10 m ρ c b = V9 m ρ c b :=
  fun b hb => W10_of_ne m ρ c b fun w e => hb (Finset.mem_image.mpr ⟨w, Finset.mem_univ _, e⟩)
/-- After the host stretch `hostOps6`. -/
abbrev W11 : Dev nD → Valuation τ sig (Elt F) := fun c => StableHlo.after hostOps6 (W10 m ρ c)
/-- The same read at the TensorCore's references. -/
abbrev V11 : (c : Dev nD) → (b : Ref sig .tc) → Buf (Elt F) ((c : Thread nD τ).loc b) := fun c b => W11 m ρ c b
/-- At region 6's exit: its windows' arrays at what the pipeline leaves, every other buffer as entered. -/
def W12 (c : Dev nD) : Valuation τ sig (Elt F) :=
  Pipeline.withArrays spec6 c (W11 m ρ c) fun w => (dat6 (V11 m ρ) c).arrAt w cfg6.N
theorem W12_arr (c : Dev nD) (w : Fin cfg6.W) :
    W12 m ρ c (Proc.devRef .tc (Pipeline.arrRef spec6 w)) = (dat6 (V11 m ρ) c).arrAt w cfg6.N := by
  unfold W12; exact Pipeline.withArrays_arr spec6 launch6.win.arr_inj c _ _ w
theorem W12_of_ne (c : Dev nD) (b : Ref sig .tc) (hb : ∀ w, Pipeline.arrRef spec6 w ≠ b) :
    W12 m ρ c (Proc.devRef .tc b) = W11 m ρ c (Proc.devRef .tc b) := by
  unfold W12; exact Pipeline.withArrays_of_ne spec6 c _ _ b hb
abbrev V12 : (c : Dev nD) → (b : Ref sig .tc) → Buf (Elt F) ((c : Thread nD τ).loc b) := fun c b => W12 m ρ c b
theorem hF6 (c : Dev nD) (w : Fin cfg6.W) : (dat6 (V11 m ρ) c).arrAt w cfg6.N = V12 m ρ c (Pipeline.arrRef spec6 w) :=
  (W12_arr m ρ c w).symm
theorem hrest6 (c : Dev nD) : ∀ b, b ∉ Finset.univ.image (Pipeline.arrRef spec6) → V12 m ρ c b = V11 m ρ c b :=
  fun b hb => W12_of_ne m ρ c b fun w e => hb (Finset.mem_image.mpr ⟨w, Finset.mem_univ _, e⟩)
/-- After the host stretch `hostOps7`. -/
abbrev W13 : Dev nD → Valuation τ sig (Elt F) := fun c => StableHlo.after hostOps7 (W12 m ρ c)
/-- The same read at the TensorCore's references. -/
abbrev V13 : (c : Dev nD) → (b : Ref sig .tc) → Buf (Elt F) ((c : Thread nD τ).loc b) := fun c b => W13 m ρ c b

/-! ## What each item leaves unchanged

A host stretch leaves every buffer none of its operations writes; a region leaves every buffer but its
output window's array (an input window's array is read, never written). -/

theorem W1_keep (c : Dev nD) (b : Ref sig .tc) (hb : b ∉ hostOps0_W) :
    W1 m ρ c (Proc.devRef .tc b) = W0 m ρ c (Proc.devRef .tc b) :=
  StableHlo.after_of_writes_sub hostOps0 _ hostOps0_writes hb
theorem W2_keep (c : Dev nD) (b : Ref sig .tc) (hb : Pipeline.arrRef spec0 2 ≠ b) :
    W2 m ρ c (Proc.devRef .tc b) = W1 m ρ c (Proc.devRef .tc b) := by
  by_cases h0 : Pipeline.arrRef spec0 0 = b
  · subst h0
    exact (W2_arr m ρ c 0).trans (((dat0 (V1 m ρ) c).arrAt_in 0 rfl _).trans (A_eq0 (V1 m ρ) c 0))
  by_cases h1 : Pipeline.arrRef spec0 1 = b
  · subst h1
    exact (W2_arr m ρ c 1).trans (((dat0 (V1 m ρ) c).arrAt_in 1 rfl _).trans (A_eq0 (V1 m ρ) c 1))
  exact W2_of_ne m ρ c b (fun w => match w with | ⟨0, _⟩ => h0 | ⟨1, _⟩ => h1 | ⟨2, _⟩ => hb)
theorem W3_keep (c : Dev nD) (b : Ref sig .tc) (hb : b ∉ hostOps1_W) :
    W3 m ρ c (Proc.devRef .tc b) = W2 m ρ c (Proc.devRef .tc b) :=
  StableHlo.after_of_writes_sub hostOps1 _ hostOps1_writes hb
theorem W4_keep (c : Dev nD) (b : Ref sig .tc) (hb : Pipeline.arrRef spec1 2 ≠ b) :
    W4 m ρ c (Proc.devRef .tc b) = W3 m ρ c (Proc.devRef .tc b) := by
  by_cases h0 : Pipeline.arrRef spec1 0 = b
  · subst h0
    exact (W4_arr m ρ c 0).trans (((dat1 (V3 m ρ) c).arrAt_in 0 rfl _).trans (A_eq1 (V3 m ρ) c 0))
  by_cases h1 : Pipeline.arrRef spec1 1 = b
  · subst h1
    exact (W4_arr m ρ c 1).trans (((dat1 (V3 m ρ) c).arrAt_in 1 rfl _).trans (A_eq1 (V3 m ρ) c 1))
  exact W4_of_ne m ρ c b (fun w => match w with | ⟨0, _⟩ => h0 | ⟨1, _⟩ => h1 | ⟨2, _⟩ => hb)
theorem W5_keep (c : Dev nD) (b : Ref sig .tc) (hb : Pipeline.arrRef spec2 2 ≠ b) :
    W5 m ρ c (Proc.devRef .tc b) = W4 m ρ c (Proc.devRef .tc b) := by
  by_cases h0 : Pipeline.arrRef spec2 0 = b
  · subst h0
    exact (W5_arr m ρ c 0).trans (((dat2 (V4 m ρ) c).arrAt_in 0 rfl _).trans (A_eq2 (V4 m ρ) c 0))
  by_cases h1 : Pipeline.arrRef spec2 1 = b
  · subst h1
    exact (W5_arr m ρ c 1).trans (((dat2 (V4 m ρ) c).arrAt_in 1 rfl _).trans (A_eq2 (V4 m ρ) c 1))
  exact W5_of_ne m ρ c b (fun w => match w with | ⟨0, _⟩ => h0 | ⟨1, _⟩ => h1 | ⟨2, _⟩ => hb)
theorem W6_keep (c : Dev nD) (b : Ref sig .tc) (hb : b ∉ hostOps3_W) :
    W6 m ρ c (Proc.devRef .tc b) = W5 m ρ c (Proc.devRef .tc b) :=
  StableHlo.after_of_writes_sub hostOps3 _ hostOps3_writes hb
theorem W7_keep (c : Dev nD) (b : Ref sig .tc) (hb : Pipeline.arrRef spec3 2 ≠ b) :
    W7 m ρ c (Proc.devRef .tc b) = W6 m ρ c (Proc.devRef .tc b) := by
  by_cases h0 : Pipeline.arrRef spec3 0 = b
  · subst h0
    exact (W7_arr m ρ c 0).trans (((dat3 (V6 m ρ) c).arrAt_in 0 rfl _).trans (A_eq3 (V6 m ρ) c 0))
  by_cases h1 : Pipeline.arrRef spec3 1 = b
  · subst h1
    exact (W7_arr m ρ c 1).trans (((dat3 (V6 m ρ) c).arrAt_in 1 rfl _).trans (A_eq3 (V6 m ρ) c 1))
  exact W7_of_ne m ρ c b (fun w => match w with | ⟨0, _⟩ => h0 | ⟨1, _⟩ => h1 | ⟨2, _⟩ => hb)
theorem W8_keep (c : Dev nD) (b : Ref sig .tc) (hb : Pipeline.arrRef spec4 2 ≠ b) :
    W8 m ρ c (Proc.devRef .tc b) = W7 m ρ c (Proc.devRef .tc b) := by
  by_cases h0 : Pipeline.arrRef spec4 0 = b
  · subst h0
    exact (W8_arr m ρ c 0).trans (((dat4 (V7 m ρ) c).arrAt_in 0 rfl _).trans (A_eq4 (V7 m ρ) c 0))
  by_cases h1 : Pipeline.arrRef spec4 1 = b
  · subst h1
    exact (W8_arr m ρ c 1).trans (((dat4 (V7 m ρ) c).arrAt_in 1 rfl _).trans (A_eq4 (V7 m ρ) c 1))
  exact W8_of_ne m ρ c b (fun w => match w with | ⟨0, _⟩ => h0 | ⟨1, _⟩ => h1 | ⟨2, _⟩ => hb)
theorem W9_keep (c : Dev nD) (b : Ref sig .tc) (hb : b ∉ hostOps5_W) :
    W9 m ρ c (Proc.devRef .tc b) = W8 m ρ c (Proc.devRef .tc b) :=
  StableHlo.after_of_writes_sub hostOps5 _ hostOps5_writes hb
theorem W10_keep (c : Dev nD) (b : Ref sig .tc) (hb : Pipeline.arrRef spec5 2 ≠ b) :
    W10 m ρ c (Proc.devRef .tc b) = W9 m ρ c (Proc.devRef .tc b) := by
  by_cases h0 : Pipeline.arrRef spec5 0 = b
  · subst h0
    exact (W10_arr m ρ c 0).trans (((dat5 (V9 m ρ) c).arrAt_in 0 rfl _).trans (A_eq5 (V9 m ρ) c 0))
  by_cases h1 : Pipeline.arrRef spec5 1 = b
  · subst h1
    exact (W10_arr m ρ c 1).trans (((dat5 (V9 m ρ) c).arrAt_in 1 rfl _).trans (A_eq5 (V9 m ρ) c 1))
  exact W10_of_ne m ρ c b (fun w => match w with | ⟨0, _⟩ => h0 | ⟨1, _⟩ => h1 | ⟨2, _⟩ => hb)
theorem W11_keep (c : Dev nD) (b : Ref sig .tc) (hb : b ∉ hostOps6_W) :
    W11 m ρ c (Proc.devRef .tc b) = W10 m ρ c (Proc.devRef .tc b) :=
  StableHlo.after_of_writes_sub hostOps6 _ hostOps6_writes hb
theorem W12_keep (c : Dev nD) (b : Ref sig .tc) (hb : Pipeline.arrRef spec6 2 ≠ b) :
    W12 m ρ c (Proc.devRef .tc b) = W11 m ρ c (Proc.devRef .tc b) := by
  by_cases h0 : Pipeline.arrRef spec6 0 = b
  · subst h0
    exact (W12_arr m ρ c 0).trans (((dat6 (V11 m ρ) c).arrAt_in 0 rfl _).trans (A_eq6 (V11 m ρ) c 0))
  by_cases h1 : Pipeline.arrRef spec6 1 = b
  · subst h1
    exact (W12_arr m ρ c 1).trans (((dat6 (V11 m ρ) c).arrAt_in 1 rfl _).trans (A_eq6 (V11 m ρ) c 1))
  exact W12_of_ne m ρ c b (fun w => match w with | ⟨0, _⟩ => h0 | ⟨1, _⟩ => h1 | ⟨2, _⟩ => hb)
theorem W13_keep (c : Dev nD) (b : Ref sig .tc) (hb : b ∉ hostOps7_W) :
    W13 m ρ c (Proc.devRef .tc b) = W12 m ρ c (Proc.devRef .tc b) :=
  StableHlo.after_of_writes_sub hostOps7 _ hostOps7_writes hb

/-! ## The arguments at every boundary: as launched -/

theorem W1_main_arg0 (c : Dev nD) : W1 m ρ c (Proc.devRef .tc main_arg0) = m ((c : Thread nD τ).loc main_arg0) :=
  (W1_keep m ρ c main_arg0 (by decide)).trans rfl
theorem W2_main_arg0 (c : Dev nD) : W2 m ρ c (Proc.devRef .tc main_arg0) = m ((c : Thread nD τ).loc main_arg0) :=
  (W2_keep m ρ c main_arg0 (by decide)).trans (W1_main_arg0 m ρ c)
theorem W3_main_arg0 (c : Dev nD) : W3 m ρ c (Proc.devRef .tc main_arg0) = m ((c : Thread nD τ).loc main_arg0) :=
  (W3_keep m ρ c main_arg0 (by decide)).trans (W2_main_arg0 m ρ c)
theorem W4_main_arg0 (c : Dev nD) : W4 m ρ c (Proc.devRef .tc main_arg0) = m ((c : Thread nD τ).loc main_arg0) :=
  (W4_keep m ρ c main_arg0 (by decide)).trans (W3_main_arg0 m ρ c)
theorem W5_main_arg0 (c : Dev nD) : W5 m ρ c (Proc.devRef .tc main_arg0) = m ((c : Thread nD τ).loc main_arg0) :=
  (W5_keep m ρ c main_arg0 (by decide)).trans (W4_main_arg0 m ρ c)
theorem W6_main_arg0 (c : Dev nD) : W6 m ρ c (Proc.devRef .tc main_arg0) = m ((c : Thread nD τ).loc main_arg0) :=
  (W6_keep m ρ c main_arg0 (by decide)).trans (W5_main_arg0 m ρ c)
theorem W7_main_arg0 (c : Dev nD) : W7 m ρ c (Proc.devRef .tc main_arg0) = m ((c : Thread nD τ).loc main_arg0) :=
  (W7_keep m ρ c main_arg0 (by decide)).trans (W6_main_arg0 m ρ c)
theorem W8_main_arg0 (c : Dev nD) : W8 m ρ c (Proc.devRef .tc main_arg0) = m ((c : Thread nD τ).loc main_arg0) :=
  (W8_keep m ρ c main_arg0 (by decide)).trans (W7_main_arg0 m ρ c)
theorem W9_main_arg0 (c : Dev nD) : W9 m ρ c (Proc.devRef .tc main_arg0) = m ((c : Thread nD τ).loc main_arg0) :=
  (W9_keep m ρ c main_arg0 (by decide)).trans (W8_main_arg0 m ρ c)
theorem W10_main_arg0 (c : Dev nD) : W10 m ρ c (Proc.devRef .tc main_arg0) = m ((c : Thread nD τ).loc main_arg0) :=
  (W10_keep m ρ c main_arg0 (by decide)).trans (W9_main_arg0 m ρ c)
theorem W11_main_arg0 (c : Dev nD) : W11 m ρ c (Proc.devRef .tc main_arg0) = m ((c : Thread nD τ).loc main_arg0) :=
  (W11_keep m ρ c main_arg0 (by decide)).trans (W10_main_arg0 m ρ c)
theorem W12_main_arg0 (c : Dev nD) : W12 m ρ c (Proc.devRef .tc main_arg0) = m ((c : Thread nD τ).loc main_arg0) :=
  (W12_keep m ρ c main_arg0 (by decide)).trans (W11_main_arg0 m ρ c)
theorem W13_main_arg0 (c : Dev nD) : W13 m ρ c (Proc.devRef .tc main_arg0) = m ((c : Thread nD τ).loc main_arg0) :=
  (W13_keep m ρ c main_arg0 (by decide)).trans (W12_main_arg0 m ρ c)
theorem W1_main_arg1 (c : Dev nD) : W1 m ρ c (Proc.devRef .tc main_arg1) = m ((c : Thread nD τ).loc main_arg1) :=
  (W1_keep m ρ c main_arg1 (by decide)).trans rfl
theorem W2_main_arg1 (c : Dev nD) : W2 m ρ c (Proc.devRef .tc main_arg1) = m ((c : Thread nD τ).loc main_arg1) :=
  (W2_keep m ρ c main_arg1 (by decide)).trans (W1_main_arg1 m ρ c)
theorem W3_main_arg1 (c : Dev nD) : W3 m ρ c (Proc.devRef .tc main_arg1) = m ((c : Thread nD τ).loc main_arg1) :=
  (W3_keep m ρ c main_arg1 (by decide)).trans (W2_main_arg1 m ρ c)
theorem W4_main_arg1 (c : Dev nD) : W4 m ρ c (Proc.devRef .tc main_arg1) = m ((c : Thread nD τ).loc main_arg1) :=
  (W4_keep m ρ c main_arg1 (by decide)).trans (W3_main_arg1 m ρ c)
theorem W5_main_arg1 (c : Dev nD) : W5 m ρ c (Proc.devRef .tc main_arg1) = m ((c : Thread nD τ).loc main_arg1) :=
  (W5_keep m ρ c main_arg1 (by decide)).trans (W4_main_arg1 m ρ c)
theorem W6_main_arg1 (c : Dev nD) : W6 m ρ c (Proc.devRef .tc main_arg1) = m ((c : Thread nD τ).loc main_arg1) :=
  (W6_keep m ρ c main_arg1 (by decide)).trans (W5_main_arg1 m ρ c)
theorem W7_main_arg1 (c : Dev nD) : W7 m ρ c (Proc.devRef .tc main_arg1) = m ((c : Thread nD τ).loc main_arg1) :=
  (W7_keep m ρ c main_arg1 (by decide)).trans (W6_main_arg1 m ρ c)
theorem W8_main_arg1 (c : Dev nD) : W8 m ρ c (Proc.devRef .tc main_arg1) = m ((c : Thread nD τ).loc main_arg1) :=
  (W8_keep m ρ c main_arg1 (by decide)).trans (W7_main_arg1 m ρ c)
theorem W9_main_arg1 (c : Dev nD) : W9 m ρ c (Proc.devRef .tc main_arg1) = m ((c : Thread nD τ).loc main_arg1) :=
  (W9_keep m ρ c main_arg1 (by decide)).trans (W8_main_arg1 m ρ c)
theorem W10_main_arg1 (c : Dev nD) : W10 m ρ c (Proc.devRef .tc main_arg1) = m ((c : Thread nD τ).loc main_arg1) :=
  (W10_keep m ρ c main_arg1 (by decide)).trans (W9_main_arg1 m ρ c)
theorem W11_main_arg1 (c : Dev nD) : W11 m ρ c (Proc.devRef .tc main_arg1) = m ((c : Thread nD τ).loc main_arg1) :=
  (W11_keep m ρ c main_arg1 (by decide)).trans (W10_main_arg1 m ρ c)
theorem W12_main_arg1 (c : Dev nD) : W12 m ρ c (Proc.devRef .tc main_arg1) = m ((c : Thread nD τ).loc main_arg1) :=
  (W12_keep m ρ c main_arg1 (by decide)).trans (W11_main_arg1 m ρ c)
theorem W13_main_arg1 (c : Dev nD) : W13 m ρ c (Proc.devRef .tc main_arg1) = m ((c : Thread nD τ).loc main_arg1) :=
  (W13_keep m ρ c main_arg1 (by decide)).trans (W12_main_arg1 m ρ c)
theorem W1_main_arg2 (c : Dev nD) : W1 m ρ c (Proc.devRef .tc main_arg2) = m ((c : Thread nD τ).loc main_arg2) :=
  (W1_keep m ρ c main_arg2 (by decide)).trans rfl
theorem W2_main_arg2 (c : Dev nD) : W2 m ρ c (Proc.devRef .tc main_arg2) = m ((c : Thread nD τ).loc main_arg2) :=
  (W2_keep m ρ c main_arg2 (by decide)).trans (W1_main_arg2 m ρ c)
theorem W3_main_arg2 (c : Dev nD) : W3 m ρ c (Proc.devRef .tc main_arg2) = m ((c : Thread nD τ).loc main_arg2) :=
  (W3_keep m ρ c main_arg2 (by decide)).trans (W2_main_arg2 m ρ c)
theorem W4_main_arg2 (c : Dev nD) : W4 m ρ c (Proc.devRef .tc main_arg2) = m ((c : Thread nD τ).loc main_arg2) :=
  (W4_keep m ρ c main_arg2 (by decide)).trans (W3_main_arg2 m ρ c)
theorem W5_main_arg2 (c : Dev nD) : W5 m ρ c (Proc.devRef .tc main_arg2) = m ((c : Thread nD τ).loc main_arg2) :=
  (W5_keep m ρ c main_arg2 (by decide)).trans (W4_main_arg2 m ρ c)
theorem W6_main_arg2 (c : Dev nD) : W6 m ρ c (Proc.devRef .tc main_arg2) = m ((c : Thread nD τ).loc main_arg2) :=
  (W6_keep m ρ c main_arg2 (by decide)).trans (W5_main_arg2 m ρ c)
theorem W7_main_arg2 (c : Dev nD) : W7 m ρ c (Proc.devRef .tc main_arg2) = m ((c : Thread nD τ).loc main_arg2) :=
  (W7_keep m ρ c main_arg2 (by decide)).trans (W6_main_arg2 m ρ c)
theorem W8_main_arg2 (c : Dev nD) : W8 m ρ c (Proc.devRef .tc main_arg2) = m ((c : Thread nD τ).loc main_arg2) :=
  (W8_keep m ρ c main_arg2 (by decide)).trans (W7_main_arg2 m ρ c)
theorem W9_main_arg2 (c : Dev nD) : W9 m ρ c (Proc.devRef .tc main_arg2) = m ((c : Thread nD τ).loc main_arg2) :=
  (W9_keep m ρ c main_arg2 (by decide)).trans (W8_main_arg2 m ρ c)
theorem W10_main_arg2 (c : Dev nD) : W10 m ρ c (Proc.devRef .tc main_arg2) = m ((c : Thread nD τ).loc main_arg2) :=
  (W10_keep m ρ c main_arg2 (by decide)).trans (W9_main_arg2 m ρ c)
theorem W11_main_arg2 (c : Dev nD) : W11 m ρ c (Proc.devRef .tc main_arg2) = m ((c : Thread nD τ).loc main_arg2) :=
  (W11_keep m ρ c main_arg2 (by decide)).trans (W10_main_arg2 m ρ c)
theorem W12_main_arg2 (c : Dev nD) : W12 m ρ c (Proc.devRef .tc main_arg2) = m ((c : Thread nD τ).loc main_arg2) :=
  (W12_keep m ρ c main_arg2 (by decide)).trans (W11_main_arg2 m ρ c)
theorem W13_main_arg2 (c : Dev nD) : W13 m ρ c (Proc.devRef .tc main_arg2) = m ((c : Thread nD τ).loc main_arg2) :=
  (W13_keep m ρ c main_arg2 (by decide)).trans (W12_main_arg2 m ρ c)
theorem W1_main_arg3 (c : Dev nD) : W1 m ρ c (Proc.devRef .tc main_arg3) = m ((c : Thread nD τ).loc main_arg3) :=
  (W1_keep m ρ c main_arg3 (by decide)).trans rfl
theorem W2_main_arg3 (c : Dev nD) : W2 m ρ c (Proc.devRef .tc main_arg3) = m ((c : Thread nD τ).loc main_arg3) :=
  (W2_keep m ρ c main_arg3 (by decide)).trans (W1_main_arg3 m ρ c)
theorem W3_main_arg3 (c : Dev nD) : W3 m ρ c (Proc.devRef .tc main_arg3) = m ((c : Thread nD τ).loc main_arg3) :=
  (W3_keep m ρ c main_arg3 (by decide)).trans (W2_main_arg3 m ρ c)
theorem W4_main_arg3 (c : Dev nD) : W4 m ρ c (Proc.devRef .tc main_arg3) = m ((c : Thread nD τ).loc main_arg3) :=
  (W4_keep m ρ c main_arg3 (by decide)).trans (W3_main_arg3 m ρ c)
theorem W5_main_arg3 (c : Dev nD) : W5 m ρ c (Proc.devRef .tc main_arg3) = m ((c : Thread nD τ).loc main_arg3) :=
  (W5_keep m ρ c main_arg3 (by decide)).trans (W4_main_arg3 m ρ c)
theorem W6_main_arg3 (c : Dev nD) : W6 m ρ c (Proc.devRef .tc main_arg3) = m ((c : Thread nD τ).loc main_arg3) :=
  (W6_keep m ρ c main_arg3 (by decide)).trans (W5_main_arg3 m ρ c)
theorem W7_main_arg3 (c : Dev nD) : W7 m ρ c (Proc.devRef .tc main_arg3) = m ((c : Thread nD τ).loc main_arg3) :=
  (W7_keep m ρ c main_arg3 (by decide)).trans (W6_main_arg3 m ρ c)
theorem W8_main_arg3 (c : Dev nD) : W8 m ρ c (Proc.devRef .tc main_arg3) = m ((c : Thread nD τ).loc main_arg3) :=
  (W8_keep m ρ c main_arg3 (by decide)).trans (W7_main_arg3 m ρ c)
theorem W9_main_arg3 (c : Dev nD) : W9 m ρ c (Proc.devRef .tc main_arg3) = m ((c : Thread nD τ).loc main_arg3) :=
  (W9_keep m ρ c main_arg3 (by decide)).trans (W8_main_arg3 m ρ c)
theorem W10_main_arg3 (c : Dev nD) : W10 m ρ c (Proc.devRef .tc main_arg3) = m ((c : Thread nD τ).loc main_arg3) :=
  (W10_keep m ρ c main_arg3 (by decide)).trans (W9_main_arg3 m ρ c)
theorem W11_main_arg3 (c : Dev nD) : W11 m ρ c (Proc.devRef .tc main_arg3) = m ((c : Thread nD τ).loc main_arg3) :=
  (W11_keep m ρ c main_arg3 (by decide)).trans (W10_main_arg3 m ρ c)
theorem W12_main_arg3 (c : Dev nD) : W12 m ρ c (Proc.devRef .tc main_arg3) = m ((c : Thread nD τ).loc main_arg3) :=
  (W12_keep m ρ c main_arg3 (by decide)).trans (W11_main_arg3 m ρ c)
theorem W13_main_arg3 (c : Dev nD) : W13 m ρ c (Proc.devRef .tc main_arg3) = m ((c : Thread nD τ).loc main_arg3) :=
  (W13_keep m ρ c main_arg3 (by decide)).trans (W12_main_arg3 m ρ c)
theorem W1_main_arg4 (c : Dev nD) : W1 m ρ c (Proc.devRef .tc main_arg4) = m ((c : Thread nD τ).loc main_arg4) :=
  (W1_keep m ρ c main_arg4 (by decide)).trans rfl
theorem W2_main_arg4 (c : Dev nD) : W2 m ρ c (Proc.devRef .tc main_arg4) = m ((c : Thread nD τ).loc main_arg4) :=
  (W2_keep m ρ c main_arg4 (by decide)).trans (W1_main_arg4 m ρ c)
theorem W3_main_arg4 (c : Dev nD) : W3 m ρ c (Proc.devRef .tc main_arg4) = m ((c : Thread nD τ).loc main_arg4) :=
  (W3_keep m ρ c main_arg4 (by decide)).trans (W2_main_arg4 m ρ c)
theorem W4_main_arg4 (c : Dev nD) : W4 m ρ c (Proc.devRef .tc main_arg4) = m ((c : Thread nD τ).loc main_arg4) :=
  (W4_keep m ρ c main_arg4 (by decide)).trans (W3_main_arg4 m ρ c)
theorem W5_main_arg4 (c : Dev nD) : W5 m ρ c (Proc.devRef .tc main_arg4) = m ((c : Thread nD τ).loc main_arg4) :=
  (W5_keep m ρ c main_arg4 (by decide)).trans (W4_main_arg4 m ρ c)
theorem W6_main_arg4 (c : Dev nD) : W6 m ρ c (Proc.devRef .tc main_arg4) = m ((c : Thread nD τ).loc main_arg4) :=
  (W6_keep m ρ c main_arg4 (by decide)).trans (W5_main_arg4 m ρ c)
theorem W7_main_arg4 (c : Dev nD) : W7 m ρ c (Proc.devRef .tc main_arg4) = m ((c : Thread nD τ).loc main_arg4) :=
  (W7_keep m ρ c main_arg4 (by decide)).trans (W6_main_arg4 m ρ c)
theorem W8_main_arg4 (c : Dev nD) : W8 m ρ c (Proc.devRef .tc main_arg4) = m ((c : Thread nD τ).loc main_arg4) :=
  (W8_keep m ρ c main_arg4 (by decide)).trans (W7_main_arg4 m ρ c)
theorem W9_main_arg4 (c : Dev nD) : W9 m ρ c (Proc.devRef .tc main_arg4) = m ((c : Thread nD τ).loc main_arg4) :=
  (W9_keep m ρ c main_arg4 (by decide)).trans (W8_main_arg4 m ρ c)
theorem W10_main_arg4 (c : Dev nD) : W10 m ρ c (Proc.devRef .tc main_arg4) = m ((c : Thread nD τ).loc main_arg4) :=
  (W10_keep m ρ c main_arg4 (by decide)).trans (W9_main_arg4 m ρ c)
theorem W11_main_arg4 (c : Dev nD) : W11 m ρ c (Proc.devRef .tc main_arg4) = m ((c : Thread nD τ).loc main_arg4) :=
  (W11_keep m ρ c main_arg4 (by decide)).trans (W10_main_arg4 m ρ c)
theorem W12_main_arg4 (c : Dev nD) : W12 m ρ c (Proc.devRef .tc main_arg4) = m ((c : Thread nD τ).loc main_arg4) :=
  (W12_keep m ρ c main_arg4 (by decide)).trans (W11_main_arg4 m ρ c)
theorem W13_main_arg4 (c : Dev nD) : W13 m ρ c (Proc.devRef .tc main_arg4) = m ((c : Thread nD τ).loc main_arg4) :=
  (W13_keep m ρ c main_arg4 (by decide)).trans (W12_main_arg4 m ρ c)
theorem W1_main_arg5 (c : Dev nD) : W1 m ρ c (Proc.devRef .tc main_arg5) = m ((c : Thread nD τ).loc main_arg5) :=
  (W1_keep m ρ c main_arg5 (by decide)).trans rfl
theorem W2_main_arg5 (c : Dev nD) : W2 m ρ c (Proc.devRef .tc main_arg5) = m ((c : Thread nD τ).loc main_arg5) :=
  (W2_keep m ρ c main_arg5 (by decide)).trans (W1_main_arg5 m ρ c)
theorem W3_main_arg5 (c : Dev nD) : W3 m ρ c (Proc.devRef .tc main_arg5) = m ((c : Thread nD τ).loc main_arg5) :=
  (W3_keep m ρ c main_arg5 (by decide)).trans (W2_main_arg5 m ρ c)
theorem W4_main_arg5 (c : Dev nD) : W4 m ρ c (Proc.devRef .tc main_arg5) = m ((c : Thread nD τ).loc main_arg5) :=
  (W4_keep m ρ c main_arg5 (by decide)).trans (W3_main_arg5 m ρ c)
theorem W5_main_arg5 (c : Dev nD) : W5 m ρ c (Proc.devRef .tc main_arg5) = m ((c : Thread nD τ).loc main_arg5) :=
  (W5_keep m ρ c main_arg5 (by decide)).trans (W4_main_arg5 m ρ c)
theorem W6_main_arg5 (c : Dev nD) : W6 m ρ c (Proc.devRef .tc main_arg5) = m ((c : Thread nD τ).loc main_arg5) :=
  (W6_keep m ρ c main_arg5 (by decide)).trans (W5_main_arg5 m ρ c)
theorem W7_main_arg5 (c : Dev nD) : W7 m ρ c (Proc.devRef .tc main_arg5) = m ((c : Thread nD τ).loc main_arg5) :=
  (W7_keep m ρ c main_arg5 (by decide)).trans (W6_main_arg5 m ρ c)
theorem W8_main_arg5 (c : Dev nD) : W8 m ρ c (Proc.devRef .tc main_arg5) = m ((c : Thread nD τ).loc main_arg5) :=
  (W8_keep m ρ c main_arg5 (by decide)).trans (W7_main_arg5 m ρ c)
theorem W9_main_arg5 (c : Dev nD) : W9 m ρ c (Proc.devRef .tc main_arg5) = m ((c : Thread nD τ).loc main_arg5) :=
  (W9_keep m ρ c main_arg5 (by decide)).trans (W8_main_arg5 m ρ c)
theorem W10_main_arg5 (c : Dev nD) : W10 m ρ c (Proc.devRef .tc main_arg5) = m ((c : Thread nD τ).loc main_arg5) :=
  (W10_keep m ρ c main_arg5 (by decide)).trans (W9_main_arg5 m ρ c)
theorem W11_main_arg5 (c : Dev nD) : W11 m ρ c (Proc.devRef .tc main_arg5) = m ((c : Thread nD τ).loc main_arg5) :=
  (W11_keep m ρ c main_arg5 (by decide)).trans (W10_main_arg5 m ρ c)
theorem W12_main_arg5 (c : Dev nD) : W12 m ρ c (Proc.devRef .tc main_arg5) = m ((c : Thread nD τ).loc main_arg5) :=
  (W12_keep m ρ c main_arg5 (by decide)).trans (W11_main_arg5 m ρ c)
theorem W13_main_arg5 (c : Dev nD) : W13 m ρ c (Proc.devRef .tc main_arg5) = m ((c : Thread nD τ).loc main_arg5) :=
  (W13_keep m ρ c main_arg5 (by decide)).trans (W12_main_arg5 m ρ c)
theorem W1_main_arg6 (c : Dev nD) : W1 m ρ c (Proc.devRef .tc main_arg6) = m ((c : Thread nD τ).loc main_arg6) :=
  (W1_keep m ρ c main_arg6 (by decide)).trans rfl
theorem W2_main_arg6 (c : Dev nD) : W2 m ρ c (Proc.devRef .tc main_arg6) = m ((c : Thread nD τ).loc main_arg6) :=
  (W2_keep m ρ c main_arg6 (by decide)).trans (W1_main_arg6 m ρ c)
theorem W3_main_arg6 (c : Dev nD) : W3 m ρ c (Proc.devRef .tc main_arg6) = m ((c : Thread nD τ).loc main_arg6) :=
  (W3_keep m ρ c main_arg6 (by decide)).trans (W2_main_arg6 m ρ c)
theorem W4_main_arg6 (c : Dev nD) : W4 m ρ c (Proc.devRef .tc main_arg6) = m ((c : Thread nD τ).loc main_arg6) :=
  (W4_keep m ρ c main_arg6 (by decide)).trans (W3_main_arg6 m ρ c)
theorem W5_main_arg6 (c : Dev nD) : W5 m ρ c (Proc.devRef .tc main_arg6) = m ((c : Thread nD τ).loc main_arg6) :=
  (W5_keep m ρ c main_arg6 (by decide)).trans (W4_main_arg6 m ρ c)
theorem W6_main_arg6 (c : Dev nD) : W6 m ρ c (Proc.devRef .tc main_arg6) = m ((c : Thread nD τ).loc main_arg6) :=
  (W6_keep m ρ c main_arg6 (by decide)).trans (W5_main_arg6 m ρ c)
theorem W7_main_arg6 (c : Dev nD) : W7 m ρ c (Proc.devRef .tc main_arg6) = m ((c : Thread nD τ).loc main_arg6) :=
  (W7_keep m ρ c main_arg6 (by decide)).trans (W6_main_arg6 m ρ c)
theorem W8_main_arg6 (c : Dev nD) : W8 m ρ c (Proc.devRef .tc main_arg6) = m ((c : Thread nD τ).loc main_arg6) :=
  (W8_keep m ρ c main_arg6 (by decide)).trans (W7_main_arg6 m ρ c)
theorem W9_main_arg6 (c : Dev nD) : W9 m ρ c (Proc.devRef .tc main_arg6) = m ((c : Thread nD τ).loc main_arg6) :=
  (W9_keep m ρ c main_arg6 (by decide)).trans (W8_main_arg6 m ρ c)
theorem W10_main_arg6 (c : Dev nD) : W10 m ρ c (Proc.devRef .tc main_arg6) = m ((c : Thread nD τ).loc main_arg6) :=
  (W10_keep m ρ c main_arg6 (by decide)).trans (W9_main_arg6 m ρ c)
theorem W11_main_arg6 (c : Dev nD) : W11 m ρ c (Proc.devRef .tc main_arg6) = m ((c : Thread nD τ).loc main_arg6) :=
  (W11_keep m ρ c main_arg6 (by decide)).trans (W10_main_arg6 m ρ c)
theorem W12_main_arg6 (c : Dev nD) : W12 m ρ c (Proc.devRef .tc main_arg6) = m ((c : Thread nD τ).loc main_arg6) :=
  (W12_keep m ρ c main_arg6 (by decide)).trans (W11_main_arg6 m ρ c)
theorem W13_main_arg6 (c : Dev nD) : W13 m ρ c (Proc.devRef .tc main_arg6) = m ((c : Thread nD τ).loc main_arg6) :=
  (W13_keep m ρ c main_arg6 (by decide)).trans (W12_main_arg6 m ρ c)
theorem W1_main_arg7 (c : Dev nD) : W1 m ρ c (Proc.devRef .tc main_arg7) = m ((c : Thread nD τ).loc main_arg7) :=
  (W1_keep m ρ c main_arg7 (by decide)).trans rfl
theorem W2_main_arg7 (c : Dev nD) : W2 m ρ c (Proc.devRef .tc main_arg7) = m ((c : Thread nD τ).loc main_arg7) :=
  (W2_keep m ρ c main_arg7 (by decide)).trans (W1_main_arg7 m ρ c)
theorem W3_main_arg7 (c : Dev nD) : W3 m ρ c (Proc.devRef .tc main_arg7) = m ((c : Thread nD τ).loc main_arg7) :=
  (W3_keep m ρ c main_arg7 (by decide)).trans (W2_main_arg7 m ρ c)
theorem W4_main_arg7 (c : Dev nD) : W4 m ρ c (Proc.devRef .tc main_arg7) = m ((c : Thread nD τ).loc main_arg7) :=
  (W4_keep m ρ c main_arg7 (by decide)).trans (W3_main_arg7 m ρ c)
theorem W5_main_arg7 (c : Dev nD) : W5 m ρ c (Proc.devRef .tc main_arg7) = m ((c : Thread nD τ).loc main_arg7) :=
  (W5_keep m ρ c main_arg7 (by decide)).trans (W4_main_arg7 m ρ c)
theorem W6_main_arg7 (c : Dev nD) : W6 m ρ c (Proc.devRef .tc main_arg7) = m ((c : Thread nD τ).loc main_arg7) :=
  (W6_keep m ρ c main_arg7 (by decide)).trans (W5_main_arg7 m ρ c)
theorem W7_main_arg7 (c : Dev nD) : W7 m ρ c (Proc.devRef .tc main_arg7) = m ((c : Thread nD τ).loc main_arg7) :=
  (W7_keep m ρ c main_arg7 (by decide)).trans (W6_main_arg7 m ρ c)
theorem W8_main_arg7 (c : Dev nD) : W8 m ρ c (Proc.devRef .tc main_arg7) = m ((c : Thread nD τ).loc main_arg7) :=
  (W8_keep m ρ c main_arg7 (by decide)).trans (W7_main_arg7 m ρ c)
theorem W9_main_arg7 (c : Dev nD) : W9 m ρ c (Proc.devRef .tc main_arg7) = m ((c : Thread nD τ).loc main_arg7) :=
  (W9_keep m ρ c main_arg7 (by decide)).trans (W8_main_arg7 m ρ c)
theorem W10_main_arg7 (c : Dev nD) : W10 m ρ c (Proc.devRef .tc main_arg7) = m ((c : Thread nD τ).loc main_arg7) :=
  (W10_keep m ρ c main_arg7 (by decide)).trans (W9_main_arg7 m ρ c)
theorem W11_main_arg7 (c : Dev nD) : W11 m ρ c (Proc.devRef .tc main_arg7) = m ((c : Thread nD τ).loc main_arg7) :=
  (W11_keep m ρ c main_arg7 (by decide)).trans (W10_main_arg7 m ρ c)
theorem W12_main_arg7 (c : Dev nD) : W12 m ρ c (Proc.devRef .tc main_arg7) = m ((c : Thread nD τ).loc main_arg7) :=
  (W12_keep m ρ c main_arg7 (by decide)).trans (W11_main_arg7 m ρ c)
theorem W13_main_arg7 (c : Dev nD) : W13 m ρ c (Proc.devRef .tc main_arg7) = m ((c : Thread nD τ).loc main_arg7) :=
  (W13_keep m ρ c main_arg7 (by decide)).trans (W12_main_arg7 m ρ c)
theorem W1_main_arg8 (c : Dev nD) : W1 m ρ c (Proc.devRef .tc main_arg8) = m ((c : Thread nD τ).loc main_arg8) :=
  (W1_keep m ρ c main_arg8 (by decide)).trans rfl
theorem W2_main_arg8 (c : Dev nD) : W2 m ρ c (Proc.devRef .tc main_arg8) = m ((c : Thread nD τ).loc main_arg8) :=
  (W2_keep m ρ c main_arg8 (by decide)).trans (W1_main_arg8 m ρ c)
theorem W3_main_arg8 (c : Dev nD) : W3 m ρ c (Proc.devRef .tc main_arg8) = m ((c : Thread nD τ).loc main_arg8) :=
  (W3_keep m ρ c main_arg8 (by decide)).trans (W2_main_arg8 m ρ c)
theorem W4_main_arg8 (c : Dev nD) : W4 m ρ c (Proc.devRef .tc main_arg8) = m ((c : Thread nD τ).loc main_arg8) :=
  (W4_keep m ρ c main_arg8 (by decide)).trans (W3_main_arg8 m ρ c)
theorem W5_main_arg8 (c : Dev nD) : W5 m ρ c (Proc.devRef .tc main_arg8) = m ((c : Thread nD τ).loc main_arg8) :=
  (W5_keep m ρ c main_arg8 (by decide)).trans (W4_main_arg8 m ρ c)
theorem W6_main_arg8 (c : Dev nD) : W6 m ρ c (Proc.devRef .tc main_arg8) = m ((c : Thread nD τ).loc main_arg8) :=
  (W6_keep m ρ c main_arg8 (by decide)).trans (W5_main_arg8 m ρ c)
theorem W7_main_arg8 (c : Dev nD) : W7 m ρ c (Proc.devRef .tc main_arg8) = m ((c : Thread nD τ).loc main_arg8) :=
  (W7_keep m ρ c main_arg8 (by decide)).trans (W6_main_arg8 m ρ c)
theorem W8_main_arg8 (c : Dev nD) : W8 m ρ c (Proc.devRef .tc main_arg8) = m ((c : Thread nD τ).loc main_arg8) :=
  (W8_keep m ρ c main_arg8 (by decide)).trans (W7_main_arg8 m ρ c)
theorem W9_main_arg8 (c : Dev nD) : W9 m ρ c (Proc.devRef .tc main_arg8) = m ((c : Thread nD τ).loc main_arg8) :=
  (W9_keep m ρ c main_arg8 (by decide)).trans (W8_main_arg8 m ρ c)
theorem W10_main_arg8 (c : Dev nD) : W10 m ρ c (Proc.devRef .tc main_arg8) = m ((c : Thread nD τ).loc main_arg8) :=
  (W10_keep m ρ c main_arg8 (by decide)).trans (W9_main_arg8 m ρ c)
theorem W11_main_arg8 (c : Dev nD) : W11 m ρ c (Proc.devRef .tc main_arg8) = m ((c : Thread nD τ).loc main_arg8) :=
  (W11_keep m ρ c main_arg8 (by decide)).trans (W10_main_arg8 m ρ c)
theorem W12_main_arg8 (c : Dev nD) : W12 m ρ c (Proc.devRef .tc main_arg8) = m ((c : Thread nD τ).loc main_arg8) :=
  (W12_keep m ρ c main_arg8 (by decide)).trans (W11_main_arg8 m ρ c)
theorem W13_main_arg8 (c : Dev nD) : W13 m ρ c (Proc.devRef .tc main_arg8) = m ((c : Thread nD τ).loc main_arg8) :=
  (W13_keep m ρ c main_arg8 (by decide)).trans (W12_main_arg8 m ρ c)
theorem W1_main_arg9 (c : Dev nD) : W1 m ρ c (Proc.devRef .tc main_arg9) = m ((c : Thread nD τ).loc main_arg9) :=
  (W1_keep m ρ c main_arg9 (by decide)).trans rfl
theorem W2_main_arg9 (c : Dev nD) : W2 m ρ c (Proc.devRef .tc main_arg9) = m ((c : Thread nD τ).loc main_arg9) :=
  (W2_keep m ρ c main_arg9 (by decide)).trans (W1_main_arg9 m ρ c)
theorem W3_main_arg9 (c : Dev nD) : W3 m ρ c (Proc.devRef .tc main_arg9) = m ((c : Thread nD τ).loc main_arg9) :=
  (W3_keep m ρ c main_arg9 (by decide)).trans (W2_main_arg9 m ρ c)
theorem W4_main_arg9 (c : Dev nD) : W4 m ρ c (Proc.devRef .tc main_arg9) = m ((c : Thread nD τ).loc main_arg9) :=
  (W4_keep m ρ c main_arg9 (by decide)).trans (W3_main_arg9 m ρ c)
theorem W5_main_arg9 (c : Dev nD) : W5 m ρ c (Proc.devRef .tc main_arg9) = m ((c : Thread nD τ).loc main_arg9) :=
  (W5_keep m ρ c main_arg9 (by decide)).trans (W4_main_arg9 m ρ c)
theorem W6_main_arg9 (c : Dev nD) : W6 m ρ c (Proc.devRef .tc main_arg9) = m ((c : Thread nD τ).loc main_arg9) :=
  (W6_keep m ρ c main_arg9 (by decide)).trans (W5_main_arg9 m ρ c)
theorem W7_main_arg9 (c : Dev nD) : W7 m ρ c (Proc.devRef .tc main_arg9) = m ((c : Thread nD τ).loc main_arg9) :=
  (W7_keep m ρ c main_arg9 (by decide)).trans (W6_main_arg9 m ρ c)
theorem W8_main_arg9 (c : Dev nD) : W8 m ρ c (Proc.devRef .tc main_arg9) = m ((c : Thread nD τ).loc main_arg9) :=
  (W8_keep m ρ c main_arg9 (by decide)).trans (W7_main_arg9 m ρ c)
theorem W9_main_arg9 (c : Dev nD) : W9 m ρ c (Proc.devRef .tc main_arg9) = m ((c : Thread nD τ).loc main_arg9) :=
  (W9_keep m ρ c main_arg9 (by decide)).trans (W8_main_arg9 m ρ c)
theorem W10_main_arg9 (c : Dev nD) : W10 m ρ c (Proc.devRef .tc main_arg9) = m ((c : Thread nD τ).loc main_arg9) :=
  (W10_keep m ρ c main_arg9 (by decide)).trans (W9_main_arg9 m ρ c)
theorem W11_main_arg9 (c : Dev nD) : W11 m ρ c (Proc.devRef .tc main_arg9) = m ((c : Thread nD τ).loc main_arg9) :=
  (W11_keep m ρ c main_arg9 (by decide)).trans (W10_main_arg9 m ρ c)
theorem W12_main_arg9 (c : Dev nD) : W12 m ρ c (Proc.devRef .tc main_arg9) = m ((c : Thread nD τ).loc main_arg9) :=
  (W12_keep m ρ c main_arg9 (by decide)).trans (W11_main_arg9 m ρ c)
theorem W13_main_arg9 (c : Dev nD) : W13 m ρ c (Proc.devRef .tc main_arg9) = m ((c : Thread nD τ).loc main_arg9) :=
  (W13_keep m ρ c main_arg9 (by decide)).trans (W12_main_arg9 m ρ c)
theorem W1_main_arg10 (c : Dev nD) : W1 m ρ c (Proc.devRef .tc main_arg10) = m ((c : Thread nD τ).loc main_arg10) :=
  (W1_keep m ρ c main_arg10 (by decide)).trans rfl
theorem W2_main_arg10 (c : Dev nD) : W2 m ρ c (Proc.devRef .tc main_arg10) = m ((c : Thread nD τ).loc main_arg10) :=
  (W2_keep m ρ c main_arg10 (by decide)).trans (W1_main_arg10 m ρ c)
theorem W3_main_arg10 (c : Dev nD) : W3 m ρ c (Proc.devRef .tc main_arg10) = m ((c : Thread nD τ).loc main_arg10) :=
  (W3_keep m ρ c main_arg10 (by decide)).trans (W2_main_arg10 m ρ c)
theorem W4_main_arg10 (c : Dev nD) : W4 m ρ c (Proc.devRef .tc main_arg10) = m ((c : Thread nD τ).loc main_arg10) :=
  (W4_keep m ρ c main_arg10 (by decide)).trans (W3_main_arg10 m ρ c)
theorem W5_main_arg10 (c : Dev nD) : W5 m ρ c (Proc.devRef .tc main_arg10) = m ((c : Thread nD τ).loc main_arg10) :=
  (W5_keep m ρ c main_arg10 (by decide)).trans (W4_main_arg10 m ρ c)
theorem W6_main_arg10 (c : Dev nD) : W6 m ρ c (Proc.devRef .tc main_arg10) = m ((c : Thread nD τ).loc main_arg10) :=
  (W6_keep m ρ c main_arg10 (by decide)).trans (W5_main_arg10 m ρ c)
theorem W7_main_arg10 (c : Dev nD) : W7 m ρ c (Proc.devRef .tc main_arg10) = m ((c : Thread nD τ).loc main_arg10) :=
  (W7_keep m ρ c main_arg10 (by decide)).trans (W6_main_arg10 m ρ c)
theorem W8_main_arg10 (c : Dev nD) : W8 m ρ c (Proc.devRef .tc main_arg10) = m ((c : Thread nD τ).loc main_arg10) :=
  (W8_keep m ρ c main_arg10 (by decide)).trans (W7_main_arg10 m ρ c)
theorem W9_main_arg10 (c : Dev nD) : W9 m ρ c (Proc.devRef .tc main_arg10) = m ((c : Thread nD τ).loc main_arg10) :=
  (W9_keep m ρ c main_arg10 (by decide)).trans (W8_main_arg10 m ρ c)
theorem W10_main_arg10 (c : Dev nD) : W10 m ρ c (Proc.devRef .tc main_arg10) = m ((c : Thread nD τ).loc main_arg10) :=
  (W10_keep m ρ c main_arg10 (by decide)).trans (W9_main_arg10 m ρ c)
theorem W11_main_arg10 (c : Dev nD) : W11 m ρ c (Proc.devRef .tc main_arg10) = m ((c : Thread nD τ).loc main_arg10) :=
  (W11_keep m ρ c main_arg10 (by decide)).trans (W10_main_arg10 m ρ c)
theorem W12_main_arg10 (c : Dev nD) : W12 m ρ c (Proc.devRef .tc main_arg10) = m ((c : Thread nD τ).loc main_arg10) :=
  (W12_keep m ρ c main_arg10 (by decide)).trans (W11_main_arg10 m ρ c)
theorem W13_main_arg10 (c : Dev nD) : W13 m ρ c (Proc.devRef .tc main_arg10) = m ((c : Thread nD τ).loc main_arg10) :=
  (W13_keep m ρ c main_arg10 (by decide)).trans (W12_main_arg10 m ρ c)

end Cert.KernelIdeal.Hand

end
-- ==== Proof.KI.Run.lean ====
/- @main as a list of segments — a host segment per stretch of host operations, a region per kernel
   launch —, and the launch: from any memory with zero counters every weakly fair execution of @main
   terminates, nothing faulting, and in every final state each unscoped buffer of core `c` holds the
   fold's last contents. -/
import proofs.«401414_j12292196401223_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 7) → (pcfgs (F := F) p).Adm := fun p => (cfgs p).toPCfg_adm

/-- Every pipeline's proof data, each at the contents its region is entered from: a literal match on the
    pipeline's number, so that the pinned configuration at a numeral reduces to the printed one. -/
def pdats : (p : Fin 7) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
  | ⟨3, _⟩ => fun c => dat3 (V6 m ρ) c
  | ⟨4, _⟩ => fun c => dat4 (V7 m ρ) c
  | ⟨5, _⟩ => fun c => dat5 (V9 m ρ) c
  | ⟨6, _⟩ => fun c => dat6 (V11 m ρ) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item of @main: the core's generator register at some
    state (a region's invariant takes it in and gives it back) and the core owing nothing. -/
abbrev R (c : Dev nD) : sProp 𝕄 :=
  iprop((∃ r, prngReg c r) ∗ ∃ W, owes (c : Thread nD τ) (0 : CellTallies nD τ sig Unit) W)

/-- A stretch of host operations as a segment over the unscoped references, entered at the contents `W`
    and left at `StableHlo.after ops (W c)`, which is the next boundary's contents by name; `R` rides along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without what the core owes: every unscoped buffer at the fold's last contents
    `W13`, the generator register at some state. -/
abbrev Tₙ (c : Dev nD) : sProp 𝕄 :=
  iprop(StableHlo.held (c : Thread nD τ) (Pipeline.ucRefs τ sig) (W13 m ρ c) ∗ ∃ r, prngReg c r)

/-! ## The regions as segments -/

set_option backward.isDefEq.respectTransparency.types false in
/-- REGION 0 over the thread state: entered from every unscoped buffer at `W1`, left at `W2`. Its windows'
    arrays are split out of the unscoped buffers at entry and put back at their exit contents; the generator
    register goes into the region's invariant and comes back; nothing is owed; the kernel has no semaphore
    of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. Its windows'
    arrays are split out of the unscoped buffers at entry and put back at their exit contents; the generator
    register goes into the region's invariant and comes back; nothing is owed; the kernel has no semaphore
    of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W4`, left at `W5`. Its windows'
    arrays are split out of the unscoped buffers at entry and put back at their exit contents; the generator
    register goes into the region's invariant and comes back; nothing is owed; the kernel has no semaphore
    of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W6`, left at `W7`. Its windows'
    arrays are split out of the unscoped buffers at entry and put back at their exit contents; the generator
    register goes into the region's invariant and comes back; nothing is owed; the kernel has no semaphore
    of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at `W7`, left at `W8`. Its windows'
    arrays are split out of the unscoped buffers at entry and put back at their exit contents; the generator
    register goes into the region's invariant and comes back; nothing is owed; the kernel has no semaphore
    of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V7 m ρ) c).loose
  hwaits := Pipeline.hwaits_of_owed_zero _ _ _ _ L lv 4 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec4 c (V7 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V7 m ρ c) (V8 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 5 over the thread state: entered from every unscoped buffer at `W9`, left at `W10`. Its windows'
    arrays are split out of the unscoped buffers at entry and put back at their exit contents; the generator
    register goes into the region's invariant and comes back; nothing is owed; the kernel has no semaphore
    of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V9 m ρ) c).loose
  hwaits := Pipeline.hwaits_of_owed_zero _ _ _ _ L lv 5 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec5 c (V9 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V9 m ρ c) (V10 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 6 over the thread state: entered from every unscoped buffer at `W11`, left at `W12`. Its windows'
    arrays are split out of the unscoped buffers at entry and put back at their exit contents; the generator
    register goes into the region's invariant and comes back; nothing is owed; the kernel has no semaphore
    of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V11 m ρ) c).loose
  hwaits := Pipeline.hwaits_of_owed_zero _ _ _ _ L lv 6 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec6 c (V11 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin6 (V11 m ρ) c)
    unfold Pipeline.ΦA
    iintro ⟨Hp, -, Hr⟩
    isplitl [Hr]; · iexact Hr
    iexact Hp
  hout c := by
    rw [Pipeline.ownSems0_none]
    refine BIBase.Entails.trans (hout6 (V11 m ρ) c) ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V11 m ρ c) (V12 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's thirteen items in order: a host segment per stretch, from its boundary's contents, and a region
    per kernel launch. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)),
    .region (reg3 m ρ),
    .region (reg4 m ρ),
    .host (hseg hostOps5 hostOps5_sub hostOps5_fresh (W8 m ρ)),
    .region (reg5 m ρ),
    .host (hseg hostOps6 hostOps6_sub hostOps6_fresh (W10 m ρ)),
    .region (reg6 m ρ),
    .host (hseg hostOps7 hostOps7_sub hostOps7_fresh (W12 m ρ)) ]

/-- @main is the run of the segments: it is the chain of its items, and the segments' run is the chain of
    their fragments, item by item the same. -/
theorem main_run (c : Dev nD) : main (F := F) c = Pipeline.Seg.run (segs m ρ) := (main_chain c).trans (by chain_rfl)

set_option backward.isDefEq.respectTransparency.types false in
/-- THE RUN. Every weakly fair execution of @main from memory `m` with zero counters terminates, and every
    final state holds, on every core, each unscoped buffer at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl,
      fun c => by
        show iprop(StableHlo.held (c : Thread nD τ) (Pipeline.ucRefs τ sig) (W13 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun _ h => h)

end Cert.KernelIdeal.Hand

end
-- ==== Proof.KI.Frame.lean ====
/- The frame of the program, at any float instance: every weakly fair execution of @main terminates,
   nothing faulting, and each argument array ends as launched — the run's last contents read at the
   arguments, which no item of @main writes. And the run with the result buffer's last contents named
   beside the arguments. -/
import proofs.«401414_j12292196401223_1_alg».proof.Proof.KI.Run

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

/-- An unscoped TensorCore reference is among the buffers the run's post names. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W13_main_arg0 m ρ c),
      (h c _ (mem_uc main_arg1 (by decide))).trans (W13_main_arg1 m ρ c),
      (h c _ (mem_uc main_arg2 (by decide))).trans (W13_main_arg2 m ρ c),
      (h c _ (mem_uc main_arg3 (by decide))).trans (W13_main_arg3 m ρ c),
      (h c _ (mem_uc main_arg4 (by decide))).trans (W13_main_arg4 m ρ c),
      (h c _ (mem_uc main_arg5 (by decide))).trans (W13_main_arg5 m ρ c),
      (h c _ (mem_uc main_arg6 (by decide))).trans (W13_main_arg6 m ρ c),
      (h c _ (mem_uc main_arg7 (by decide))).trans (W13_main_arg7 m ρ c),
      (h c _ (mem_uc main_arg8 (by decide))).trans (W13_main_arg8 m ρ c),
      (h c _ (mem_uc main_arg9 (by decide))).trans (W13_main_arg9 m ρ c),
      (h c _ (mem_uc main_arg10 (by decide))).trans (W13_main_arg10 m ρ c)⟩)
    (run_all m ρ)

/-- THE RUN WITH THE RESULT NAMED: the result buffer ends at the fold's last contents, the arguments as launched. -/
theorem run_result : θ_run defs (onTc (τ := τ) (main (F := F))) ⟨m, fun _ => 0, ρ⟩ (fun r => ∀ c : Dev nD,
      r.2.mem ((c.tc : Thread nD τ).loc main_v89) = W13 m ρ c (Proc.devRef .tc main_v89)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨h c _ (mem_uc main_v89 (by decide)),
      (h c _ (mem_uc main_arg0 (by decide))).trans (W13_main_arg0 m ρ c),
      (h c _ (mem_uc main_arg1 (by decide))).trans (W13_main_arg1 m ρ c),
      (h c _ (mem_uc main_arg2 (by decide))).trans (W13_main_arg2 m ρ c),
      (h c _ (mem_uc main_arg3 (by decide))).trans (W13_main_arg3 m ρ c),
      (h c _ (mem_uc main_arg4 (by decide))).trans (W13_main_arg4 m ρ c),
      (h c _ (mem_uc main_arg5 (by decide))).trans (W13_main_arg5 m ρ c),
      (h c _ (mem_uc main_arg6 (by decide))).trans (W13_main_arg6 m ρ c),
      (h c _ (mem_uc main_arg7 (by decide))).trans (W13_main_arg7 m ρ c),
      (h c _ (mem_uc main_arg8 (by decide))).trans (W13_main_arg8 m ρ c),
      (h c _ (mem_uc main_arg9 (by decide))).trans (W13_main_arg9 m ρ c),
      (h c _ (mem_uc main_arg10 (by decide))).trans (W13_main_arg10 m ρ c)⟩)
    (run_all m ρ)

end Cert.KernelIdeal.Hand

end
-- ==== Proof.Val.Spec.lean ====
/- The function both programs compute, as a composition of stages over the argument arrays, each stage
   spelled with the host operations the reference applies:
   * the edge list with one self-loop per node appended (sources `srcOf`, targets `dstOf`);
   * a node's inverse root degree `dinvOf`: the reciprocal square root of the number of extended edges
     that end in it; an edge's weight `normOf`: the product of the two at its ends (an index read
     signed, a negative one shifted by the number of nodes: `wrapCol`);
   * an aggregation `aggOf`: the rows of a table gathered at the edges' sources, scaled by the edge
     weights and summed into the rows of the edges' targets;
   * an activation `actOf`: max(table + bias row, 0);
   * one layer: `actOf (aggOf (table · weights))`; three layers;
   * the pooled sums by graph id, divided by max(count, 1), times the last weights, plus the last bias:
     `tailOf`. -/
import proofs.«401414_j12292196401223_1_alg».proof.ReferenceIdeal

noncomputable section

namespace Cert.ReferenceIdeal.Spec

open Cert.ReferenceIdeal Idealize.ShloMosaic

variable {F : FTy → Type} [FloatOps F] [Facts]
open Facts₀ Facts

/-- The sources of the extended edge list: the given sources, then every node once. -/
abbrev srcOf (ei : IVec S2x1600000 32) : IVec S1700000 32 :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- The targets of the extended edge list: the given targets, then every node once. -/
abbrev dstOf (ei : IVec S2x1600000 32) : IVec S1700000 32 :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- An index vector as the column a gather reads: a negative index shifted up by the number of nodes. -/
abbrev wrapCol (i : IVec S1700000 32) : IVec S1700000x1 32 :=
  broadcastInDim S1700000x1 ![0] bcast_S1700000_S1700000x1_0 (select (cmpi .slt i (broadcastInDim S1700000 ![] bcast_S_S1700000 (constantI S_ 32 0#32))) (addi i (broadcastInDim S1700000 ![] bcast_S_S1700000 (constantI S_ 32 100000#32))) i)

/-- An index vector as the column a scatter reads. -/
abbrev col (i : IVec S1700000 32) : IVec S1700000x1 32 :=
  broadcastInDim S1700000x1 ![0] bcast_S1700000_S1700000x1_0 i

/-- Inverse root degrees from the targets: the reciprocal square root of each node's in-count. -/
abbrev dinvOfD (d : IVec S1700000 32) : FVec F S100000 .f32 :=
  Host.rsqrt (Host.scatterAdd scatter_S100000_S1700000x1_S1700000_n_0_0_1 (broadcastInDim S100000 ![] bcast_S_S100000 (constant S_ .f32 0x00000000#32)) (col d) (broadcastInDim S1700000 ![] bcast_S_S1700000 (constant S_ .f32 0x3F800000#32)))

/-- Edge weights from sources and targets: the product of the inverse root degrees at the two ends. -/
abbrev normOfSD (s d : IVec S1700000 32) : FVec F S1700000 .f32 :=
  mulf (Host.gather gather_S100000_S1700000x1_S1700000_n_0_n_n_0_1_1 (dinvOfD (F := F) d) (wrapCol s)) (Host.gather gather_S100000_S1700000x1_S1700000_n_0_n_n_0_1_1 (dinvOfD (F := F) d) (wrapCol d))

/-- The edge weights of the extended edge list. -/
abbrev normOf (ei : IVec S2x1600000 32) : FVec F S1700000 .f32 := normOfSD (srcOf ei) (dstOf ei)

/-- Aggregation over given sources, weights and targets: gather the table's rows at the sources, scale
    each by its edge's weight, sum into the targets' rows. -/
abbrev aggOfSD (lin : FVec F S100000x128 .f32) (s : IVec S1700000 32) (nrm : FVec F S1700000 .f32) (d : IVec S1700000 32) : FVec F S100000x128 .f32 :=
  Host.scatterAdd scatter_S100000x128_S1700000x1_S1700000x128_1_0_0_1 (broadcastInDim S100000x128 ![] bcast_S_S100000x128 (constant S_ .f32 0x00000000#32)) (col d)
    (mulf (Host.gather gather_S100000x128_S1700000x1_S1700000x128_1_0_n_n_0_1_1128 lin (wrapCol s)) (broadcastInDim S1700000x128 ![0, 1] bcast_S1700000x1_S1700000x128_0_1 (broadcastInDim S1700000x1 ![0] bcast_S1700000_S1700000x1_0 nrm)))

/-- Aggregation over the extended edge list. -/
abbrev aggOf (lin : FVec F S100000x128 .f32) (ei : IVec S2x1600000 32) : FVec F S100000x128 .f32 :=
  aggOfSD lin (srcOf ei) (normOf ei) (dstOf ei)

/-- Bias, given as one row, and rectifier. -/
abbrev actOfRow (a : FVec F S100000x128 .f32) (brow : FVec F S1x128 .f32) : FVec F S100000x128 .f32 :=
  maximumf (addf a (broadcastInDim S100000x128 ![0, 1] bcast_S1x128_S100000x128_0_1 brow)) (broadcastInDim S100000x128 ![] bcast_S_S100000x128 (constant S_ .f32 0x00000000#32))

/-- Bias and rectifier. -/
abbrev actOf (a : FVec F S100000x128 .f32) (b : FVec F S128 .f32) : FVec F S100000x128 .f32 :=
  actOfRow a (broadcastInDim S1x128 ![1] bcast_S128_S1x128_1 b)

/-- Sums of the rows by graph id, the ids given as a column. -/
abbrev poolOfCol (h : FVec F S100000x128 .f32) (bcol : IVec S100000x1 32) : FVec F S512x128 .f32 :=
  Host.scatterAdd scatter_S512x128_S100000x1_S100000x128_1_0_0_1 (broadcastInDim S512x128 ![] bcast_S_S512x128 (constant S_ .f32 0x00000000#32)) bcol h

/-- The ids as a column. -/
abbrev batchCol (batch : IVec S100000 32) : IVec S100000x1 32 :=
  broadcastInDim S100000x1 ![0] bcast_S100000_S100000x1_0 batch

/-- From the pooled sums: divide each graph's row by max(its node count, 1), multiply by the last
    weights, add the last bias. -/
abbrev tailOf (pooled : FVec F S512x128 .f32) (batch : IVec S100000 32) (wl : FVec F S128x1 .f32) (bl : FVec F S1 .f32) : FVec F S512x1 .f32 :=
  addf (Host.dotGeneral dot_S512x128_S128x1_S512x1_1_0_0_1_n_n none
      (Host.divf pooled (broadcastInDim S512x128 ![0, 1] bcast_S512x1_S512x128_0_1 (broadcastInDim S512x1 ![0] bcast_S512_S512x1_0
        (maximumf (Host.scatterAdd scatter_S512_S100000x1_S100000_n_0_0_1 (broadcastInDim S512 ![] bcast_S_S512 (constant S_ .f32 0x00000000#32)) (batchCol batch) (broadcastInDim S100000 ![] bcast_S_S100000 (constant S_ .f32 0x3F800000#32)))
          (broadcastInDim S512 ![] bcast_S_S512 (constant S_ .f32 0x3F800000#32))))))
      wl)
    (broadcastInDim S512x1 ![0, 1] bcast_S1x1_S512x1_0_1 (broadcastInDim S1x1 ![1] bcast_S1_S1x1_1 bl))

/-- The three layers' activations. -/
abbrev act1 (x : FVec F S100000x226 .f32) (ei : IVec S2x1600000 32) (w1 : FVec F S226x128 .f32) (b1 : FVec F S128 .f32) : FVec F S100000x128 .f32 :=
  actOf (aggOf (Host.dotGeneral dot_S100000x226_S226x128_S100000x128_1_0_0_1_n_n none x w1) ei) b1
abbrev actNext (h : FVec F S100000x128 .f32) (ei : IVec S2x1600000 32) (w : FVec F S128x128 .f32) (b : FVec F S128 .f32) : FVec F S100000x128 .f32 :=
  actOf (aggOf (Host.dotGeneral dot_S100000x128_S128x128_S100000x128_1_0_0_1_n_n none h w) ei) b

/-- THE FUNCTION: three layers, pooling, the head. -/
def G (x : FVec F S100000x226 .f32) (ei : IVec S2x1600000 32) (batch : IVec S100000 32) (w1 : FVec F S226x128 .f32) (b1 : FVec F S128 .f32)
    (w2 : FVec F S128x128 .f32) (b2 : FVec F S128 .f32) (w3 : FVec F S128x128 .f32) (b3 : FVec F S128 .f32) (wl : FVec F S128x1 .f32) (bl : FVec F S1 .f32) : FVec F S512x1 .f32 :=
  tailOf (poolOfCol (actNext (actNext (act1 x ei w1 b1) ei w2 b2) ei w3 b3) (batchCol batch)) batch wl bl

end Cert.ReferenceIdeal.Spec

end
-- ==== Proof.Val.RefG.lean ====
/- The reference program's result, as its run states it, is the specification's function of the argument
   arrays: the run's term is the same composition of host operations, written out. -/
import proofs.«401414_j12292196401223_1_alg».proof.Proof.Gen.ReferenceIdeal.Run
import proofs.«401414_j12292196401223_1_alg».proof.Proof.Val.Spec

set_option maxRecDepth 16384

noncomputable section

namespace Cert.ReferenceIdeal.Spec

open Cert.ReferenceIdeal Cert.ReferenceIdeal.Gen Idealize.ShloMosaic Idealize.ShloMosaic.TcCoe Idealize.SL.Sem

variable {F : FTy → Type} [FloatOps F]

theorem res_eq_G (m : (ℓ : Loc nD τ sig) → Buf (Elt F) ℓ) (c : Dev nD) :
    Cert.ReferenceIdeal.Value.res_main_v142 m c
      = G (F := F) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) := by
  unfold Cert.ReferenceIdeal.Value.res_main_v142 G
  rfl

end Cert.ReferenceIdeal.Spec

end
-- ==== Proof.Val.Edge.lean ====
/- The extended edge list in the kernel's fold. The first host stretch of @main computes, once, the
   edge list's sources and targets with one self-loop per node appended, and every edge's weight; they
   are the specification's `srcOf`, `dstOf` and `normOf` of the edge-index argument, and every item of
   @main up to the last aggregation leaves the three buffers alone. Also: the two reshapes the kernel's
   host side applies (a bias vector to one row, the graph ids to one column) are the broadcasts the
   specification writes. -/
import proofs.«401414_j12292196401223_1_alg».proof.Proof.KI.Fold
import proofs.«401414_j12292196401223_1_alg».proof.Proof.Val.Spec
import proofs.«401414_j12292196401223_1_alg».proof.Proof.Gen.ReferenceIdeal
import Idealize.ShloMosaic.Lib.StableHlo.Run
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.StableHlo
open Cert.ReferenceIdeal.Spec
open Idealize.ShloMosaic.ValueIdx

variable (m : (ℓ : Loc nD τ sig) → Buf (Elt Ideal) ℓ) (ρ : Dev nD → PrngReg) (c : Dev nD)

/-! ## Two layouts of one vector -/

/-- A vector reshaped to one row is the vector broadcast along the row's second axis. -/
theorem row_eq {α : Type} (b : S128.Idx → α) :
    shapeCast S1x128 b Facts₀.shapeCasts_S128_S1x128
      = broadcastInDim Cert.ReferenceIdeal.S1x128 ![1] Cert.ReferenceIdeal.Facts₀.bcast_S128_S1x128_1 b := by
  funext j
  obtain ⟨p, q, rfl⟩ : ∃ (p : Fin 1) (q : Fin 128), j = ix2 p q := ⟨j 0, j 1, eq_ix2 j⟩
  have hp : p.val = 0 := by omega
  have e1 : shapeCast S1x128 b Facts₀.shapeCasts_S128_S1x128 (ix2 p q) = b (ix1 q) :=
    shapeCast_apply b _ (ix2 p q) (ix1 q) (by
      rw [Shape.rowMajor_val_one, Shape.rowMajor_val_two]; show q.val = p.val * 128 + q.val; omega)
  have e2 : broadcastInDim Cert.ReferenceIdeal.S1x128 ![1] Cert.ReferenceIdeal.Facts₀.bcast_S128_S1x128_1 b (ix2 p q) = b (ix1 q) :=
    broadcastInDim_apply ![1] _ b (ix2 p q) (ix1 q) (fun a => by match a with | ⟨0, _⟩ => rfl)
  rw [e1, e2]

/-- A vector reshaped to one column is the vector broadcast along the column's first axis. -/
theorem col_eq {α : Type} (i : S100000.Idx → α) :
    shapeCast S100000x1 i Facts₀.shapeCasts_S100000_S100000x1
      = broadcastInDim Cert.ReferenceIdeal.S100000x1 ![0] Cert.ReferenceIdeal.Facts₀.bcast_S100000_S100000x1_0 i := by
  funext j
  obtain ⟨p, q, rfl⟩ : ∃ (p : Fin 100000) (q : Fin 1), j = ix2 p q := ⟨j 0, j 1, eq_ix2 j⟩
  have hq : q.val = 0 := by omega
  have e1 : shapeCast S100000x1 i Facts₀.shapeCasts_S100000_S100000x1 (ix2 p q) = i (ix1 p) :=
    shapeCast_apply i _ (ix2 p q) (ix1 p) (by
      rw [Shape.rowMajor_val_one, Shape.rowMajor_val_two]; show p.val = p.val * 1 + q.val; omega)
  have e2 : broadcastInDim Cert.ReferenceIdeal.S100000x1 ![0] Cert.ReferenceIdeal.Facts₀.bcast_S100000_S100000x1_0 i (ix2 p q) = i (ix1 p) :=
    broadcastInDim_apply ![0] _ i (ix2 p q) (ix1 p) (fun a => by match a with | ⟨0, _⟩ => rfl)
  rw [e1, e2]

/-! ## The first host stretch -/

theorem src_at1 : W1 m ρ c (Proc.devRef .tc main_v5) = srcOf (m ((c.tc : Thread nD τ).loc main_arg1)) := by
  show StableHlo.after hostOps0 (W0 m ρ c) (Proc.devRef .tc main_v5) = _
  after_results; rfl

theorem dst_at1 : W1 m ρ c (Proc.devRef .tc main_v6) = dstOf (m ((c.tc : Thread nD τ).loc main_arg1)) := by
  show StableHlo.after hostOps0 (W0 m ρ c) (Proc.devRef .tc main_v6) = _
  after_results; rfl

set_option maxHeartbeats 8000000 in
theorem norm_at1 : W1 m ρ c (Proc.devRef .tc main_v26) = normOf (F := Ideal) (m ((c.tc : Thread nD τ).loc main_arg1)) := by
  show StableHlo.after hostOps0 (W0 m ρ c) (Proc.devRef .tc main_v26) = _
  after_results; rfl

/-! ## The three buffers when each aggregation reads them

A buffer that region 0's output, the second host stretch, regions 1 and 2's outputs, the third host
stretch and regions 3 and 4's outputs are not, is at boundaries 2, 5 and 8 what it was at boundary 1. -/

theorem keep2 (r : Ref sig .tc) (h0 : Pipeline.arrRef spec0 2 ≠ r) :
    W2 m ρ c (Proc.devRef .tc r) = W1 m ρ c (Proc.devRef .tc r) :=
  W2_keep m ρ c r h0

theorem keep5 (r : Ref sig .tc) (h0 : Pipeline.arrRef spec0 2 ≠ r) (h1 : r ∉ hostOps1_W) (h2 : Pipeline.arrRef spec1 2 ≠ r)
    (h3 : Pipeline.arrRef spec2 2 ≠ r) : W5 m ρ c (Proc.devRef .tc r) = W1 m ρ c (Proc.devRef .tc r) :=
  (W5_keep m ρ c r h3).trans <| (W4_keep m ρ c r h2).trans <| (W3_keep m ρ c r h1).trans (W2_keep m ρ c r h0)

theorem keep8 (r : Ref sig .tc) (h0 : Pipeline.arrRef spec0 2 ≠ r) (h1 : r ∉ hostOps1_W) (h2 : Pipeline.arrRef spec1 2 ≠ r)
    (h3 : Pipeline.arrRef spec2 2 ≠ r) (h4 : r ∉ hostOps3_W) (h5 : Pipeline.arrRef spec3 2 ≠ r) (h6 : Pipeline.arrRef spec4 2 ≠ r) :
    W8 m ρ c (Proc.devRef .tc r) = W1 m ρ c (Proc.devRef .tc r) :=
  (W8_keep m ρ c r h6).trans <| (W7_keep m ρ c r h5).trans <| (W6_keep m ρ c r h4).trans (keep5 m ρ c r h0 h1 h2 h3)

theorem src_at2 : W2 m ρ c (Proc.devRef .tc main_v5) = srcOf (m ((c.tc : Thread nD τ).loc main_arg1)) :=
  (keep2 m ρ c main_v5 (by decide)).trans (src_at1 m ρ c)
theorem dst_at2 : W2 m ρ c (Proc.devRef .tc main_v6) = dstOf (m ((c.tc : Thread nD τ).loc main_arg1)) :=
  (keep2 m ρ c main_v6 (by decide)).trans (dst_at1 m ρ c)
theorem norm_at2 : W2 m ρ c (Proc.devRef .tc main_v26) = normOf (F := Ideal) (m ((c.tc : Thread nD τ).loc main_arg1)) :=
  (keep2 m ρ c main_v26 (by decide)).trans (norm_at1 m ρ c)

theorem src_at5 : W5 m ρ c (Proc.devRef .tc main_v5) = srcOf (m ((c.tc : Thread nD τ).loc main_arg1)) :=
  (keep5 m ρ c main_v5 (by decide) (by decide) (by decide) (by decide)).trans (src_at1 m ρ c)
theorem dst_at5 : W5 m ρ c (Proc.devRef .tc main_v6) = dstOf (m ((c.tc : Thread nD τ).loc main_arg1)) :=
  (keep5 m ρ c main_v6 (by decide) (by decide) (by decide) (by decide)).trans (dst_at1 m ρ c)
theorem norm_at5 : W5 m ρ c (Proc.devRef .tc main_v26) = normOf (F := Ideal) (m ((c.tc : Thread nD τ).loc main_arg1)) :=
  (keep5 m ρ c main_v26 (by decide) (by decide) (by decide) (by decide)).trans (norm_at1 m ρ c)

theorem src_at8 : W8 m ρ c (Proc.devRef .tc main_v5) = srcOf (m ((c.tc : Thread nD τ).loc main_arg1)) :=
  (keep8 m ρ c main_v5 (by decide) (by decide) (by decide) (by decide) (by decide) (by decide) (by decide)).trans (src_at1 m ρ c)
theorem dst_at8 : W8 m ρ c (Proc.devRef .tc main_v6) = dstOf (m ((c.tc : Thread nD τ).loc main_arg1)) :=
  (keep8 m ρ c main_v6 (by decide) (by decide) (by decide) (by decide) (by decide) (by decide) (by decide)).trans (dst_at1 m ρ c)
theorem norm_at8 : W8 m ρ c (Proc.devRef .tc main_v26) = normOf (F := Ideal) (m ((c.tc : Thread nD τ).loc main_arg1)) :=
  (keep8 m ρ c main_v26 (by decide) (by decide) (by decide) (by decide) (by decide) (by decide) (by decide)).trans (norm_at1 m ρ c)

end Cert.KernelIdeal.HandValue

end
-- ==== Proof.LibContract.lean ====
/-
  Two reads at an index over the extended reals, for matrices laid out as [rows, columns]: a matrix-unit product
  into a zero accumulator, and the host's contraction.
-/
import Idealize.ShloMosaic.PureOps.Ideal.Laws
import Idealize.ShloMosaic.Lib.ValueIdx

noncomputable section

namespace Cert.LibContract

open Idealize.ShloMosaic Idealize.ShloMosaic.ValueIdx
open scoped BigOperators

/-- The dimension numbers `[1] × [0]`, kept axes `[0]` and `[1]`, no batch axes, over any proof that they are
    well formed. -/
private abbrev lit {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ :=
  ⟨[1], [0], [0], [1], [], [], wf⟩

section Axes
variable {M K N : ℕ} (wf : DotDims.WF ⟨2, ![M, K]⟩ ⟨2, ![K, N]⟩ ⟨2, ![M, N]⟩ [1] [0] [0] [1] [] [])

/-- The left operand's kept axis reads the result's row. -/
private theorem lhs_0 (i : (⟨2, ![M, N]⟩ : Shape).Idx) (q : (lit wf).contr.Idx) :
    ((lit wf).lhsIdx i q 0).val = (i 0).val := by
  unfold DotDims.lhsIdx
  rw [dif_neg (show ¬(0 : Fin (⟨2, ![M, K]⟩ : Shape).rank) ∈ (lit wf).lhsBatch from List.not_mem_nil),
    dif_pos (show (0 : Fin (⟨2, ![M, K]⟩ : Shape).rank) ∈ (lit wf).lhsNonContracting from List.mem_singleton.mpr rfl)]
  rfl

/-- The left operand's contracted axis reads the contraction position. -/
private theorem lhs_1 (i : (⟨2, ![M, N]⟩ : Shape).Idx) (q : (lit wf).contr.Idx) :
    ((lit wf).lhsIdx i q 1).val = (q ⟨0, Nat.one_pos⟩).val :=
  (lit wf).lhsIdx_val_of_single rfl i q

/-- The right operand's contracted axis reads the contraction position. -/
private theorem rhs_0 (i : (⟨2, ![M, N]⟩ : Shape).Idx) (q : (lit wf).contr.Idx) :
    ((lit wf).rhsIdx i q 0).val = (q ⟨0, Nat.one_pos⟩).val :=
  (lit wf).rhsIdx_val_of_single rfl i q

/-- The right operand's kept axis reads the result's column. -/
private theorem rhs_1 (i : (⟨2, ![M, N]⟩ : Shape).Idx) (q : (lit wf).contr.Idx) :
    ((lit wf).rhsIdx i q 1).val = (i 1).val := by
  unfold DotDims.rhsIdx
  rw [dif_neg (show ¬(1 : Fin (⟨2, ![K, N]⟩ : Shape).rank) ∈ (lit wf).rhsBatch from List.not_mem_nil),
    dif_pos (show (1 : Fin (⟨2, ![K, N]⟩ : Shape).rank) ∈ (lit wf).rhsNonContracting from List.mem_singleton.mpr rfl)]
  rfl

/-- The contraction's sum over its one-axis index set is the sum over `Fin K`, the operands read at (r, k) and
    (k, j): re-index through the bijection of the one-axis index set with `Fin K`, then compare the operand
    indices axis by axis. -/
private theorem contr_lit {φ₁ φ₂ : FTy} (lhs : FVec Ideal ⟨2, ![M, K]⟩ φ₁) (rhs : FVec Ideal ⟨2, ![K, N]⟩ φ₂)
    (r : Fin M) (j : Fin N) :
    ∑ k : (lit wf).contr.Idx, lhs ((lit wf).lhsIdx (ix2 r j) k) * rhs ((lit wf).rhsIdx (ix2 r j) k)
      = ∑ k : Fin K, lhs (ix2 r k) * rhs (ix2 k j) := by
  rw [← Equiv.sum_comp (ValueIdx.contrEquiv1 (lit wf) K rfl rfl).symm]
  refine Finset.sum_congr rfl fun k _ => ?_
  have hk := ValueIdx.contrEquiv1_symm_val (lit wf) K rfl rfl k
  have el : (lit wf).lhsIdx (ix2 r j) ((ValueIdx.contrEquiv1 (lit wf) K rfl rfl).symm k) = ix2 r k :=
    funext fun a => Fin.ext (by
      match a with
      | ⟨0, _⟩ => exact lhs_0 wf _ _
      | ⟨1, _⟩ => exact (lhs_1 wf _ _).trans hk)
  have er : (lit wf).rhsIdx (ix2 r j) ((ValueIdx.contrEquiv1 (lit wf) K rfl rfl).symm k) = ix2 k j :=
    funext fun a => Fin.ext (by
      match a with
      | ⟨0, _⟩ => exact (rhs_0 wf _ _).trans hk
      | ⟨1, _⟩ => exact rhs_1 wf _ _)
  rw [el, er]

end Axes

/-- The same for any dimension numbers whose six lists are those: the record is then that literal one. -/
private theorem contr_plain {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (lhs : FVec Ideal ⟨2, ![M, K]⟩ φ₁) (rhs : FVec Ideal ⟨2, ![K, N]⟩ φ₂) (r : Fin M) (j : Fin N) :
    ∑ k : d.contr.Idx, lhs (d.lhsIdx (ix2 r j) k) * rhs (d.rhsIdx (ix2 r j) k)
      = ∑ k : Fin K, lhs (ix2 r k) * rhs (ix2 k j) := by
  obtain ⟨lc, rc, ln, rn, lb, rb, wf⟩ := d
  simp only at hlc hrc hln hrn hlb hrb
  subst hlc hrc hln hrn hlb hrb
  exact contr_lit wf lhs rhs r j

/-- The product of an [M, K] by a [K, N] matrix (contraction of the left operand's axis 1 with the right
    operand's axis 0, no batch axes), accumulated into zeros and read at (r, j): `∑ k, lhs (r, k) · rhs (k, j)`. -/
theorem matmul_plain {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (j : Fin N) :
    matmul d prec lhs rhs (constant ⟨2, ![M, N]⟩ .f32 0x00000000#32) (ix2 r j)
      = ∑ k : Fin K, lhs (ix2 r k) * rhs (ix2 k j) := by
  simp only [matmul]
  rw [Ideal.matmul_constant_zero_apply]
  exact contr_plain d hlc hrc hln hrn hlb hrb lhs rhs r j

/-- The host's contraction of the same layout, read at (r, j): the same sum. -/
theorem dotGeneral_plain {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (j : Fin N) :
    Host.dotGeneral d prec lhs rhs (ix2 r j) = ∑ k : Fin K, lhs (ix2 r k) * rhs (ix2 k j) := by
  simp only [Host.dotGeneral]
  rw [Ideal.dotGeneral_apply]
  exact contr_plain d hlc hrc hln hrn hlb hrb lhs rhs r j

end Cert.LibContract

end
-- ==== Proof.Val.MMCore.lean ====
/- What the linear layers' regions share: the zero offsets of a whole-buffer access, and the host's contraction
   of a whole 128-column array with square weights read at an entry. -/
import proofs.«401414_j12292196401223_1_alg».proof.ReferenceIdeal
import proofs.«401414_j12292196401223_1_alg».proof.Proof.Gen.ReferenceIdeal
import proofs.«401414_j12292196401223_1_alg».proof.Proof.Gen.KernelIdeal
import proofs.«401414_j12292196401223_1_alg».proof.Proof.LibContract
import Idealize.ShloMosaic.PureOps.Ideal.Laws
import Idealize.ShloMosaic.Lib.ValueIdx
import Idealize.ShloMosaic.Lib.Pipeline.Value

set_option maxRecDepth 16384

noncomputable section

namespace Cert.KernelIdeal.HandValue

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

namespace MM

/-- The zero offsets of a whole-buffer access, as the constant function. -/
theorem offsets_zero : (![0, 0] : Fin 2 → Nat) = fun _ => 0 := funext fun a => by fin_cases a <;> rfl

/-- The host's contraction of a whole 128-column array with square weights at (R, j): the sum over the
    contracted axis, `∑ k, X (R, k) · W (k, j)`. -/
theorem wholeProdSq_apply (X : Vec Ideal S100000x128 .f32) (W : Vec Ideal S128x128 .f32) (R : Fin 100000) (j : Fin 128) :
    Host.dotGeneral (F := Ideal) (φ₁ := .f32) (φ₂ := .f32) Cert.ReferenceIdeal.dot_S100000x128_S128x128_S100000x128_1_0_0_1_n_n none X W (ix2 R j)
      = ∑ k : Fin 128, X (ix2 R k) * W (ix2 k j) :=
  Cert.LibContract.dotGeneral_plain _ rfl rfl rfl rfl rfl rfl none X W R j

end MM

end Cert.KernelIdeal.HandValue

end
-- ==== Proof.Val.MM0.lean ====
/- Region 0, the first linear layer, at the exact instance: after its twenty row tiles the output array is the
   whole product of the node features by the weight matrix, the host's contraction of the two. A tile's product
   reads only the tile's rows, the conversions to a narrower format are the identity on extended reals, and the
   matrix unit's product into zeros is the plain sum over the contracted axis. -/
import proofs.«401414_j12292196401223_1_alg».proof.ReferenceIdeal
import proofs.«401414_j12292196401223_1_alg».proof.Proof.Gen.ReferenceIdeal
import proofs.«401414_j12292196401223_1_alg».proof.Proof.KI.Reg0
import proofs.«401414_j12292196401223_1_alg».proof.Proof.Val.MMCore
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

-- the contents of the unscoped buffers when the region is entered, at the exact instance
variable (V : (c : Dev nD) → (b : Ref sig .tc) → Buf (Elt Ideal) ((c : Thread nD τ).loc b))

namespace MM

/-! ## One tile's product and the whole product, read at an entry

Entry (r, j) of a tile's product is `∑ k, x (r, k) · w (k, j)` over the tile's rows; entry (R, j) of the host's
contraction is the same sum over the whole array's rows. With the tile holding rows T·5000 … T·5000 + 4999 of the
array and all of the weights, row r of the tile's product is row T·5000 + r of the whole product, term by term. -/

/-- The first layer's tile product at (r, j): the conversions to the narrower format are the identity on
    extended reals and the matrix unit's product into zeros is the plain sum over the contracted axis. -/
theorem tileProd0_apply (x0 : Vec Ideal S5000x226 .f32) (x1 : Vec Ideal S226x128 .f32) (r : Fin 5000) (j : Fin 128) :
    (k0_pay1 (F := Ideal) x0 x1) (ix2 r j) = ∑ k : Fin 226, x0 (ix2 r k) * x1 (ix2 k j) := by
  unfold k0_pay1
  exact Cert.LibContract.matmul_plain dot_S5000x226_S226x128_S5000x128_1_0_0_1_n_n rfl rfl rfl rfl rfl rfl none _ _ r j

/-- The host's contraction of the whole 226-column array with its weights at (R, j): the same sum. -/
theorem wholeProd0_apply (X : Vec Ideal S100000x226 .f32) (W : Vec Ideal S226x128 .f32) (R : Fin 100000) (j : Fin 128) :
    Host.dotGeneral (F := Ideal) (φ₁ := .f32) (φ₂ := .f32) Cert.ReferenceIdeal.dot_S100000x226_S226x128_S100000x128_1_0_0_1_n_n none X W (ix2 R j)
      = ∑ k : Fin 226, X (ix2 R k) * W (ix2 k j) :=
  Cert.LibContract.dotGeneral_plain _ rfl rfl rfl rfl rfl rfl none X W R j

/-- Row r of tile T's product is row T·5000 + r of the whole product: when the tile's left operand holds rows
    T·5000 … T·5000 + 4999 of X and its right operand is all of W, the two sums have the same terms. -/
theorem tileProd0_eq_wholeProd (X : Vec Ideal S100000x226 .f32) (W : Vec Ideal S226x128 .f32)
    (x0 : Vec Ideal S5000x226 .f32) (x1 : Vec Ideal S226x128 .f32) (T : Nat)
    (hx0 : ∀ (r : Fin 5000) (k : Fin 226) (R : Fin 100000), R.val = T * 5000 + r.val → x0 (ix2 r k) = X (ix2 R k))
    (hx1 : x1 = W) (y : S5000x128.Idx) (i : S100000x128.Idx)
    (hi0 : (i 0).val = T * 5000 + (y 0).val) (hi1 : (i 1).val = (y 1).val) :
    k0_pay1 (F := Ideal) x0 x1 y
      = Host.dotGeneral (F := Ideal) (φ₁ := .f32) (φ₂ := .f32) Cert.ReferenceIdeal.dot_S100000x226_S226x128_S100000x128_1_0_0_1_n_n none X W i := by
  subst hx1
  obtain ⟨r, j, rfl⟩ : ∃ (r : Fin 5000) (j : Fin 128), y = ix2 r j := ⟨y 0, y 1, eq_ix2 y⟩
  obtain ⟨R, j', rfl⟩ : ∃ (R : Fin 100000) (j' : Fin 128), i = ix2 R j' := ⟨i 0, i 1, eq_ix2 i⟩
  obtain rfl : j' = j := Fin.ext hi1
  rw [tileProd0_apply, wholeProd0_apply]
  exact Finset.sum_congr rfl fun k _ => by rw [hx0 r k R hi0]

/-! ## From the tiles to the whole array

Each region's output window is written back at every point; point t's block is rows t·5000 … t·5000 + 4999 of the
output array, all 128 columns. What the body leaves there is the tile's product, which is that block of the whole
product; the twenty blocks cover the array (row R lies in the block of point R / 5000), so the array ends holding
the whole product. -/

/-! ### Region 0: the node features `main_arg0` by the weights `main_arg3` -/

/-- What the body leaves in the output tile is the product of its two input blocks. -/
theorem out0_2_eq_tileProd (x0 : Vec Ideal S5000x226 .f32) (x1 : Vec Ideal S226x128 .f32) :
    out0_2 (F := Ideal) x0 x1 = k0_pay1 (F := Ideal) x0 x1 := by
  unfold out0_2
  rw [View.canon_unit_zero offsets_zero]
  simp only [View.ld_unit_zero (S := S5000x226) offsets_zero, View.ld_unit_zero (S := S226x128) offsets_zero]

/-- The index maps over the grid: the feature window and the output window are at row tile t, column block 0;
    the weight window stays at block (0, 0). -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every row tile is some point's. -/
theorem onto0 : ∀ q : Fin 20, ∃ t : Fin cfg0.N, win0_2.index t (0 : Fin 2) = q.val ∧ win0_2.index t (1 : Fin 2) = 0 :=
  (by decide +kernel : ∀ q : Fin 20, ∃ t : Fin grid0.N, win0_2.index t (0 : Fin 2) = q.val ∧ win0_2.index t (1 : Fin 2) = 0)

/-- What point t writes back is tile t of the whole product: the feature block at t is rows t·5000 … t·5000 + 4999
    of the feature array, the weight block is the whole weight matrix. -/
theorem flushed0 (c : Dev nD) (t : Fin cfg0.N) :
    (dat0 (F := Ideal) V c).flushed 2 t = ((cfg0.win 2).blk t).view.read (Elt Ideal)
      (Host.dotGeneral (F := Ideal) (φ₁ := .f32) (φ₂ := .f32) Cert.ReferenceIdeal.dot_S100000x226_S226x128_S100000x128_1_0_0_1_n_n none (V c main_arg0) (V c main_arg3)) := by
  show (cfg0.win 2).cut (grid0.coords t) ((dat0 V c).after 2 t) = _
  rw [after0_2, out0_2_eq_tileProd]
  obtain ⟨e00, e01, e10, e11, e20, e21⟩ := index0 t
  funext y
  refine tileProd0_eq_wholeProd (V c main_arg0) (V c main_arg3) (iblk0 V c 0 t) (iblk0 V c 1 t) t.val ?_ ?_
    ((cfg0.win 2).xinj (grid0.coords t) y) (((cfg0.win 2).blk t).view.emb y) ?_ ?_
  · intro r k R hR
    show V c main_arg0 (((cfg0.win 0).blk t).view.emb (ix2 r k)) = V c main_arg0 (ix2 R k)
    refine congrArg _ (funext fun a => Fin.ext ?_)
    match a with
    | ⟨0, _⟩ => show win0_0.index t (0 : Fin 2) * 5000 + 1 * r.val = R.val; omega
    | ⟨1, _⟩ => show win0_0.index t (1 : Fin 2) * 226 + 1 * k.val = k.val; omega
  · funext x
    show V c main_arg3 (((cfg0.win 1).blk t).view.emb x) = V c main_arg3 x
    refine congrArg _ (funext fun a => Fin.ext ?_)
    match a with
    | ⟨0, _⟩ => show win0_1.index t (0 : Fin 2) * 226 + 1 * (x 0).val = (x 0).val; omega
    | ⟨1, _⟩ => show win0_1.index t (1 : Fin 2) * 128 + 1 * (x 1).val = (x 1).val; omega
  · show win0_2.index t (0 : Fin 2) * 5000 + 1 * (y 0).val = t.val * 5000 + (y 0).val; omega
  · show win0_2.index t (1 : Fin 2) * 128 + 1 * (y 1).val = (y 1).val; omega

/-- An entry of the output array is in point t's tile iff each coordinate is in the tile's range. -/
theorem mem_tile0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v27).slice (win0_2.rect t)).set ↔ _
  rw [View.set_slice_whole, Rect.mem_set_unit]
  exact Iff.rfl

/-- Row R of the output array is in the tile of point R / 5000. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, q0, q1⟩ := onto0 ⟨(i 0).val / 5000, by omega⟩
  refine ⟨t, flush0_2 t, ?_⟩
  rw [mem_tile0]
  intro a
  match a with
  | ⟨0, _⟩ => show win0_2.index t (0 : Fin 2) * 5000 ≤ (i 0).val ∧ (i 0).val < win0_2.index t (0 : Fin 2) * 5000 + 5000; rw [q0]; show (i 0).val / 5000 * 5000 ≤ (i 0).val ∧ (i 0).val < (i 0).val / 5000 * 5000 + 5000; omega
  | ⟨1, _⟩ => show win0_2.index t (1 : Fin 2) * 128 ≤ (i 1).val ∧ (i 1).val < win0_2.index t (1 : Fin 2) * 128 + 128; omega

end MM

theorem arr0 (c : Dev nD) : (dat0 (F := Ideal) V c).arrAt 2 cfg0.N
    = Host.dotGeneral (F := Ideal) (φ₁ := .f32) (φ₂ := .f32) Cert.ReferenceIdeal.dot_S100000x226_S226x128_S100000x128_1_0_0_1_n_n none (V c main_arg0) (V c main_arg3) :=
  (dat0 (F := Ideal) V c).arrAt_eq_of_cover 2 _ (fun t _ => MM.flushed0 V c t) MM.cover0

end Cert.KernelIdeal.HandValue

end
-- ==== Proof.Val.MM2.lean ====
/- Region 2, a linear layer with square weights, at the exact instance: after its twenty row tiles the output
   array is the whole product of the input array by the weight matrix, the host's contraction of the two. A tile's
   product reads only the tile's rows, a cast to the same shape and the conversions to a narrower format change
   nothing on extended reals, and the matrix unit's product into zeros is the plain sum over the contracted axis. -/
import proofs.«401414_j12292196401223_1_alg».proof.ReferenceIdeal
import proofs.«401414_j12292196401223_1_alg».proof.Proof.Gen.ReferenceIdeal
import proofs.«401414_j12292196401223_1_alg».proof.Proof.KI.Reg2
import proofs.«401414_j12292196401223_1_alg».proof.Proof.Val.MMCore
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

-- the contents of the unscoped buffers when the region is entered, at the exact instance
variable (V : (c : Dev nD) → (b : Ref sig .tc) → Buf (Elt Ideal) ((c : Thread nD τ).loc b))

namespace MM

/-! ## One tile's product read at an entry

Entry (r, j) of a tile's product is `∑ k, x (r, k) · w (k, j)` over the tile's rows; entry (R, j) of the host's
contraction is the same sum over the whole array's rows. With the tile holding rows T·5000 … T·5000 + 4999 of the
array and all of the weights, row r of the tile's product is row T·5000 + r of the whole product, term by term. -/

/-- A square layer's tile product at (r, j): a cast to the same shape changes nothing, the conversions are the
    identity, and the product into zeros is the plain sum. -/
theorem tileProd2_apply (x0 : Vec Ideal S5000x128 .f32) (x1 : Vec Ideal S128x128 .f32) (r : Fin 5000) (j : Fin 128) :
    (k2_pay1 (F := Ideal) x0 x1) (ix2 r j) = ∑ k : Fin 128, x0 (ix2 r k) * x1 (ix2 k j) := by
  unfold k2_pay1
  refine (Cert.LibContract.matmul_plain dot_S5000x128_S128x128_S5000x128_1_0_0_1_n_n rfl rfl rfl rfl rfl rfl none _ _ r j).trans ?_
  refine Finset.sum_congr rfl fun k _ => ?_
  show (shapeCast S5000x128 x0 shapeCasts_S5000x128_S5000x128) (ix2 r k) * x1 (ix2 k j) = x0 (ix2 r k) * x1 (ix2 k j)
  rw [shapeCast_self]

/-- Row r of tile T's product is row T·5000 + r of the whole product, for a square layer. -/
theorem tileProd2_eq_wholeProd (X : Vec Ideal S100000x128 .f32) (W : Vec Ideal S128x128 .f32)
    (x0 : Vec Ideal S5000x128 .f32) (x1 : Vec Ideal S128x128 .f32) (T : Nat)
    (hx0 : ∀ (r : Fin 5000) (k : Fin 128) (R : Fin 100000), R.val = T * 5000 + r.val → x0 (ix2 r k) = X (ix2 R k))
    (hx1 : x1 = W) (y : S5000x128.Idx) (i : S100000x128.Idx)
    (hi0 : (i 0).val = T * 5000 + (y 0).val) (hi1 : (i 1).val = (y 1).val) :
    k2_pay1 (F := Ideal) x0 x1 y
      = Host.dotGeneral (F := Ideal) (φ₁ := .f32) (φ₂ := .f32) Cert.ReferenceIdeal.dot_S100000x128_S128x128_S100000x128_1_0_0_1_n_n none X W i := by
  subst hx1
  obtain ⟨r, j, rfl⟩ : ∃ (r : Fin 5000) (j : Fin 128), y = ix2 r j := ⟨y 0, y 1, eq_ix2 y⟩
  obtain ⟨R, j', rfl⟩ : ∃ (R : Fin 100000) (j' : Fin 128), i = ix2 R j' := ⟨i 0, i 1, eq_ix2 i⟩
  obtain rfl : j' = j := Fin.ext hi1
  rw [tileProd2_apply, wholeProdSq_apply]
  exact Finset.sum_congr rfl fun k _ => by rw [hx0 r k R hi0]

/-! ## From the tiles to the whole array

Each region's output window is written back at every point; point t's block is rows t·5000 … t·5000 + 4999 of the
output array, all 128 columns. What the body leaves there is the tile's product, which is that block of the whole
product; the twenty blocks cover the array (row R lies in the block of point R / 5000), so the array ends holding
the whole product. -/

/-! ### Region 2: the array `main_v42` by the weights `main_arg5` -/

/-- What the body leaves in the output tile is the product of its two input blocks. -/
theorem out2_2_eq_tileProd (x0 : Vec Ideal S5000x128 .f32) (x1 : Vec Ideal S128x128 .f32) :
    out2_2 (F := Ideal) x0 x1 = k2_pay1 (F := Ideal) x0 x1 := by
  unfold out2_2
  rw [View.canon_unit_zero offsets_zero]
  simp only [View.ld_unit_zero (S := S5000x128) offsets_zero, View.ld_unit_zero (S := S128x128) offsets_zero]

/-- The index maps over the grid: the input window and the output window are at row tile t, column block 0;
    the weight window stays at block (0, 0). -/
theorem index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every row tile is some point's. -/
theorem onto2 : ∀ q : Fin 20, ∃ t : Fin cfg2.N, win2_2.index t (0 : Fin 2) = q.val ∧ win2_2.index t (1 : Fin 2) = 0 :=
  (by decide +kernel : ∀ q : Fin 20, ∃ t : Fin grid2.N, win2_2.index t (0 : Fin 2) = q.val ∧ win2_2.index t (1 : Fin 2) = 0)

/-- What point t writes back is tile t of the whole product: the input block at t is rows t·5000 … t·5000 + 4999
    of the input array, the weight block is the whole weight matrix. -/
theorem flushed2 (c : Dev nD) (t : Fin cfg2.N) :
    (dat2 (F := Ideal) V c).flushed 2 t = ((cfg2.win 2).blk t).view.read (Elt Ideal)
      (Host.dotGeneral (F := Ideal) (φ₁ := .f32) (φ₂ := .f32) Cert.ReferenceIdeal.dot_S100000x128_S128x128_S100000x128_1_0_0_1_n_n none (V c main_v42) (V c main_arg5)) := by
  show (cfg2.win 2).cut (grid2.coords t) ((dat2 V c).after 2 t) = _
  rw [after2_2, out2_2_eq_tileProd]
  obtain ⟨e00, e01, e10, e11, e20, e21⟩ := index2 t
  funext y
  refine tileProd2_eq_wholeProd (V c main_v42) (V c main_arg5) (iblk2 V c 0 t) (iblk2 V c 1 t) t.val ?_ ?_
    ((cfg2.win 2).xinj (grid2.coords t) y) (((cfg2.win 2).blk t).view.emb y) ?_ ?_
  · intro r k R hR
    show V c main_v42 (((cfg2.win 0).blk t).view.emb (ix2 r k)) = V c main_v42 (ix2 R k)
    refine congrArg _ (funext fun a => Fin.ext ?_)
    match a with
    | ⟨0, _⟩ => show win2_0.index t (0 : Fin 2) * 5000 + 1 * r.val = R.val; omega
    | ⟨1, _⟩ => show win2_0.index t (1 : Fin 2) * 128 + 1 * k.val = k.val; omega
  · funext x
    show V c main_arg5 (((cfg2.win 1).blk t).view.emb x) = V c main_arg5 x
    refine congrArg _ (funext fun a => Fin.ext ?_)
    match a with
    | ⟨0, _⟩ => show win2_1.index t (0 : Fin 2) * 128 + 1 * (x 0).val = (x 0).val; omega
    | ⟨1, _⟩ => show win2_1.index t (1 : Fin 2) * 128 + 1 * (x 1).val = (x 1).val; omega
  · show win2_2.index t (0 : Fin 2) * 5000 + 1 * (y 0).val = t.val * 5000 + (y 0).val; omega
  · show win2_2.index t (1 : Fin 2) * 128 + 1 * (y 1).val = (y 1).val; omega

/-- An entry of the output array is in point t's tile iff each coordinate is in the tile's range. -/
theorem mem_tile2 (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v43).slice (win2_2.rect t)).set ↔ _
  rw [View.set_slice_whole, Rect.mem_set_unit]
  exact Iff.rfl

/-- Row R of the output array is in the tile of point R / 5000. -/
theorem cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, q0, q1⟩ := onto2 ⟨(i 0).val / 5000, by omega⟩
  refine ⟨t, flush2_2 t, ?_⟩
  rw [mem_tile2]
  intro a
  match a with
  | ⟨0, _⟩ => show win2_2.index t (0 : Fin 2) * 5000 ≤ (i 0).val ∧ (i 0).val < win2_2.index t (0 : Fin 2) * 5000 + 5000; rw [q0]; show (i 0).val / 5000 * 5000 ≤ (i 0).val ∧ (i 0).val < (i 0).val / 5000 * 5000 + 5000; omega
  | ⟨1, _⟩ => show win2_2.index t (1 : Fin 2) * 128 ≤ (i 1).val ∧ (i 1).val < win2_2.index t (1 : Fin 2) * 128 + 128; omega

end MM

theorem arr2 (c : Dev nD) : (dat2 (F := Ideal) V c).arrAt 2 cfg2.N
    = Host.dotGeneral (F := Ideal) (φ₁ := .f32) (φ₂ := .f32) Cert.ReferenceIdeal.dot_S100000x128_S128x128_S100000x128_1_0_0_1_n_n none (V c main_v42) (V c main_arg5) :=
  (dat2 (F := Ideal) V c).arrAt_eq_of_cover 2 _ (fun t _ => MM.flushed2 V c t) MM.cover2

end Cert.KernelIdeal.HandValue

end
-- ==== Proof.Val.MM4.lean ====
/- Region 4, a linear layer with square weights, at the exact instance: after its twenty row tiles the output
   array is the whole product of the input array by the weight matrix, the host's contraction of the two. A tile's
   product reads only the tile's rows, a cast to the same shape and the conversions to a narrower format change
   nothing on extended reals, and the matrix unit's product into zeros is the plain sum over the contracted axis. -/
import proofs.«401414_j12292196401223_1_alg».proof.ReferenceIdeal
import proofs.«401414_j12292196401223_1_alg».proof.Proof.Gen.ReferenceIdeal
import proofs.«401414_j12292196401223_1_alg».proof.Proof.KI.Reg4
import proofs.«401414_j12292196401223_1_alg».proof.Proof.Val.MMCore
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

-- the contents of the unscoped buffers when the region is entered, at the exact instance
variable (V : (c : Dev nD) → (b : Ref sig .tc) → Buf (Elt Ideal) ((c : Thread nD τ).loc b))

namespace MM

/-! ## One tile's product read at an entry

Entry (r, j) of a tile's product is `∑ k, x (r, k) · w (k, j)` over the tile's rows; entry (R, j) of the host's
contraction is the same sum over the whole array's rows. With the tile holding rows T·5000 … T·5000 + 4999 of the
array and all of the weights, row r of the tile's product is row T·5000 + r of the whole product, term by term. -/

/-- A square layer's tile product at (r, j): a cast to the same shape changes nothing, the conversions are the
    identity, and the product into zeros is the plain sum. -/
theorem tileProd4_apply (x0 : Vec Ideal S5000x128 .f32) (x1 : Vec Ideal S128x128 .f32) (r : Fin 5000) (j : Fin 128) :
    (k4_pay1 (F := Ideal) x0 x1) (ix2 r j) = ∑ k : Fin 128, x0 (ix2 r k) * x1 (ix2 k j) := by
  unfold k4_pay1
  refine (Cert.LibContract.matmul_plain dot_S5000x128_S128x128_S5000x128_1_0_0_1_n_n rfl rfl rfl rfl rfl rfl none _ _ r j).trans ?_
  refine Finset.sum_congr rfl fun k _ => ?_
  show (shapeCast S5000x128 x0 shapeCasts_S5000x128_S5000x128) (ix2 r k) * x1 (ix2 k j) = x0 (ix2 r k) * x1 (ix2 k j)
  rw [shapeCast_self]

/-- Row r of tile T's product is row T·5000 + r of the whole product, for a square layer. -/
theorem tileProd4_eq_wholeProd (X : Vec Ideal S100000x128 .f32) (W : Vec Ideal S128x128 .f32)
    (x0 : Vec Ideal S5000x128 .f32) (x1 : Vec Ideal S128x128 .f32) (T : Nat)
    (hx0 : ∀ (r : Fin 5000) (k : Fin 128) (R : Fin 100000), R.val = T * 5000 + r.val → x0 (ix2 r k) = X (ix2 R k))
    (hx1 : x1 = W) (y : S5000x128.Idx) (i : S100000x128.Idx)
    (hi0 : (i 0).val = T * 5000 + (y 0).val) (hi1 : (i 1).val = (y 1).val) :
    k4_pay1 (F := Ideal) x0 x1 y
      = Host.dotGeneral (F := Ideal) (φ₁ := .f32) (φ₂ := .f32) Cert.ReferenceIdeal.dot_S100000x128_S128x128_S100000x128_1_0_0_1_n_n none X W i := by
  subst hx1
  obtain ⟨r, j, rfl⟩ : ∃ (r : Fin 5000) (j : Fin 128), y = ix2 r j := ⟨y 0, y 1, eq_ix2 y⟩
  obtain ⟨R, j', rfl⟩ : ∃ (R : Fin 100000) (j' : Fin 128), i = ix2 R j' := ⟨i 0, i 1, eq_ix2 i⟩
  obtain rfl : j' = j := Fin.ext hi1
  rw [tileProd4_apply, wholeProdSq_apply]
  exact Finset.sum_congr rfl fun k _ => by rw [hx0 r k R hi0]

/-! ## From the tiles to the whole array

Each region's output window is written back at every point; point t's block is rows t·5000 … t·5000 + 4999 of the
output array, all 128 columns. What the body leaves there is the tile's product, which is that block of the whole
product; the twenty blocks cover the array (row R lies in the block of point R / 5000), so the array ends holding
the whole product. -/

/-! ### Region 4: the array `main_v58` by the weights `main_arg7` -/

/-- What the body leaves in the output tile is the product of its two input blocks. -/
theorem out4_2_eq_tileProd (x0 : Vec Ideal S5000x128 .f32) (x1 : Vec Ideal S128x128 .f32) :
    out4_2 (F := Ideal) x0 x1 = k4_pay1 (F := Ideal) x0 x1 := by
  unfold out4_2
  rw [View.canon_unit_zero offsets_zero]
  simp only [View.ld_unit_zero (S := S5000x128) offsets_zero, View.ld_unit_zero (S := S128x128) offsets_zero]

/-- The index maps over the grid: the input window and the output window are at row tile t, column block 0;
    the weight window stays at block (0, 0). -/
theorem index4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Every row tile is some point's. -/
theorem onto4 : ∀ q : Fin 20, ∃ t : Fin cfg4.N, win4_2.index t (0 : Fin 2) = q.val ∧ win4_2.index t (1 : Fin 2) = 0 :=
  (by decide +kernel : ∀ q : Fin 20, ∃ t : Fin grid4.N, win4_2.index t (0 : Fin 2) = q.val ∧ win4_2.index t (1 : Fin 2) = 0)

/-- What point t writes back is tile t of the whole product: the input block at t is rows t·5000 … t·5000 + 4999
    of the input array, the weight block is the whole weight matrix. -/
theorem flushed4 (c : Dev nD) (t : Fin cfg4.N) :
    (dat4 (F := Ideal) V c).flushed 2 t = ((cfg4.win 2).blk t).view.read (Elt Ideal)
      (Host.dotGeneral (F := Ideal) (φ₁ := .f32) (φ₂ := .f32) Cert.ReferenceIdeal.dot_S100000x128_S128x128_S100000x128_1_0_0_1_n_n none (V c main_v58) (V c main_arg7)) := by
  show (cfg4.win 2).cut (grid4.coords t) ((dat4 V c).after 2 t) = _
  rw [after4_2, out4_2_eq_tileProd]
  obtain ⟨e00, e01, e10, e11, e20, e21⟩ := index4 t
  funext y
  refine tileProd4_eq_wholeProd (V c main_v58) (V c main_arg7) (iblk4 V c 0 t) (iblk4 V c 1 t) t.val ?_ ?_
    ((cfg4.win 2).xinj (grid4.coords t) y) (((cfg4.win 2).blk t).view.emb y) ?_ ?_
  · intro r k R hR
    show V c main_v58 (((cfg4.win 0).blk t).view.emb (ix2 r k)) = V c main_v58 (ix2 R k)
    refine congrArg _ (funext fun a => Fin.ext ?_)
    match a with
    | ⟨0, _⟩ => show win4_0.index t (0 : Fin 2) * 5000 + 1 * r.val = R.val; omega
    | ⟨1, _⟩ => show win4_0.index t (1 : Fin 2) * 128 + 1 * k.val = k.val; omega
  · funext x
    show V c main_arg7 (((cfg4.win 1).blk t).view.emb x) = V c main_arg7 x
    refine congrArg _ (funext fun a => Fin.ext ?_)
    match a with
    | ⟨0, _⟩ => show win4_1.index t (0 : Fin 2) * 128 + 1 * (x 0).val = (x 0).val; omega
    | ⟨1, _⟩ => show win4_1.index t (1 : Fin 2) * 128 + 1 * (x 1).val = (x 1).val; omega
  · show win4_2.index t (0 : Fin 2) * 5000 + 1 * (y 0).val = t.val * 5000 + (y 0).val; omega
  · show win4_2.index t (1 : Fin 2) * 128 + 1 * (y 1).val = (y 1).val; omega

/-- An entry of the output array is in point t's tile iff each coordinate is in the tile's range. -/
theorem mem_tile4 (t : Fin cfg4.N) (i : S100000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v59).slice (win4_2.rect t)).set ↔ _
  rw [View.set_slice_whole, Rect.mem_set_unit]
  exact Iff.rfl

/-- Row R of the output array is in the tile of point R / 5000. -/
theorem cover4 (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  obtain ⟨t, q0, q1⟩ := onto4 ⟨(i 0).val / 5000, by omega⟩
  refine ⟨t, flush4_2 t, ?_⟩
  rw [mem_tile4]
  intro a
  match a with
  | ⟨0, _⟩ => show win4_2.index t (0 : Fin 2) * 5000 ≤ (i 0).val ∧ (i 0).val < win4_2.index t (0 : Fin 2) * 5000 + 5000; rw [q0]; show (i 0).val / 5000 * 5000 ≤ (i 0).val ∧ (i 0).val < (i 0).val / 5000 * 5000 + 5000; omega
  | ⟨1, _⟩ => show win4_2.index t (1 : Fin 2) * 128 ≤ (i 1).val ∧ (i 1).val < win4_2.index t (1 : Fin 2) * 128 + 128; omega

end MM

theorem arr4 (c : Dev nD) : (dat4 (F := Ideal) V c).arrAt 2 cfg4.N
    = Host.dotGeneral (F := Ideal) (φ₁ := .f32) (φ₂ := .f32) Cert.ReferenceIdeal.dot_S100000x128_S128x128_S100000x128_1_0_0_1_n_n none (V c main_v58) (V c main_arg7) :=
  (dat4 (F := Ideal) V c).arrAt_eq_of_cover 2 _ (fun t _ => MM.flushed4 V c t) MM.cover4

end Cert.KernelIdeal.HandValue

end
-- ==== Proof.Val.MM.lean ====
/- The linear layers' regions at the exact instance: after its twenty row tiles, a region's output
   array is the whole product of its input array by the weight matrix, the host's contraction of the
   two. A tile's product reads only the tile's rows, the conversions to a narrower format are the
   identity on extended reals, and the matrix unit's product into zeros is the plain sum over the
   contracted axis. One module per region: regions 0, 2 and 4. -/
import proofs.«401414_j12292196401223_1_alg».proof.Proof.Val.MM0
import proofs.«401414_j12292196401223_1_alg».proof.Proof.Val.MM2
import proofs.«401414_j12292196401223_1_alg».proof.Proof.Val.MM4
-- ==== Proof.Val.BR1.lean ====
/- Region 1, a bias-and-rectifier region, at the exact instance: after its twenty row tiles the region's
   output array is max(aggregate + bias row broadcast down the rows, 0) as the host states it. -/
import proofs.«401414_j12292196401223_1_alg».proof.ReferenceIdeal
import proofs.«401414_j12292196401223_1_alg».proof.Proof.Gen.ReferenceIdeal
import proofs.«401414_j12292196401223_1_alg».proof.Proof.KI.Reg1
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.HandValue.BiasRelu1

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

/-! ## One entry

Both sides are entrywise: entry (r, q) of the result is max(a (r, q) + b (0, q), 0), where `a` is the
aggregate and `b` the bias as one row. The zero is the same word on both sides and is never evaluated. -/

/-- The host's rectified biased array: the bias row repeated down the 100000 rows and added to the
    aggregate, then the maximum with the array of zeros. -/
def relu (a : Vec Ideal S100000x128 .f32) (b : Vec Ideal S1x128 .f32) : Vec Ideal S100000x128 .f32 :=
  maximumf (F := Ideal) (addf a (broadcastInDim Cert.ReferenceIdeal.S100000x128 ![0, 1] Cert.ReferenceIdeal.Facts₀.bcast_S1x128_S100000x128_0_1 b))
    (broadcastInDim Cert.ReferenceIdeal.S100000x128 ![] Cert.ReferenceIdeal.Facts₀.bcast_S_S100000x128 (constant (F := Ideal) Cert.ReferenceIdeal.S_ .f32 0x00000000#32))

/-- The host's array at entry (r, q): the row broadcast reads the bias at (0, q) (its first axis has
    extent 1), the scalar broadcast reads the zero. -/
theorem relu_apply (a : Vec Ideal S100000x128 .f32) (b : Vec Ideal S1x128 .f32) (r : Fin 100000) (q : Fin 128) :
    relu a b (ix2 r q) = max (a (ix2 r q) + b (ix2 0 q)) (Ideal.ofBits .f32 0x00000000#32) := by
  unfold relu
  rw [maximumf_apply, addf_apply]
  rw [broadcastInDim_apply (![0, 1]) Cert.ReferenceIdeal.Facts₀.bcast_S1x128_S100000x128_0_1 b (ix2 r q) (ix2 0 q) (by
    intro a; match a with | ⟨0, _⟩ => rfl | ⟨1, _⟩ => rfl)]
  rfl

/-- The body's result on a tile at entry (p, q): the two casts to the same shape change nothing, the
    row broadcast reads the bias at (0, q), the splat reads the zero. -/
theorem pay_apply (x0 : Vec Ideal S5000x128 .f32) (x1 : Vec Ideal S1x128 .f32) (p : Fin 5000) (q : Fin 128) :
    k1_pay1 (F := Ideal) x0 x1 (ix2 p q) = max (x0 (ix2 p q) + x1 (ix2 0 q)) (Ideal.ofBits .f32 0x00000000#32) := by
  unfold k1_pay1
  rw [maximumf_apply, addf_apply, shapeCast_self, shapeCast_self]
  rw [broadcastTo_apply x1 broadcasts_S1x128_S5000x128 (ix2 p q) (ix2 0 q) (by
    intro a; match a with | ⟨0, _⟩ => rfl | ⟨1, _⟩ => rfl)]
  rfl

/-- One entry of a tile against one entry of the array: when the tile's entry `j` is the aggregate's entry
    `i`, the tile's bias row is the host's bias row, and `i` is in `j`'s column, the body's result at `j` is
    the host's at `i`. -/
theorem point (a : Vec Ideal S100000x128 .f32) (b : Vec Ideal S1x128 .f32)
    (x0 : Vec Ideal S5000x128 .f32) (x1 : Vec Ideal S1x128 .f32) (j : S5000x128.Idx) (i : S100000x128.Idx)
    (h0 : x0 j = a i) (h1 : ∀ q : Fin 128, x1 (ix2 0 q) = b (ix2 0 q)) (hq : (i 1).val = (j 1).val) :
    k1_pay1 (F := Ideal) x0 x1 j = relu a b i := by
  obtain ⟨p, q, rfl⟩ : ∃ (p : Fin 5000) (q : Fin 128), j = ix2 p q := ⟨j 0, j 1, eq_ix2 j⟩
  obtain ⟨r, q', rfl⟩ : ∃ (r : Fin 100000) (q' : Fin 128), i = ix2 r q' := ⟨i 0, i 1, eq_ix2 i⟩
  have e : q' = q := Fin.ext hq
  subst e
  rw [pay_apply, relu_apply, h0, h1]

/-- The zero offsets of a whole-buffer access. -/
theorem zeros2 : (![0, 0] : Fin 2 → Nat) = fun _ => 0 := funext fun a => by fin_cases a <;> rfl

-- the contents of the unscoped buffers when a region is entered, at the exact instance
variable (V : (c : Dev nD) → (b : Ref sig .tc) → Buf (Elt Ideal) ((c : Thread nD τ).loc b))

/-! ## Region 1: tile `t` of the output is rows 5000·t … 5000·t + 4999 -/

/-- The block indices at grid point `t`: the aggregate's tile and the output's tile are both row tile `t`
    at column block 0; the bias row's block is always block (0, 0). -/
theorem idx1 : ∀ t : Fin cfg1.N, win1_0.index t (0 : Fin 2) = win1_2.index t (0 : Fin 2)
    ∧ win1_0.index t (1 : Fin 2) = 0 ∧ win1_2.index t (1 : Fin 2) = 0
    ∧ win1_1.index t (0 : Fin 2) = 0 ∧ win1_1.index t (1 : Fin 2) = 0
    ∧ win1_2.index t (0 : Fin 2) = t.val :=
  (by decide +kernel : ∀ t : Fin grid1.N, _)

/-- What point `t` writes back is row tile `t` of the rectified biased aggregate: entry (p, q) of the tile
    is built from entry (5000·t + p, q) of the aggregate and entry (0, q) of the bias row. -/
theorem flushed1 (c : Dev nD) (t : Fin cfg1.N) :
    (dat1 (F := Ideal) V c).flushed 2 t = ((cfg1.win 2).blk t).view.read (Elt Ideal) (relu (V c main_v40) (V c main_v41)) := by
  show (cfg1.win 2).cut (grid1.coords t) ((dat1 (F := Ideal) V c).after 2 t) = _
  rw [after1_2]
  unfold out1_2
  rw [View.canon_unit_zero zeros2]
  simp only [View.ld_unit_zero (S := S5000x128) zeros2, View.ld_unit_zero (S := S1x128) zeros2]
  obtain ⟨e0, e1, e2, e3, e4, e5⟩ := idx1 t
  funext j
  show k1_pay1 (F := Ideal) (iblk1 V c 0 t) (iblk1 V c 1 t) j = relu (V c main_v40) (V c main_v41) (((cfg1.win 2).blk t).view.emb j)
  refine point (V c main_v40) (V c main_v41) (iblk1 V c 0 t) (iblk1 V c 1 t) j (((cfg1.win 2).blk t).view.emb j) ?_ ?_ ?_
  · -- the aggregate's tile and the output's tile sit at the same place of their arrays
    show V c main_v40 (((cfg1.win 0).blk t).view.emb j) = V c main_v40 (((cfg1.win 2).blk t).view.emb j)
    refine congrArg (V c main_v40) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  · -- the bias row's one block is the whole row
    intro q
    show V c main_v41 (((cfg1.win 1).blk t).view.emb (ix2 0 q)) = V c main_v41 (ix2 0 q)
    refine congrArg (V c main_v41) (funext fun a => Fin.ext ?_)
    match a with
    | ⟨0, _⟩ => show win1_1.index t (0 : Fin 2) * 1 + 1 * 0 = 0; omega
    | ⟨1, _⟩ => show win1_1.index t (1 : Fin 2) * 128 + 1 * q.val = q.val; omega
  · -- a tile spans all 128 columns, so the column is kept
    show win1_2.index t (1 : Fin 2) * 128 + 1 * (j 1).val = (j 1).val; omega

/-- An index of the output array is in point `t`'s tile iff each coordinate is in the tile's range on its axis. -/
theorem mem_blk1 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v42).slice (win1_2.rect t)).set ↔ _
  rw [View.set_slice_whole, Rect.mem_set_unit]
  exact Iff.rfl

/-- The twenty tiles cover the array: row `r` is in tile `r / 5000`. -/
theorem cover1 (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ : ∃ t : Fin cfg1.N, t.val = (i 0).val / 5000 :=
    ⟨⟨(i 0).val / 5000, by rw [show cfg1.N = 20 from N_1]; omega⟩, rfl⟩
  obtain ⟨e0, e1, e2, e3, e4, e5⟩ := idx1 t
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After the twenty points the output array is the rectified biased aggregate. -/
theorem final1 (c : Dev nD) : (dat1 (F := Ideal) V c).arrAt 2 cfg1.N = relu (V c main_v40) (V c main_v41) :=
  (dat1 (F := Ideal) V c).arrAt_eq_of_cover 2 (relu (V c main_v40) (V c main_v41)) (fun t _ => flushed1 V c t) cover1

end Cert.KernelIdeal.HandValue.BiasRelu1

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)

-- the contents of the unscoped buffers when the region is entered, at the exact instance
variable (V : (c : Dev nD) → (b : Ref sig .tc) → Buf (Elt Ideal) ((c : Thread nD τ).loc b))

theorem arr1 (c : Dev nD) : (dat1 (F := Ideal) V c).arrAt 2 cfg1.N
    = maximumf (F := Ideal) (addf (V c main_v40) (broadcastInDim Cert.ReferenceIdeal.S100000x128 ![0, 1] Cert.ReferenceIdeal.Facts₀.bcast_S1x128_S100000x128_0_1 (V c main_v41)))
        (broadcastInDim Cert.ReferenceIdeal.S100000x128 ![] Cert.ReferenceIdeal.Facts₀.bcast_S_S100000x128 (constant (F := Ideal) Cert.ReferenceIdeal.S_ .f32 0x00000000#32)) :=
  BiasRelu1.final1 V c

end Cert.KernelIdeal.HandValue

end
-- ==== Proof.Val.BR3.lean ====
/- Region 3, a bias-and-rectifier region, at the exact instance: after its twenty row tiles the region's
   output array is max(aggregate + bias row broadcast down the rows, 0) as the host states it. -/
import proofs.«401414_j12292196401223_1_alg».proof.ReferenceIdeal
import proofs.«401414_j12292196401223_1_alg».proof.Proof.Gen.ReferenceIdeal
import proofs.«401414_j12292196401223_1_alg».proof.Proof.KI.Reg3
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.HandValue.BiasRelu3

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

/-! ## One entry

Both sides are entrywise: entry (r, q) of the result is max(a (r, q) + b (0, q), 0), where `a` is the
aggregate and `b` the bias as one row. The zero is the same word on both sides and is never evaluated. -/

/-- The host's rectified biased array: the bias row repeated down the 100000 rows and added to the
    aggregate, then the maximum with the array of zeros. -/
def relu (a : Vec Ideal S100000x128 .f32) (b : Vec Ideal S1x128 .f32) : Vec Ideal S100000x128 .f32 :=
  maximumf (F := Ideal) (addf a (broadcastInDim Cert.ReferenceIdeal.S100000x128 ![0, 1] Cert.ReferenceIdeal.Facts₀.bcast_S1x128_S100000x128_0_1 b))
    (broadcastInDim Cert.ReferenceIdeal.S100000x128 ![] Cert.ReferenceIdeal.Facts₀.bcast_S_S100000x128 (constant (F := Ideal) Cert.ReferenceIdeal.S_ .f32 0x00000000#32))

/-- The host's array at entry (r, q): the row broadcast reads the bias at (0, q) (its first axis has
    extent 1), the scalar broadcast reads the zero. -/
theorem relu_apply (a : Vec Ideal S100000x128 .f32) (b : Vec Ideal S1x128 .f32) (r : Fin 100000) (q : Fin 128) :
    relu a b (ix2 r q) = max (a (ix2 r q) + b (ix2 0 q)) (Ideal.ofBits .f32 0x00000000#32) := by
  unfold relu
  rw [maximumf_apply, addf_apply]
  rw [broadcastInDim_apply (![0, 1]) Cert.ReferenceIdeal.Facts₀.bcast_S1x128_S100000x128_0_1 b (ix2 r q) (ix2 0 q) (by
    intro a; match a with | ⟨0, _⟩ => rfl | ⟨1, _⟩ => rfl)]
  rfl

/-- The body's result on a tile at entry (p, q): the two casts to the same shape change nothing, the
    row broadcast reads the bias at (0, q), the splat reads the zero. -/
theorem pay_apply (x0 : Vec Ideal S5000x128 .f32) (x1 : Vec Ideal S1x128 .f32) (p : Fin 5000) (q : Fin 128) :
    k3_pay1 (F := Ideal) x0 x1 (ix2 p q) = max (x0 (ix2 p q) + x1 (ix2 0 q)) (Ideal.ofBits .f32 0x00000000#32) := by
  unfold k3_pay1
  rw [maximumf_apply, addf_apply, shapeCast_self, shapeCast_self]
  rw [broadcastTo_apply x1 broadcasts_S1x128_S5000x128 (ix2 p q) (ix2 0 q) (by
    intro a; match a with | ⟨0, _⟩ => rfl | ⟨1, _⟩ => rfl)]
  rfl

/-- One entry of a tile against one entry of the array: when the tile's entry `j` is the aggregate's entry
    `i`, the tile's bias row is the host's bias row, and `i` is in `j`'s column, the body's result at `j` is
    the host's at `i`. -/
theorem point (a : Vec Ideal S100000x128 .f32) (b : Vec Ideal S1x128 .f32)
    (x0 : Vec Ideal S5000x128 .f32) (x1 : Vec Ideal S1x128 .f32) (j : S5000x128.Idx) (i : S100000x128.Idx)
    (h0 : x0 j = a i) (h1 : ∀ q : Fin 128, x1 (ix2 0 q) = b (ix2 0 q)) (hq : (i 1).val = (j 1).val) :
    k3_pay1 (F := Ideal) x0 x1 j = relu a b i := by
  obtain ⟨p, q, rfl⟩ : ∃ (p : Fin 5000) (q : Fin 128), j = ix2 p q := ⟨j 0, j 1, eq_ix2 j⟩
  obtain ⟨r, q', rfl⟩ : ∃ (r : Fin 100000) (q' : Fin 128), i = ix2 r q' := ⟨i 0, i 1, eq_ix2 i⟩
  have e : q' = q := Fin.ext hq
  subst e
  rw [pay_apply, relu_apply, h0, h1]

/-- The zero offsets of a whole-buffer access. -/
theorem zeros2 : (![0, 0] : Fin 2 → Nat) = fun _ => 0 := funext fun a => by fin_cases a <;> rfl

-- the contents of the unscoped buffers when a region is entered, at the exact instance
variable (V : (c : Dev nD) → (b : Ref sig .tc) → Buf (Elt Ideal) ((c : Thread nD τ).loc b))

/-! ## Region 3: tile `t` of the output is rows 5000·t … 5000·t + 4999 -/

/-- The block indices at grid point `t`: the aggregate's tile and the output's tile are both row tile `t`
    at column block 0; the bias row's block is always block (0, 0). -/
theorem idx3 : ∀ t : Fin cfg3.N, win3_0.index t (0 : Fin 2) = win3_2.index t (0 : Fin 2)
    ∧ win3_0.index t (1 : Fin 2) = 0 ∧ win3_2.index t (1 : Fin 2) = 0
    ∧ win3_1.index t (0 : Fin 2) = 0 ∧ win3_1.index t (1 : Fin 2) = 0
    ∧ win3_2.index t (0 : Fin 2) = t.val :=
  (by decide +kernel : ∀ t : Fin grid3.N, _)

/-- What point `t` writes back is row tile `t` of the rectified biased aggregate: entry (p, q) of the tile
    is built from entry (5000·t + p, q) of the aggregate and entry (0, q) of the bias row. -/
theorem flushed3 (c : Dev nD) (t : Fin cfg3.N) :
    (dat3 (F := Ideal) V c).flushed 2 t = ((cfg3.win 2).blk t).view.read (Elt Ideal) (relu (V c main_v56) (V c main_v57)) := by
  show (cfg3.win 2).cut (grid3.coords t) ((dat3 (F := Ideal) V c).after 2 t) = _
  rw [after3_2]
  unfold out3_2
  rw [View.canon_unit_zero zeros2]
  simp only [View.ld_unit_zero (S := S5000x128) zeros2, View.ld_unit_zero (S := S1x128) zeros2]
  obtain ⟨e0, e1, e2, e3, e4, e5⟩ := idx3 t
  funext j
  show k3_pay1 (F := Ideal) (iblk3 V c 0 t) (iblk3 V c 1 t) j = relu (V c main_v56) (V c main_v57) (((cfg3.win 2).blk t).view.emb j)
  refine point (V c main_v56) (V c main_v57) (iblk3 V c 0 t) (iblk3 V c 1 t) j (((cfg3.win 2).blk t).view.emb j) ?_ ?_ ?_
  · -- the aggregate's tile and the output's tile sit at the same place of their arrays
    show V c main_v56 (((cfg3.win 0).blk t).view.emb j) = V c main_v56 (((cfg3.win 2).blk t).view.emb j)
    refine congrArg (V c main_v56) (funext fun a => Fin.ext ?_)
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * (j 1).val = win3_2.index t (1 : Fin 2) * 128 + 1 * (j 1).val; omega
  · -- the bias row's one block is the whole row
    intro q
    show V c main_v57 (((cfg3.win 1).blk t).view.emb (ix2 0 q)) = V c main_v57 (ix2 0 q)
    refine congrArg (V c main_v57) (funext fun a => Fin.ext ?_)
    match a with
    | ⟨0, _⟩ => show win3_1.index t (0 : Fin 2) * 1 + 1 * 0 = 0; omega
    | ⟨1, _⟩ => show win3_1.index t (1 : Fin 2) * 128 + 1 * q.val = q.val; omega
  · -- a tile spans all 128 columns, so the column is kept
    show win3_2.index t (1 : Fin 2) * 128 + 1 * (j 1).val = (j 1).val; omega

/-- An index of the output array is in point `t`'s tile iff each coordinate is in the tile's range on its axis. -/
theorem mem_blk3 (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v58).slice (win3_2.rect t)).set ↔ _
  rw [View.set_slice_whole, Rect.mem_set_unit]
  exact Iff.rfl

/-- The twenty tiles cover the array: row `r` is in tile `r / 5000`. -/
theorem cover3 (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ : ∃ t : Fin cfg3.N, t.val = (i 0).val / 5000 :=
    ⟨⟨(i 0).val / 5000, by rw [show cfg3.N = 20 from N_3]; omega⟩, rfl⟩
  obtain ⟨e0, e1, e2, e3, e4, e5⟩ := idx3 t
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- After the twenty points the output array is the rectified biased aggregate. -/
theorem final3 (c : Dev nD) : (dat3 (F := Ideal) V c).arrAt 2 cfg3.N = relu (V c main_v56) (V c main_v57) :=
  (dat3 (F := Ideal) V c).arrAt_eq_of_cover 2 (relu (V c main_v56) (V c main_v57)) (fun t _ => flushed3 V c t) cover3

end Cert.KernelIdeal.HandValue.BiasRelu3

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)

-- the contents of the unscoped buffers when the region is entered, at the exact instance
variable (V : (c : Dev nD) → (b : Ref sig .tc) → Buf (Elt Ideal) ((c : Thread nD τ).loc b))

theorem arr3 (c : Dev nD) : (dat3 (F := Ideal) V c).arrAt 2 cfg3.N
    = maximumf (F := Ideal) (addf (V c main_v56) (broadcastInDim Cert.ReferenceIdeal.S100000x128 ![0, 1] Cert.ReferenceIdeal.Facts₀.bcast_S1x128_S100000x128_0_1 (V c main_v57)))
        (broadcastInDim Cert.ReferenceIdeal.S100000x128 ![] Cert.ReferenceIdeal.Facts₀.bcast_S_S100000x128 (constant (F := Ideal) Cert.ReferenceIdeal.S_ .f32 0x00000000#32)) :=
  BiasRelu3.final3 V c

end Cert.KernelIdeal.HandValue

end
-- ==== Proof.Val.BR5.lean ====
/- Region 5, a bias-and-rectifier region, at the exact instance: after its twenty row tiles the region's
   output array is max(aggregate + bias row broadcast down the rows, 0) as the host states it. -/
import proofs.«401414_j12292196401223_1_alg».proof.ReferenceIdeal
import proofs.«401414_j12292196401223_1_alg».proof.Proof.Gen.ReferenceIdeal
import proofs.«401414_j12292196401223_1_alg».proof.Proof.KI.Reg5
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.HandValue.BiasRelu5

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

/-! ## One entry

Both sides are entrywise: entry (r, q) of the result is max(a (r, q) + b (0, q), 0), where `a` is the
aggregate and `b` the bias as one row. The zero is the same word on both sides and is never evaluated. -/

/-- The host's rectified biased array: the bias row repeated down the 100000 rows and added to the
    aggregate, then the maximum with the array of zeros. -/
def relu (a : Vec Ideal S100000x128 .f32) (b : Vec Ideal S1x128 .f32) : Vec Ideal S100000x128 .f32 :=
  maximumf (F := Ideal) (addf a (broadcastInDim Cert.ReferenceIdeal.S100000x128 ![0, 1] Cert.ReferenceIdeal.Facts₀.bcast_S1x128_S100000x128_0_1 b))
    (broadcastInDim Cert.ReferenceIdeal.S100000x128 ![] Cert.ReferenceIdeal.Facts₀.bcast_S_S100000x128 (constant (F := Ideal) Cert.ReferenceIdeal.S_ .f32 0x00000000#32))

/-- The host's array at entry (r, q): the row broadcast reads the bias at (0, q) (its first axis has
    extent 1), the scalar broadcast reads the zero. -/
theorem relu_apply (a : Vec Ideal S100000x128 .f32) (b : Vec Ideal S1x128 .f32) (r : Fin 100000) (q : Fin 128) :
    relu a b (ix2 r q) = max (a (ix2 r q) + b (ix2 0 q)) (Ideal.ofBits .f32 0x00000000#32) := by
  unfold relu
  rw [maximumf_apply, addf_apply]
  rw [broadcastInDim_apply (![0, 1]) Cert.ReferenceIdeal.Facts₀.bcast_S1x128_S100000x128_0_1 b (ix2 r q) (ix2 0 q) (by
    intro a; match a with | ⟨0, _⟩ => rfl | ⟨1, _⟩ => rfl)]
  rfl

/-- The body's result on a tile at entry (p, q): the two casts to the same shape change nothing, the
    row broadcast reads the bias at (0, q), the splat reads the zero. -/
theorem pay_apply (x0 : Vec Ideal S5000x128 .f32) (x1 : Vec Ideal S1x128 .f32) (p : Fin 5000) (q : Fin 128) :
    k5_pay1 (F := Ideal) x0 x1 (ix2 p q) = max (x0 (ix2 p q) + x1 (ix2 0 q)) (Ideal.ofBits .f32 0x00000000#32) := by
  unfold k5_pay1
  rw [maximumf_apply, addf_apply, shapeCast_self, shapeCast_self]
  rw [broadcastTo_apply x1 broadcasts_S1x128_S5000x128 (ix2 p q) (ix2 0 q) (by
    intro a; match a with | ⟨0, _⟩ => rfl | ⟨1, _⟩ => rfl)]
  rfl

/-- One entry of a tile against one entry of the array: when the tile's entry `j` is the aggregate's entry
    `i`, the tile's bias row is the host's bias row, and `i` is in `j`'s column, the body's result at `j` is
    the host's at `i`. -/
theorem point (a : Vec Ideal S100000x128 .f32) (b : Vec Ideal S1x128 .f32)
    (x0 : Vec Ideal S5000x128 .f32) (x1 : Vec Ideal S1x128 .f32) (j : S5000x128.Idx) (i : S100000x128.Idx)
    (h0 : x0 j = a i) (h1 : ∀ q : Fin 128, x1 (ix2 0 q) = b (ix2 0 q)) (hq : (i 1).val = (j 1).val) :
    k5_pay1 (F := Ideal) x0 x1 j = relu a b i := by
  obtain ⟨p, q, rfl⟩ : ∃ (p : Fin 5000) (q : Fin 128), j = ix2 p q := ⟨j 0, j 1, eq_ix2 j⟩
  obtain ⟨r, q', rfl⟩ : ∃ (r : Fin 100000) (q' : Fin 128), i = ix2 r q' := ⟨i 0, i 1, eq_ix2 i⟩
  have e : q' = q := Fin.ext hq
  subst e
  rw [pay_apply, relu_apply, h0, h1]

/-- The zero offsets of a whole-buffer access. -/
theorem zeros2 : (![0, 0] : Fin 2 → Nat) = fun _ => 0 := funext fun a => by fin_cases a <;> rfl

-- the contents of the unscoped buffers when a region is entered, at the exact instance
variable (V : (c : Dev nD) → (b : Ref sig .tc) → Buf (Elt Ideal) ((c : Thread nD τ).loc b))

/-! ## Region 5: tile `t` of the output is rows 5000·t … 5000·t + 4999 -/

/-- The block indices at grid point `t`: the aggregate's tile and the output's tile are both row tile `t`
    at column block 0; the bias row's block is always block (0, 0). -/
theorem idx5 : ∀ t : Fin cfg5.N, win5_0.index t (0 : Fin 2) = win5_2.index t (0 : Fin 2)
    ∧ win5_0.index t (1 : Fin 2) = 0 ∧ win5_2.index t (1 : Fin 2) = 0
    ∧ win5_1.index t (0 : Fin 2) = 0 ∧ win5_1.index t (1 : Fin 2) = 0
    ∧ win5_2.index t (0 : Fin 2) = t.val :=
  (by decide +kernel : ∀ t : Fin grid5.N, _)

/-- What point `t` writes back is row tile `t` of the rectified biased aggregate: entry (p, q) of the tile
    is built from entry (5000·t + p, q) of the aggregate and entry (0, q) of the bias row. -/
theorem flushed5 (c : Dev nD) (t : Fin cfg5.N) :
    (dat5 (F := Ideal) V c).flushed 2 t = ((cfg5.win 2).blk t).view.read (Elt Ideal) (relu (V c main_v72) (V c main_v73)) := by
  show (cfg5.win 2).cut (grid5.coords t) ((dat5 (F := Ideal) V c).after 2 t) = _
  rw [after5_2]
  unfold out5_2
  rw [View.canon_unit_zero zeros2]
  simp only [View.ld_unit_zero (S := S5000x128) zeros2, View.ld_unit_zero (S := S1x128) zeros2]
  obtain ⟨e0, e1, e2, e3, e4, e5⟩ := idx5 t
  funext j
  show k5_pay1 (F := Ideal) (iblk5 V c 0 t) (iblk5 V c 1 t) j = relu (V c main_v72) (V c main_v73) (((cfg5.win 2).blk t).view.emb j)
  refine point (V c main_v72) (V c main_v73) (iblk5 V c 0 t) (iblk5 V c 1 t) j (((cfg5.win 2).blk t).view.emb j) ?_ ?_ ?_
  · -- the aggregate's tile and the output's tile sit at the same place of their arrays
    show V c main_v72 (((cfg5.win 0).blk t).view.emb j) = V c main_v72 (((cfg5.win 2).blk t).view.emb j)
    refine congrArg (V c main_v72) (funext fun a => Fin.ext ?_)
    match a with
    | ⟨0, _⟩ => show win5_0.index t (0 : Fin 2) * 5000 + 1 * (j 0).val = win5_2.index t (0 : Fin 2) * 5000 + 1 * (j 0).val; omega
    | ⟨1, _⟩ => show win5_0.index t (1 : Fin 2) * 128 + 1 * (j 1).val = win5_2.index t (1 : Fin 2) * 128 + 1 * (j 1).val; omega
  · -- the bias row's one block is the whole row
    intro q
    show V c main_v73 (((cfg5.win 1).blk t).view.emb (ix2 0 q)) = V c main_v73 (ix2 0 q)
    refine congrArg (V c main_v73) (funext fun a => Fin.ext ?_)
    match a with
    | ⟨0, _⟩ => show win5_1.index t (0 : Fin 2) * 1 + 1 * 0 = 0; omega
    | ⟨1, _⟩ => show win5_1.index t (1 : Fin 2) * 128 + 1 * q.val = q.val; omega
  · -- a tile spans all 128 columns, so the column is kept
    show win5_2.index t (1 : Fin 2) * 128 + 1 * (j 1).val = (j 1).val; omega

/-- An index of the output array is in point `t`'s tile iff each coordinate is in the tile's range on its axis. -/
theorem mem_blk5 (t : Fin cfg5.N) (i : S100000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole main_v74).slice (win5_2.rect t)).set ↔ _
  rw [View.set_slice_whole, Rect.mem_set_unit]
  exact Iff.rfl

/-- The twenty tiles cover the array: row `r` is in tile `r / 5000`. -/
theorem cover5 (i : S100000x128.Idx) : ∃ t : Fin cfg5.N, (cfg5.win 2).flush t = true ∧ i ∈ ((cfg5.win 2).blk t).view.set := by
  have hi0 : (i 0).val < 100000 := (i 0).isLt
  have hi1 : (i 1).val < 128 := (i 1).isLt
  obtain ⟨t, ht⟩ : ∃ t : Fin cfg5.N, t.val = (i 0).val / 5000 :=
    ⟨⟨(i 0).val / 5000, by rw [show cfg5.N = 20 from N_5]; omega⟩, rfl⟩
  obtain ⟨e0, e1, e2, e3, e4, e5⟩ := idx5 t
  refine ⟨t, flush5_2 t, ?_⟩
  rw [mem_blk5]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 128 ≤ (i 1).val ∧ (i 1).val < win5_2.index t (1 : Fin 2) * 128 + 128; omega

/-- After the twenty points the output array is the rectified biased aggregate. -/
theorem final5 (c : Dev nD) : (dat5 (F := Ideal) V c).arrAt 2 cfg5.N = relu (V c main_v72) (V c main_v73) :=
  (dat5 (F := Ideal) V c).arrAt_eq_of_cover 2 (relu (V c main_v72) (V c main_v73)) (fun t _ => flushed5 V c t) cover5

end Cert.KernelIdeal.HandValue.BiasRelu5

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)

-- the contents of the unscoped buffers when the region is entered, at the exact instance
variable (V : (c : Dev nD) → (b : Ref sig .tc) → Buf (Elt Ideal) ((c : Thread nD τ).loc b))

theorem arr5 (c : Dev nD) : (dat5 (F := Ideal) V c).arrAt 2 cfg5.N
    = maximumf (F := Ideal) (addf (V c main_v72) (broadcastInDim Cert.ReferenceIdeal.S100000x128 ![0, 1] Cert.ReferenceIdeal.Facts₀.bcast_S1x128_S100000x128_0_1 (V c main_v73)))
        (broadcastInDim Cert.ReferenceIdeal.S100000x128 ![] Cert.ReferenceIdeal.Facts₀.bcast_S_S100000x128 (constant (F := Ideal) Cert.ReferenceIdeal.S_ .f32 0x00000000#32)) :=
  BiasRelu5.final5 V c

end Cert.KernelIdeal.HandValue

end
-- ==== Proof.Val.BR.lean ====
/- The bias-and-rectifier regions at the exact instance: after its twenty row tiles, a region's output
   array is max(aggregate + bias row broadcast down the rows, 0) as the host states it. -/
import proofs.«401414_j12292196401223_1_alg».proof.Proof.Val.BR1
import proofs.«401414_j12292196401223_1_alg».proof.Proof.Val.BR3
import proofs.«401414_j12292196401223_1_alg».proof.Proof.Val.BR5
-- ==== Proof.Val.L1.lean ====
/- The first layer in the kernel's fold: region 0's output array is the host's contraction of the node
   features with the first weights; the second host stretch aggregates it over the extended edge list
   and reshapes the first bias to one row; region 1's output array is the bias-and-rectifier of the
   two. Together: the specification's first activations `act1` of the arguments. -/
import proofs.«401414_j12292196401223_1_alg».proof.Proof.KI.Fold
import proofs.«401414_j12292196401223_1_alg».proof.Proof.Val.Spec
import proofs.«401414_j12292196401223_1_alg».proof.Proof.Val.Edge
import proofs.«401414_j12292196401223_1_alg».proof.Proof.Val.MM
import proofs.«401414_j12292196401223_1_alg».proof.Proof.Val.BR
import Idealize.ShloMosaic.Lib.StableHlo.Run
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.StableHlo
open Cert.ReferenceIdeal.Spec
open Idealize.ShloMosaic.ValueIdx

variable (m : (ℓ : Loc nD τ sig) → Buf (Elt Ideal) ℓ) (ρ : Dev nD → PrngReg) (c : Dev nD)

/-- Region 0 leaves the product of the node features by the first weights. -/
theorem lin1 : W2 m ρ c (Proc.devRef .tc main_v27)
    = Host.dotGeneral (F := Ideal) (φ₁ := .f32) (φ₂ := .f32) Cert.ReferenceIdeal.dot_S100000x226_S226x128_S100000x128_1_0_0_1_n_n none
        (m ((c.tc : Thread nD τ).loc main_arg0)) (m ((c.tc : Thread nD τ).loc main_arg3)) := by
  have h := (W2_arr m ρ c 2).trans (arr0 (V1 m ρ) c)
  rw [show V1 m ρ c main_arg0 = m ((c.tc : Thread nD τ).loc main_arg0) from W1_main_arg0 m ρ c,
    show V1 m ρ c main_arg3 = m ((c.tc : Thread nD τ).loc main_arg3) from W1_main_arg3 m ρ c] at h
  exact h

set_option maxHeartbeats 8000000 in
/-- The second host stretch aggregates region 0's array over the edge list. -/
theorem agg1 : W3 m ρ c (Proc.devRef .tc main_v40)
    = aggOfSD (F := Ideal) (W2 m ρ c (Proc.devRef .tc main_v27)) (W2 m ρ c (Proc.devRef .tc main_v5))
        (W2 m ρ c (Proc.devRef .tc main_v26)) (W2 m ρ c (Proc.devRef .tc main_v6)) := by
  show StableHlo.after hostOps1 (W2 m ρ c) (Proc.devRef .tc main_v40) = _
  after_results; rfl

set_option maxHeartbeats 8000000 in
/-- The second host stretch lays the first bias out as one row. -/
theorem brow1 : W3 m ρ c (Proc.devRef .tc main_v41)
    = broadcastInDim Cert.ReferenceIdeal.S1x128 ![1] Cert.ReferenceIdeal.Facts₀.bcast_S128_S1x128_1 (m ((c.tc : Thread nD τ).loc main_arg4)) := by
  have h : W3 m ρ c (Proc.devRef .tc main_v41) = shapeCast S1x128 (W2 m ρ c (Proc.devRef .tc main_arg4)) Facts₀.shapeCasts_S128_S1x128 := by
    show StableHlo.after hostOps1 (W2 m ρ c) (Proc.devRef .tc main_v41) = _
    after_results; rfl
  rw [h, W2_main_arg4 m ρ c]
  exact row_eq _

/-- Region 1 leaves the bias-and-rectifier of the aggregate and the bias row. -/
theorem act1_fold : W4 m ρ c (Proc.devRef .tc main_v42)
    = actOfRow (F := Ideal) (W3 m ρ c (Proc.devRef .tc main_v40)) (W3 m ρ c (Proc.devRef .tc main_v41)) :=
  (W4_arr m ρ c 2).trans (arr1 (V3 m ρ) c)

/-- THE FIRST ACTIVATIONS. -/
theorem h1_eq : W4 m ρ c (Proc.devRef .tc main_v42)
    = act1 (F := Ideal) (m ((c.tc : Thread nD τ).loc main_arg0)) (m ((c.tc : Thread nD τ).loc main_arg1))
        (m ((c.tc : Thread nD τ).loc main_arg3)) (m ((c.tc : Thread nD τ).loc main_arg4)) := by
  rw [act1_fold, agg1, brow1, lin1, src_at2, norm_at2, dst_at2]

end Cert.KernelIdeal.HandValue

end
-- ==== Proof.Val.L2.lean ====
/- The second layer in the kernel's fold: region 2's output array is the host's contraction of the first
   activations with the second weights; the third host stretch aggregates it over the extended edge
   list and reshapes the second bias to one row; region 3's output array is the bias-and-rectifier of
   the two. Together: the specification's next activations `actNext` of the first activations. -/
import proofs.«401414_j12292196401223_1_alg».proof.Proof.KI.Fold
import proofs.«401414_j12292196401223_1_alg».proof.Proof.Val.Spec
import proofs.«401414_j12292196401223_1_alg».proof.Proof.Val.L1
import Idealize.ShloMosaic.Lib.StableHlo.Run
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.StableHlo
open Cert.ReferenceIdeal.Spec
open Idealize.ShloMosaic.ValueIdx

variable (m : (ℓ : Loc nD τ sig) → Buf (Elt Ideal) ℓ) (ρ : Dev nD → PrngReg) (c : Dev nD)

/-- Region 2 leaves the product of the previous activations by the layer's weights. -/
theorem lin2 : W5 m ρ c (Proc.devRef .tc main_v43)
    = Host.dotGeneral (F := Ideal) (φ₁ := .f32) (φ₂ := .f32) Cert.ReferenceIdeal.dot_S100000x128_S128x128_S100000x128_1_0_0_1_n_n none
        (W4 m ρ c (Proc.devRef .tc main_v42)) (m ((c.tc : Thread nD τ).loc main_arg5)) := by
  have h := (W5_arr m ρ c 2).trans (arr2 (V4 m ρ) c)
  rw [show V4 m ρ c main_arg5 = m ((c.tc : Thread nD τ).loc main_arg5) from W4_main_arg5 m ρ c] at h
  exact h

set_option maxHeartbeats 8000000 in
/-- The host stretch after it aggregates region 2's array over the edge list. -/
theorem agg2 : W6 m ρ c (Proc.devRef .tc main_v56)
    = aggOfSD (F := Ideal) (W5 m ρ c (Proc.devRef .tc main_v43)) (W5 m ρ c (Proc.devRef .tc main_v5))
        (W5 m ρ c (Proc.devRef .tc main_v26)) (W5 m ρ c (Proc.devRef .tc main_v6)) := by
  show StableHlo.after hostOps3 (W5 m ρ c) (Proc.devRef .tc main_v56) = _
  after_results; rfl

set_option maxHeartbeats 8000000 in
/-- The same host stretch lays the layer's bias out as one row. -/
theorem brow2 : W6 m ρ c (Proc.devRef .tc main_v57)
    = broadcastInDim Cert.ReferenceIdeal.S1x128 ![1] Cert.ReferenceIdeal.Facts₀.bcast_S128_S1x128_1 (m ((c.tc : Thread nD τ).loc main_arg6)) := by
  have h : W6 m ρ c (Proc.devRef .tc main_v57) = shapeCast S1x128 (W5 m ρ c (Proc.devRef .tc main_arg6)) Facts₀.shapeCasts_S128_S1x128 := by
    show StableHlo.after hostOps3 (W5 m ρ c) (Proc.devRef .tc main_v57) = _
    after_results; rfl
  rw [h, W5_main_arg6 m ρ c]
  exact row_eq _

/-- Region 3 leaves the bias-and-rectifier of the aggregate and the bias row. -/
theorem act2_fold : W7 m ρ c (Proc.devRef .tc main_v58)
    = actOfRow (F := Ideal) (W6 m ρ c (Proc.devRef .tc main_v56)) (W6 m ρ c (Proc.devRef .tc main_v57)) :=
  (W7_arr m ρ c 2).trans (arr3 (V6 m ρ) c)

/-- THE LAYER'S ACTIVATIONS, from the previous layer's. -/
theorem h2_step : W7 m ρ c (Proc.devRef .tc main_v58)
    = actNext (F := Ideal) (W4 m ρ c (Proc.devRef .tc main_v42)) (m ((c.tc : Thread nD τ).loc main_arg1))
        (m ((c.tc : Thread nD τ).loc main_arg5)) (m ((c.tc : Thread nD τ).loc main_arg6)) := by
  rw [act2_fold, agg2, brow2, lin2, src_at5, norm_at5, dst_at5]

end Cert.KernelIdeal.HandValue

end
-- ==== Proof.Val.L3.lean ====
/- The third layer in the kernel's fold: region 4's output array is the host's contraction of the second
   activations with the third weights; the fourth host stretch aggregates it over the extended edge
   list and reshapes the third bias to one row; region 5's output array is the bias-and-rectifier of
   the two. Together: the specification's next activations `actNext` of the second activations. -/
import proofs.«401414_j12292196401223_1_alg».proof.Proof.KI.Fold
import proofs.«401414_j12292196401223_1_alg».proof.Proof.Val.Spec
import proofs.«401414_j12292196401223_1_alg».proof.Proof.Val.L2
import Idealize.ShloMosaic.Lib.StableHlo.Run
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.StableHlo
open Cert.ReferenceIdeal.Spec
open Idealize.ShloMosaic.ValueIdx

variable (m : (ℓ : Loc nD τ sig) → Buf (Elt Ideal) ℓ) (ρ : Dev nD → PrngReg) (c : Dev nD)

/-- Region 4 leaves the product of the previous activations by the layer's weights. -/
theorem lin3 : W8 m ρ c (Proc.devRef .tc main_v59)
    = Host.dotGeneral (F := Ideal) (φ₁ := .f32) (φ₂ := .f32) Cert.ReferenceIdeal.dot_S100000x128_S128x128_S100000x128_1_0_0_1_n_n none
        (W7 m ρ c (Proc.devRef .tc main_v58)) (m ((c.tc : Thread nD τ).loc main_arg7)) := by
  have h := (W8_arr m ρ c 2).trans (arr4 (V7 m ρ) c)
  rw [show V7 m ρ c main_arg7 = m ((c.tc : Thread nD τ).loc main_arg7) from W7_main_arg7 m ρ c] at h
  exact h

set_option maxHeartbeats 8000000 in
/-- The host stretch after it aggregates region 4's array over the edge list. -/
theorem agg3 : W9 m ρ c (Proc.devRef .tc main_v72)
    = aggOfSD (F := Ideal) (W8 m ρ c (Proc.devRef .tc main_v59)) (W8 m ρ c (Proc.devRef .tc main_v5))
        (W8 m ρ c (Proc.devRef .tc main_v26)) (W8 m ρ c (Proc.devRef .tc main_v6)) := by
  show StableHlo.after hostOps5 (W8 m ρ c) (Proc.devRef .tc main_v72) = _
  after_results; rfl

set_option maxHeartbeats 8000000 in
/-- The same host stretch lays the layer's bias out as one row. -/
theorem brow3 : W9 m ρ c (Proc.devRef .tc main_v73)
    = broadcastInDim Cert.ReferenceIdeal.S1x128 ![1] Cert.ReferenceIdeal.Facts₀.bcast_S128_S1x128_1 (m ((c.tc : Thread nD τ).loc main_arg8)) := by
  have h : W9 m ρ c (Proc.devRef .tc main_v73) = shapeCast S1x128 (W8 m ρ c (Proc.devRef .tc main_arg8)) Facts₀.shapeCasts_S128_S1x128 := by
    show StableHlo.after hostOps5 (W8 m ρ c) (Proc.devRef .tc main_v73) = _
    after_results; rfl
  rw [h, W8_main_arg8 m ρ c]
  exact row_eq _

/-- Region 5 leaves the bias-and-rectifier of the aggregate and the bias row. -/
theorem act3_fold : W10 m ρ c (Proc.devRef .tc main_v74)
    = actOfRow (F := Ideal) (W9 m ρ c (Proc.devRef .tc main_v72)) (W9 m ρ c (Proc.devRef .tc main_v73)) :=
  (W10_arr m ρ c 2).trans (arr5 (V9 m ρ) c)

/-- THE LAYER'S ACTIVATIONS, from the previous layer's. -/
theorem h3_step : W10 m ρ c (Proc.devRef .tc main_v74)
    = actNext (F := Ideal) (W7 m ρ c (Proc.devRef .tc main_v58)) (m ((c.tc : Thread nD τ).loc main_arg1))
        (m ((c.tc : Thread nD τ).loc main_arg7)) (m ((c.tc : Thread nD τ).loc main_arg8)) := by
  rw [act3_fold, agg3, brow3, lin3, src_at8, norm_at8, dst_at8]

end Cert.KernelIdeal.HandValue

end
-- ==== Proof.LibScatterRows.lean ====
/-
  The host's accumulating scatter over the extended reals, read at an index, for the two layouts a segment sum
  prints as: a vector of N sums fed by E scalars, and an N x C table of sums fed by E rows of C entries; in both
  the scatter indices are an E x 1 column naming, per update, the operand's position on axis 0. An update lands at
  the position its index names, read signed; an index outside [0, N) drops its update.
-/
import Idealize.ShloMosaic.PureOps.Ideal
import Idealize.ShloMosaic.PureOps.Contract
import Idealize.ShloMosaic.Lib.ValueIdx

set_option maxRecDepth 16384

noncomputable section

namespace Cert.LibScatterRows

open Idealize.ShloMosaic Idealize.ShloMosaic.ValueIdx
open scoped BigOperators

/-- An accumulating scatter's update lands at operand index `i` exactly when, on every axis, the window's start plus
    the window coordinate is `i`'s coordinate. -/
private theorem resultIdx?_eq_some_iff {s si u : Shape} {w : ℕ} (d : ScatterDims s si u) (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have h1 : (d.start j idx a + (d.window j a : ℤ)).toNat = (i a).val := congrArg Fin.val (congrFun hf a)
      have := h a
      omega
    · intro hf
      funext a
      apply Fin.ext
      have := hf a
      show (d.start j idx a + (d.window j a : ℤ)).toNat = (i a).val
      omega
  · rename_i h
    constructor
    · intro hf
      exact absurd hf (by simp)
    · intro hf
      exfalso
      apply h
      intro a
      have := hf a
      have := (i a).isLt
      omega

/-- A rank-1 index set is its one coordinate's range. -/
private def idxEquiv1 {n : ℕ} : (⟨1, ![n]⟩ : Shape).Idx ≃ Fin n where
  toFun i := i 0
  invFun a := ix1 a
  left_inv i := (eq_ix1 i).symm
  right_inv _ := rfl

/-- A sum over a rank-1 index set is the sum over the coordinate. -/
private theorem sum_idx1 {M : Type*} [AddCommMonoid M] {n : ℕ} (f : (⟨1, ![n]⟩ : Shape).Idx → M) :
    ∑ i, f i = ∑ a : Fin n, f (ix1 a) :=
  (Equiv.sum_comp (idxEquiv1 (n := n)).symm f).symm

/-! ### The vector layout -/

/-- The vector layout's dimension numbers as a literal record, over any proof that they are well formed. -/
private abbrev litV {N E : ℕ} (wf : ScatterDims.WF ⟨1, ![N]⟩ ⟨2, ![E, 1]⟩ ⟨1, ![E]⟩ [] [0] [0] 1) :
    ScatterDims ⟨1, ![N]⟩ ⟨2, ![E, 1]⟩ ⟨1, ![E]⟩ :=
  ⟨[], [0], [0], 1, wf⟩

section Vec
variable {N E w : ℕ} (wf : ScatterDims.WF ⟨1, ![N]⟩ ⟨2, ![E, 1]⟩ ⟨1, ![E]⟩ [] [0] [0] 1)

/-- Update e reads row e of the column of indices. -/
private theorem siIdx_V (j : (⟨1, ![E]⟩ : Shape).Idx) (c : Fin (litV wf).scatterDimsToOperandDims.length) :
    (litV wf).siIdx j c = ix2 (j 0) (0 : Fin 1) := by
  funext b
  match b with
  | ⟨0, _⟩ =>
    unfold ScatterDims.siIdx
    rw [dif_neg (by exact Nat.zero_ne_one)]
    unfold ScatterDims.siCoord
    apply Fin.ext
    simp only [Fin.val_cast]
    rfl
  | ⟨1, _⟩ =>
    unfold ScatterDims.siIdx
    rw [dif_pos rfl]
    apply Fin.ext
    show c.val = 0
    have : c.val < 1 := c.isLt
    omega

/-- On axis 0 the window starts at the index word, read signed. -/
private theorem start_V0 (j : (⟨1, ![E]⟩ : Shape).Idx) (idx : IVec ⟨2, ![E, 1]⟩ w) :
    (litV wf).start j idx 0 = (idx (ix2 (j 0) (0 : Fin 1))).toInt := by
  unfold ScatterDims.start
  rw [dif_pos (show (0 : Fin (⟨1, ![N]⟩ : Shape).rank) ∈ (litV wf).scatterDimsToOperandDims from List.mem_singleton.mpr rfl)]
  rw [siIdx_V]
  rfl

/-- Axis 0 is inserted: no window coordinate. -/
private theorem window_V0 (j : (⟨1, ![E]⟩ : Shape).Idx) : (litV wf).window j 0 = 0 := by
  unfold ScatterDims.window
  rw [dif_neg (show ¬(0 : Fin (⟨1, ![N]⟩ : Shape).rank) ∈ (litV wf).sKept from List.not_mem_nil)]

/-- Update j lands at position r exactly when its index word, read signed, is r. -/
private theorem lands_V (j : (⟨1, ![E]⟩ : Shape).Idx) (idx : IVec ⟨2, ![E, 1]⟩ w) (r : Fin N) :
    (litV wf).resultIdx? j idx = some (ix1 r) ↔ (idx (ix2 (j 0) (0 : Fin 1))).toInt = (r.val : ℤ) := by
  rw [resultIdx?_eq_some_iff]
  constructor
  · intro h
    have h0 := h 0
    rw [start_V0, window_V0] at h0
    simp only [Nat.cast_zero, add_zero] at h0
    exact h0
  · intro h a
    match a with
    | ⟨0, _⟩ =>
      have e1 := start_V0 wf j idx
      have e2 := window_V0 wf j
      show (litV wf).start j idx 0 + (((litV wf).window j 0 : ℕ) : ℤ) = (r.val : ℤ)
      rw [e1, e2, h]
      simp

end Vec

/-! ### The table layout -/

/-- The table layout's dimension numbers as a literal record, over any proof that they are well formed. -/
private abbrev litT {N C E : ℕ} (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ :=
  ⟨[1], [0], [0], 1, wf⟩

section Tab
variable {N C E w : ℕ} (wf : ScatterDims.WF ⟨2, ![N, C]⟩ ⟨2, ![E, 1]⟩ ⟨2, ![E, C]⟩ [1] [0] [0] 1)

/-- The row (e, ·) of updates reads row e of the column of indices. -/
private theorem siIdx_T (j : (⟨2, ![E, C]⟩ : Shape).Idx) (c : Fin (litT wf).scatterDimsToOperandDims.length) :
    (litT wf).siIdx j c = ix2 (j 0) (0 : Fin 1) := by
  funext b
  match b with
  | ⟨0, _⟩ =>
    unfold ScatterDims.siIdx
    rw [dif_neg (by exact Nat.zero_ne_one)]
    unfold ScatterDims.siCoord
    apply Fin.ext
    simp only [Fin.val_cast]
    rfl
  | ⟨1, _⟩ =>
    unfold ScatterDims.siIdx
    rw [dif_pos rfl]
    apply Fin.ext
    show c.val = 0
    have : c.val < 1 := c.isLt
    omega

/-- The operand's one axis that is not inserted is axis 1. -/
private theorem sKept_T : (litT wf).sKept = [1] := rfl

/-- On axis 0 the window starts at the index word, read signed. -/
private theorem start_T0 (j : (⟨2, ![E, C]⟩ : Shape).Idx) (idx : IVec ⟨2, ![E, 1]⟩ w) :
    (litT wf).start j idx 0 = (idx (ix2 (j 0) (0 : Fin 1))).toInt := by
  unfold ScatterDims.start
  rw [dif_pos (show (0 : Fin (⟨2, ![N, C]⟩ : Shape).rank) ∈ (litT wf).scatterDimsToOperandDims from List.mem_singleton.mpr rfl)]
  rw [siIdx_T]
  rfl

/-- Axis 1 is named by no index: its window starts at 0. -/
private theorem start_T1 (j : (⟨2, ![E, C]⟩ : Shape).Idx) (idx : IVec ⟨2, ![E, 1]⟩ w) :
    (litT wf).start j idx 1 = 0 := by
  unfold ScatterDims.start
  rw [dif_neg (show ¬(1 : Fin (⟨2, ![N, C]⟩ : Shape).rank) ∈ (litT wf).scatterDimsToOperandDims by
    rw [List.mem_singleton]; intro e; exact Nat.one_ne_zero (congrArg Fin.val e))]

/-- Axis 0 is inserted: no window coordinate. -/
private theorem window_T0 (j : (⟨2, ![E, C]⟩ : Shape).Idx) : (litT wf).window j 0 = 0 := by
  unfold ScatterDims.window
  rw [dif_neg (show ¬(0 : Fin (⟨2, ![N, C]⟩ : Shape).rank) ∈ (litT wf).sKept by
    rw [sKept_T, List.mem_singleton]; intro e; exact Nat.zero_ne_one (congrArg Fin.val e))]

/-- Axis 1 is the window axis: its window coordinate is the update's column. -/
private theorem window_T1 (j : (⟨2, ![E, C]⟩ : Shape).Idx) : (litT wf).window j 1 = (j 1).val := by
  unfold ScatterDims.window
  rw [dif_pos (show (1 : Fin (⟨2, ![N, C]⟩ : Shape).rank) ∈ (litT wf).sKept by
    rw [sKept_T]; exact List.mem_singleton.mpr rfl)]
  rfl

/-- Update (e, c') lands at (r, c) exactly when e's index word, read signed, is r and c' is c. -/
private theorem lands_T (j : (⟨2, ![E, C]⟩ : Shape).Idx) (idx : IVec ⟨2, ![E, 1]⟩ w) (r : Fin N) (c : Fin C) :
    (litT wf).resultIdx? j idx = some (ix2 r c)
      ↔ (idx (ix2 (j 0) (0 : Fin 1))).toInt = (r.val : ℤ) ∧ (j 1).val = c.val := by
  rw [resultIdx?_eq_some_iff]
  constructor
  · intro h
    have h0 := h 0
    have h1 := h 1
    rw [start_T0, window_T0] at h0
    rw [start_T1, window_T1] at h1
    simp only [Nat.cast_zero, add_zero] at h0
    have h1' : ((j 1).val : ℤ) = (c.val : ℤ) := by
      simp only [zero_add] at h1
      exact h1
    exact ⟨h0, by exact_mod_cast h1'⟩
  · intro h a
    match a with
    | ⟨0, _⟩ =>
      have e1 := start_T0 wf j idx
      have e2 := window_T0 wf j
      show (litT wf).start j idx 0 + (((litT wf).window j 0 : ℕ) : ℤ) = (r.val : ℤ)
      rw [e1, e2, h.1]
      simp
    | ⟨1, _⟩ =>
      have e1 := start_T1 wf j idx
      have e2 := window_T1 wf j
      show (litT wf).start j idx 1 + (((litT wf).window j 1 : ℕ) : ℤ) = (c.val : ℤ)
      rw [e1, e2, h.2]
      simp

end Tab

/-- A VECTOR of sums. Operand [N], scatter indices [E, 1], updates [E]; no window axis, axis 0 inserted and named by
    the index vector's one component. Entry r is the operand's entry plus the sum of the updates whose index is r. -/
theorem scatterAdd_vec_apply {N E w : ℕ} (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1)
    (x : FVec Ideal ⟨1, ![N]⟩ .f32) (idx : IVec ⟨2, ![E, 1]⟩ w) (upd : FVec Ideal ⟨1, ![E]⟩ .f32) (r : Fin N) :
    Host.scatterAdd (F := Ideal) d x idx upd (ix1 r)
      = x (ix1 r) + ∑ e : Fin E, if (idx (ix2 e (0 : Fin 1))).toInt = (r.val : ℤ) then upd (ix1 e) else 0 := by
  obtain ⟨uw, iw, sd, iv, wf⟩ := d
  simp only at huw hiw hsd hiv
  subst huw hiw hsd hiv
  simp only [Host.scatterAdd, Ideal.hostScatterAdd_def, Ideal.hostScatterAdd]
  congr 1
  rw [Finset.sum_filter, sum_idx1]
  refine Finset.sum_congr rfl fun e _ => ?_
  exact if_congr (lands_V wf (ix1 e) idx r) rfl rfl

/-- A TABLE of row sums. Operand [N, C], scatter indices [E, 1], updates [E, C]; the updates' axis 1 is the window
    axis, the operand's axis 0 is inserted and named by the index vector's one component. Entry (r, j) is the
    operand's entry plus the sum, over the updates whose index is r, of their entry j. -/
theorem scatterAdd_rows_apply {N C E w : ℕ} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1)
    (x : FVec Ideal ⟨2, ![N, C]⟩ .f32) (idx : IVec ⟨2, ![E, 1]⟩ w) (upd : FVec Ideal ⟨2, ![E, C]⟩ .f32) (r : Fin N) (j : Fin C) :
    Host.scatterAdd (F := Ideal) d x idx upd (ix2 r j)
      = x (ix2 r j) + ∑ e : Fin E, if (idx (ix2 e (0 : Fin 1))).toInt = (r.val : ℤ) then upd (ix2 e j) else 0 := by
  obtain ⟨uw, iw, sd, iv, wf⟩ := d
  simp only at huw hiw hsd hiv
  subst huw hiw hsd hiv
  simp only [Host.scatterAdd, Ideal.hostScatterAdd_def, Ideal.hostScatterAdd]
  congr 1
  rw [Finset.sum_filter, sum_idx2]
  refine Finset.sum_congr rfl fun e _ => ?_
  -- the inner sum over the update's column keeps the one column j
  by_cases he : (idx (ix2 e (0 : Fin 1))).toInt = (r.val : ℤ)
  · rw [if_pos he]
    rw [Finset.sum_eq_single j]
    · exact if_pos ((lands_T wf (ix2 e j) idx r j).mpr ⟨he, rfl⟩)
    · intro c' _ hc'
      exact if_neg fun h => hc' (Fin.ext ((lands_T wf (ix2 e c') idx r j).mp h).2)
    · intro h
      exact absurd (Finset.mem_univ j) h
  · rw [if_neg he]
    refine Finset.sum_eq_zero fun c' _ => ?_
    exact if_neg fun h => he ((lands_T wf (ix2 e c') idx r j).mp h).1

end Cert.LibScatterRows

end
-- ==== Proof.Val.Pool.lean ====
/- The pooling region at the exact instance: after its twenty row tiles the output array holds, for graph
   g and column j, the sum of the activations' entries (r, j) over the nodes r whose graph id is g — the
   host's scatter-add of the activations' rows by the column of graph ids into zeros. A tile's
   contribution is a sum over its rows of indicator · entry; the indicator is 1 when the id word equals
   g's word and 0 otherwise, so an id outside 0 … 511 contributes nothing, as the scatter drops it. -/
import proofs.«401414_j12292196401223_1_alg».proof.ReferenceIdeal
import proofs.«401414_j12292196401223_1_alg».proof.Proof.Gen.ReferenceIdeal
import proofs.«401414_j12292196401223_1_alg».proof.Proof.KI.Reg6
import Idealize.ShloMosaic.PureOps.Ideal.Laws
import Idealize.ShloMosaic.Lib.ValueIdx
import Idealize.ShloMosaic.Lib.ValueLayout
import Idealize.ShloMosaic.Lib.Pipeline.Value
import proofs.«401414_j12292196401223_1_alg».proof.Proof.LibScatterRows
import Mathlib.Algebra.BigOperators.Fin

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

namespace Pool

/-- A 32-bit word is the word of a graph number below 512 exactly when, read signed, it is that number. -/
theorem word_eq_iff (w : BitVec 32) (g : ℕ) (hg : g < 512) : w = BitVec.ofNat 32 g ↔ w.toInt = (g : ℤ) := by
  have hgt : (BitVec.ofNat 32 g).toInt = (g : ℤ) := by
    rw [BitVec.toInt_eq_toNat_of_lt (by rw [BitVec.toNat_ofNat]; omega), BitVec.toNat_ofNat]
    omega
  constructor
  · intro h; rw [h, hgt]
  · intro h; exact BitVec.eq_of_toInt_eq (h.trans hgt.symm)

/-- The indicator the kernel builds from a comparison bit: widened to 32 bits and converted, it is 1 when the two
    words are equal and 0 otherwise. -/
theorem indicator_word (x y : BitVec 32) :
    (((((IntOp.cmpi .eq x y).setWidth 32).toInt : ℤ) : ℝ) : EReal) = if x = y then 1 else 0 := by
  by_cases h : x = y
  · subst h
    rw [if_pos rfl]
    have : (IntOp.cmpi .eq x x) = 1#1 := by
      show BitVec.ofBool (x == x) = 1#1
      rw [beq_self_eq_true]; rfl
    rw [this]
    norm_num
  · rw [if_neg h]
    have : (IntOp.cmpi .eq x y) = 0#1 := by
      show BitVec.ofBool (x == y) = 0#1
      rw [beq_eq_false_iff_ne.mpr h]; rfl
    rw [this]
    norm_num

/-- A sum over n tiles of m consecutive naturals is the sum over the first m * n naturals. -/
theorem sum_tiles {M : Type*} [AddCommMonoid M] (f : ℕ → M) (m : ℕ) :
    ∀ n : ℕ, ∑ t ∈ Finset.range n, ∑ r ∈ Finset.range m, f (m * t + r) = ∑ R ∈ Finset.range (m * n), f R
  | 0 => by simp
  | n + 1 => by rw [Finset.sum_range_succ, sum_tiles f m n, Nat.mul_succ, Finset.sum_range_add]

/-! ## The tile product read at an index -/

theorem lhs_pool_0 (i : S512x128.Idx) (q : dot_S5000x512_S5000x128_S512x128_0_0_1_1_n_n.contr.Idx) :
    (dot_S5000x512_S5000x128_S512x128_0_0_1_1_n_n.lhsIdx i q 0).val = (q ⟨0, by decide⟩).val :=
  dot_S5000x512_S5000x128_S512x128_0_0_1_1_n_n.lhsIdx_val_of_single rfl i q
theorem lhs_pool_1 (i : S512x128.Idx) (q : dot_S5000x512_S5000x128_S512x128_0_0_1_1_n_n.contr.Idx) :
    (dot_S5000x512_S5000x128_S512x128_0_0_1_1_n_n.lhsIdx i q 1).val = (i 0).val := by
  unfold DotDims.lhsIdx
  rw [dif_neg (show ¬(1 : Fin S5000x512.rank) ∈ dot_S5000x512_S5000x128_S512x128_0_0_1_1_n_n.lhsBatch by decide), dif_pos (show (1 : Fin S5000x512.rank) ∈ dot_S5000x512_S5000x128_S512x128_0_0_1_1_n_n.lhsNonContracting by decide)]
  rfl
theorem rhs_pool_0 (i : S512x128.Idx) (q : dot_S5000x512_S5000x128_S512x128_0_0_1_1_n_n.contr.Idx) :
    (dot_S5000x512_S5000x128_S512x128_0_0_1_1_n_n.rhsIdx i q 0).val = (q ⟨0, by decide⟩).val :=
  dot_S5000x512_S5000x128_S512x128_0_0_1_1_n_n.rhsIdx_val_of_single rfl i q
theorem rhs_pool_1 (i : S512x128.Idx) (q : dot_S5000x512_S5000x128_S512x128_0_0_1_1_n_n.contr.Idx) :
    (dot_S5000x512_S5000x128_S512x128_0_0_1_1_n_n.rhsIdx i q 1).val = (i 1).val := by
  unfold DotDims.rhsIdx
  rw [dif_neg (show ¬(1 : Fin S5000x128.rank) ∈ dot_S5000x512_S5000x128_S512x128_0_0_1_1_n_n.rhsBatch by decide), dif_pos (show (1 : Fin S5000x128.rank) ∈ dot_S5000x512_S5000x128_S512x128_0_0_1_1_n_n.rhsNonContracting by decide)]
  rfl

/-- The product contracting the ROW axis of both operands, into zeros: entry (g, j) is the sum over the 5000 rows r
    of A (r, g) · B (r, j). -/
theorem matmul_rows_apply (A : FVec Ideal S5000x512 .bf16) (B : FVec Ideal S5000x128 .bf16) (g : Fin 512) (j : Fin 128) :
    matmul dot_S5000x512_S5000x128_S512x128_0_0_1_1_n_n none A B (constant (F := Ideal) S512x128 .f32 0x00000000#32) (ix2 g j)
      = ∑ r : Fin 5000, A (ix2 r g) * B (ix2 r j) := by
  simp only [matmul]
  rw [Ideal.matmul_constant_zero_apply, ← Equiv.sum_comp (ValueIdx.contrEquiv1 dot_S5000x512_S5000x128_S512x128_0_0_1_1_n_n 5000 rfl rfl).symm]
  refine Finset.sum_congr rfl fun r _ => ?_
  have hr := ValueIdx.contrEquiv1_symm_val dot_S5000x512_S5000x128_S512x128_0_0_1_1_n_n 5000 rfl rfl r
  have el : dot_S5000x512_S5000x128_S512x128_0_0_1_1_n_n.lhsIdx (ix2 g j) ((ValueIdx.contrEquiv1 dot_S5000x512_S5000x128_S512x128_0_0_1_1_n_n 5000 rfl rfl).symm r) = ix2 r g := funext fun a => Fin.ext (by
    match a with
    | ⟨0, _⟩ => exact (lhs_pool_0 _ _).trans hr
    | ⟨1, _⟩ => exact lhs_pool_1 _ _)
  have er : dot_S5000x512_S5000x128_S512x128_0_0_1_1_n_n.rhsIdx (ix2 g j) ((ValueIdx.contrEquiv1 dot_S5000x512_S5000x128_S512x128_0_0_1_1_n_n 5000 rfl rfl).symm r) = ix2 r j := funext fun a => Fin.ext (by
    match a with
    | ⟨0, _⟩ => exact (rhs_pool_0 _ _).trans hr
    | ⟨1, _⟩ => exact rhs_pool_1 _ _)
  rw [el, er]

/-! ## A tile's contribution read at an index -/

/-- The cleared accumulator is zero everywhere. -/
theorem pay1_apply (i : S512x128.Idx) : k6_pay1 (F := Ideal) i = 0 := by
  unfold k6_pay1
  rw [shapeCast_self]
  exact Ideal.ofBits_zero_f32

/-- The ids of a tile, broadcast along the 512 graph numbers, read at (r, g): the id of row r. -/
theorem bcast_ids_apply (x : IVec S5000x1 32) (r : Fin 5000) (g : Fin 512) :
    broadcastTo S5000x512 x broadcasts_S5000x1_S5000x512 (ix2 r g) = x (ix2 r (0 : Fin 1)) :=
  broadcastTo_apply x broadcasts_S5000x1_S5000x512 (ix2 r g) (ix2 r (0 : Fin 1)) fun a => by
    match a with
    | ⟨0, _⟩ => show r.val = if (5000 : Nat) = 1 then 0 else r.val; rw [if_neg (by decide)]
    | ⟨1, _⟩ => show (0 : Nat) = if (1 : Nat) = 1 then 0 else _; rw [if_pos rfl]

/-- The graph numbers 0 … 511 as words, broadcast along the 5000 rows, read at (r, g): the word of g. -/
theorem bcast_iota_apply (r : Fin 5000) (g : Fin 512) :
    broadcastTo S5000x512 (iota .tc S1x512 32 [1] iota_S1x512_d1_w32) broadcasts_S1x512_S5000x512 (ix2 r g) = BitVec.ofNat 32 g.val := by
  refine (broadcastTo_apply _ broadcasts_S1x512_S5000x512 (ix2 r g) (ix2 (0 : Fin 1) g) fun a => ?_).trans ?_
  · match a with
    | ⟨0, _⟩ => show (0 : Nat) = if (1 : Nat) = 1 then 0 else _; rw [if_pos rfl]
    | ⟨1, _⟩ => show g.val = if (512 : Nat) = 1 then 0 else g.val; rw [if_neg (by decide)]
  · exact iota_single_apply .tc S1x512 32 (1 : Fin 2) iota_S1x512_d1_w32 (ix2 (0 : Fin 1) g)

/-- WHAT ONE TILE ADDS. At (g, j) the payload is the accumulator it found plus the sum, over the tile's 5000 rows r,
    of [the id word of row r is g's word] · h (r, j). -/
theorem pay2_apply (h : Vec Ideal S5000x128 .f32) (id : Vec Ideal S5000x1 .i32) (acc : Vec Ideal S512x128 .f32)
    (g : Fin 512) (j : Fin 128) :
    k6_pay2 (F := Ideal) h id acc (ix2 g j)
      = acc (ix2 g j) + ∑ r : Fin 5000, (if id (ix2 r (0 : Fin 1)) = BitVec.ofNat 32 g.val then (1 : EReal) else 0) * h (ix2 r j) := by
  unfold k6_pay2
  simp only [shapeCast_self]
  show acc (ix2 g j) + _ = _
  refine congrArg (acc (ix2 g j) + ·) ?_
  refine (matmul_rows_apply _ _ g j).trans ?_
  refine Finset.sum_congr rfl fun r _ => ?_
  refine congrArg (· * h (ix2 r j)) ?_
  show (((((IntOp.cmpi .eq (broadcastTo S5000x512 id broadcasts_S5000x1_S5000x512 (ix2 r g)) (broadcastTo S5000x512 (iota .tc S1x512 32 [1] iota_S1x512_d1_w32) broadcasts_S1x512_S5000x512 (ix2 r g))).setWidth 32).toInt : ℤ) : ℝ) : EReal) = _
  rw [bcast_ids_apply, bcast_iota_apply]
  exact indicator_word _ _

end Pool

-- the contents of the unscoped buffers when the region is entered, at the exact instance
variable (V : (c : Dev nD) → (b : Ref sig .tc) → Buf (Elt Ideal) ((c : Thread nD τ).loc b))

namespace Pool

/-! ## The arrays' tiles -/

/-- The activations as the region finds them. -/
abbrev harr (c : Dev nD) : Vec Ideal S100000x128 .f32 := V c main_v74
/-- The column of graph ids as the region finds it. -/
abbrev idarr (c : Dev nD) : Vec Ideal S100000x1 .i32 := V c main_v75
/-- The tile of 5000 rows of activations at a grid point. -/
abbrev hblk (c : Dev nD) (t : Fin cfg6.N) : Vec Ideal S5000x128 .f32 := iblk6 V c 0 t
/-- The tile of 5000 graph ids at a grid point. -/
abbrev idblk (c : Dev nD) (t : Fin cfg6.N) : Vec Ideal S5000x1 .i32 := iblk6 V c 1 t

/-- The windows' index maps, decided over the grid: the two input tiles move down the rows with the point, on the
    one column block; the output's block is the whole array at every point. -/
theorem idx_facts : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0 :=
  (by decide +kernel : ∀ t : Fin grid6.N, _)

/-- Row r of the activations' tile at point t is row 5000 t + r of the array. -/
theorem hblk_apply (c : Dev nD) (t : Fin cfg6.N) (r : Fin 5000) (j : Fin 128) (hR : 5000 * t.val + r.val < 100000) :
    hblk V c t (ix2 r j) = harr V c (ix2 ⟨5000 * t.val + r.val, hR⟩ j) := by
  obtain ⟨e0, e1, -, -, -, -⟩ := idx_facts t
  show harr V c (((cfg6.win 0).blk t).view.emb (ix2 r j)) = harr V c (ix2 ⟨5000 * t.val + r.val, hR⟩ j)
  refine congrArg (harr V c) (funext fun a => Fin.ext ?_)
  match a with
  | ⟨0, _⟩ => show win6_0.index t (0 : Fin 2) * 5000 + 1 * r.val = 5000 * t.val + r.val; omega
  | ⟨1, _⟩ => show win6_0.index t (1 : Fin 2) * 128 + 1 * j.val = j.val; omega

/-- Row r of the ids' tile at point t is row 5000 t + r of the column. -/
theorem idblk_apply (c : Dev nD) (t : Fin cfg6.N) (r : Fin 5000) (hR : 5000 * t.val + r.val < 100000) :
    idblk V c t (ix2 r (0 : Fin 1)) = idarr V c (ix2 ⟨5000 * t.val + r.val, hR⟩ (0 : Fin 1)) := by
  obtain ⟨-, -, e0, e1, -, -⟩ := idx_facts t
  show idarr V c (((cfg6.win 1).blk t).view.emb (ix2 r (0 : Fin 1))) = idarr V c (ix2 ⟨5000 * t.val + r.val, hR⟩ (0 : Fin 1))
  refine congrArg (idarr V c) (funext fun a => Fin.ext ?_)
  match a with
  | ⟨0, _⟩ => show win6_1.index t (0 : Fin 2) * 5000 + 1 * r.val = 5000 * t.val + r.val; omega
  | ⟨1, _⟩ => show win6_1.index t (1 : Fin 2) * 1 + 1 * 0 = 0; omega

/-! ## The accumulator as a sum over rows -/

/-- Row R's share of entry (g, j): the activation (R, j) when R's id word, read signed, is g; nothing otherwise, and
    nothing past the array's last row. -/
def rowTerm (c : Dev nD) (g : Fin 512) (j : Fin 128) (R : ℕ) : EReal :=
  if hR : R < 100000 then
    (if (idarr V c (ix2 ⟨R, hR⟩ (0 : Fin 1))).toInt = (g.val : ℤ) then harr V c (ix2 ⟨R, hR⟩ j) else 0)
  else 0

/-- Indicator times activation at row r of point t's tile is the share of array row 5000 t + r: 1 · x = x and
    0 · x = 0 hold for every extended real. -/
theorem tile_term (c : Dev nD) (t : Fin cfg6.N) (g : Fin 512) (j : Fin 128) (r : Fin 5000) :
    (if idblk V c t (ix2 r (0 : Fin 1)) = BitVec.ofNat 32 g.val then (1 : EReal) else 0) * hblk V c t (ix2 r j)
      = rowTerm V c g j (5000 * t.val + r.val) := by
  have ht : t.val < 20 := lt_of_lt_of_eq t.isLt N_6
  have hR : 5000 * t.val + r.val < 100000 := by omega
  unfold rowTerm
  rw [dif_pos hR, hblk_apply V c t r j hR, idblk_apply V c t r hR, ite_mul, one_mul, zero_mul]
  exact if_congr (word_eq_iff _ g.val g.isLt) rfl rfl

/-- After point n the accumulator's entry (g, j) is the sum of the shares of the rows of tiles 0 … n. -/
theorem acc_sum (c : Dev nD) (g : Fin 512) (j : Fin 128) : ∀ (n : ℕ) (hn : n < cfg6.N),
    acc6 V c n hn (ix2 g j) = ∑ t ∈ Finset.range (n + 1), ∑ r : Fin 5000, rowTerm V c g j (5000 * t + r.val)
  | 0, hn => by
    rw [acc6_zero]
    refine (pay2_apply (hblk V c ⟨0, hn⟩) (idblk V c ⟨0, hn⟩) (k6_pay1 (F := Ideal)) g j).trans ?_
    rw [pay1_apply, zero_add, Finset.sum_range_one]
    exact Finset.sum_congr rfl fun r _ => tile_term V c ⟨0, hn⟩ g j r
  | n + 1, hn => by
    rw [acc6_succ]
    refine (pay2_apply (hblk V c ⟨n + 1, hn⟩) (idblk V c ⟨n + 1, hn⟩) (acc6 V c n (Nat.lt_of_succ_lt hn)) g j).trans ?_
    rw [acc_sum c g j n (Nat.lt_of_succ_lt hn), Finset.sum_range_succ _ (n + 1)]
    exact congrArg (_ + ·) (Finset.sum_congr rfl fun r _ => tile_term V c ⟨n + 1, hn⟩ g j r)

/-- After the last point: the sum over all 100000 rows, the twenty tiles of 5000 regrouped. -/
theorem acc_last (c : Dev nD) (g : Fin 512) (j : Fin 128) (h19 : 19 < cfg6.N) :
    acc6 V c 19 h19 (ix2 g j)
      = ∑ R : Fin 100000, if (idarr V c (ix2 R (0 : Fin 1))).toInt = (g.val : ℤ) then harr V c (ix2 R j) else 0 := by
  refine (acc_sum V c g j 19 h19).trans ?_
  refine (Finset.sum_congr rfl fun t _ => (Finset.sum_range fun r => rowTerm V c g j (5000 * t + r)).symm).trans ?_
  refine (sum_tiles (rowTerm V c g j) 5000 20).trans ?_
  show ∑ R ∈ Finset.range 100000, rowTerm V c g j R = _
  refine (Finset.sum_range _).trans ?_
  exact Finset.sum_congr rfl fun R _ => by unfold rowTerm; rw [dif_pos R.isLt]

/-! ## The host's side -/

/-- The host's scatter-add of the activations' rows by the column of ids into zeros, at (g, j): the sum of the
    activations (R, j) over the rows R whose id, read signed, is g. -/
theorem scatter_apply (c : Dev nD) (g : Fin 512) (j : Fin 128) :
    Host.scatterAdd (F := Ideal) Cert.ReferenceIdeal.scatter_S512x128_S100000x1_S100000x128_1_0_0_1
        (broadcastInDim Cert.ReferenceIdeal.S512x128 ![] Cert.ReferenceIdeal.Facts₀.bcast_S_S512x128 (constant (F := Ideal) Cert.ReferenceIdeal.S_ .f32 0x00000000#32))
        (V c main_v75) (V c main_v74) (ix2 g j)
      = ∑ R : Fin 100000, if (idarr V c (ix2 R (0 : Fin 1))).toInt = (g.val : ℤ) then harr V c (ix2 R j) else 0 := by
  refine (Cert.LibScatterRows.scatterAdd_rows_apply Cert.ReferenceIdeal.scatter_S512x128_S100000x1_S100000x128_1_0_0_1 rfl rfl rfl rfl
    (broadcastInDim Cert.ReferenceIdeal.S512x128 ![] Cert.ReferenceIdeal.Facts₀.bcast_S_S512x128 (constant (F := Ideal) Cert.ReferenceIdeal.S_ .f32 0x00000000#32))
    (idarr V c) (harr V c) g j).trans ?_
  show Ideal.ofBits .f32 0x00000000#32 + _ = _
  rw [Ideal.ofBits_zero_f32, zero_add]

/-! ## From the last point's block to the array -/

/-- WHAT THE FLUSHING POINT WRITES BACK is the host's scatter-add read through the output's block, which is the whole
    array: the flushing point is the last, and there the accumulator holds the sum over all rows. -/
theorem flushed_eq (c : Dev nD) (t : Fin cfg6.N) (hf : (cfg6.win 2).flush t = true) :
    (dat6 (F := Ideal) V c).flushed 2 t = ((cfg6.win 2).blk t).view.read (Elt Ideal)
      (Host.scatterAdd (F := Ideal) Cert.ReferenceIdeal.scatter_S512x128_S100000x1_S100000x128_1_0_0_1
        (broadcastInDim Cert.ReferenceIdeal.S512x128 ![] Cert.ReferenceIdeal.Facts₀.bcast_S_S512x128 (constant (F := Ideal) Cert.ReferenceIdeal.S_ .f32 0x00000000#32))
        (V c main_v75) (V c main_v74)) := by
  have ht : t.val < 20 := lt_of_lt_of_eq t.isLt N_6
  have h19 : t.val = 19 := by have := (flush6_2 t).mp hf; omega
  obtain ⟨-, -, -, -, e0, e1⟩ := idx_facts t
  show (cfg6.win 2).cut (grid6.coords t) ((dat6 (F := Ideal) V c).after 2 t) = _
  rw [after6_2]
  funext y
  have hy0 : (y 0).val < 512 := (y 0).isLt
  have hy1 : (y 1).val < 128 := (y 1).isLt
  show acc6 V c t.val t.isLt ((cfg6.win 2).xinj (grid6.coords t) y)
    = Host.scatterAdd (F := Ideal) Cert.ReferenceIdeal.scatter_S512x128_S100000x1_S100000x128_1_0_0_1
        (broadcastInDim Cert.ReferenceIdeal.S512x128 ![] Cert.ReferenceIdeal.Facts₀.bcast_S_S512x128 (constant (F := Ideal) Cert.ReferenceIdeal.S_ .f32 0x00000000#32))
        (V c main_v75) (V c main_v74) (((cfg6.win 2).blk t).view.emb y)
  have ex : (cfg6.win 2).xinj (grid6.coords t) y = ix2 (⟨(y 0).val, hy0⟩ : Fin 512) (⟨(y 1).val, hy1⟩ : Fin 128) :=
    funext fun a => Fin.ext (by
      match a with
      | ⟨0, _⟩ => rfl
      | ⟨1, _⟩ => rfl)
  have ee : ((cfg6.win 2).blk t).view.emb y = ix2 (⟨(y 0).val, hy0⟩ : Fin 512) (⟨(y 1).val, hy1⟩ : Fin 128) :=
    funext fun a => Fin.ext (by
      match a with
      | ⟨0, _⟩ => show win6_2.index t (0 : Fin 2) * 512 + 1 * (y 0).val = (y 0).val; omega
      | ⟨1, _⟩ => show win6_2.index t (1 : Fin 2) * 128 + 1 * (y 1).val = (y 1).val; omega)
  rw [ex, ee]
  have key : ∀ (n : ℕ) (hn : n < cfg6.N), n = 19 → ∀ (g : Fin 512) (j : Fin 128), acc6 V c n hn (ix2 g j)
      = Host.scatterAdd (F := Ideal) Cert.ReferenceIdeal.scatter_S512x128_S100000x1_S100000x128_1_0_0_1
        (broadcastInDim Cert.ReferenceIdeal.S512x128 ![] Cert.ReferenceIdeal.Facts₀.bcast_S_S512x128 (constant (F := Ideal) Cert.ReferenceIdeal.S_ .f32 0x00000000#32))
        (V c main_v75) (V c main_v74) (ix2 g j) := by
    intro n hn e g j
    subst e
    exact (acc_last V c g j hn).trans (scatter_apply V c g j).symm
  exact key t.val t.isLt h19 _ _

/-- An index of the array is in point t's block iff each coordinate is in the block's range on its axis. -/
theorem mem_blk (t : Fin cfg6.N) (i : S512x128.Idx) :
    i ∈ ((cfg6.win 2).blk t).view.set ↔ ∀ a : Fin 2, win6_2.index t a * S512x128.size a ≤ (i a).val ∧ (i a).val < win6_2.index t a * S512x128.size a + S512x128.size a := by
  show i ∈ ((View.whole main_v76).slice (win6_2.rect t)).set ↔ _
  rw [View.set_slice_whole, Rect.mem_set_unit]
  exact Iff.rfl

/-- Every index of the output array is in the block of the one point that writes back, the last. -/
theorem covered (i : S512x128.Idx) :
    ∃ t : Fin cfg6.N, (cfg6.win 2).flush t = true ∧ i ∈ ((cfg6.win 2).blk t).view.set := by
  have hN : 19 < cfg6.N := lt_of_lt_of_eq (by decide : 19 < 20) N_6.symm
  have hi0 : (i 0).val < 512 := (i 0).isLt
  have hi1 : (i 1).val < 128 := (i 1).isLt
  obtain ⟨-, -, -, -, e0, e1⟩ := idx_facts ⟨19, hN⟩
  refine ⟨⟨19, hN⟩, (flush6_2 ⟨19, hN⟩).mpr rfl, ?_⟩
  rw [mem_blk]
  intro a
  match a with
  | ⟨0, _⟩ => show win6_2.index ⟨19, hN⟩ (0 : Fin 2) * 512 ≤ (i 0).val ∧ (i 0).val < win6_2.index ⟨19, hN⟩ (0 : Fin 2) * 512 + 512; omega
  | ⟨1, _⟩ => show win6_2.index ⟨19, hN⟩ (1 : Fin 2) * 128 ≤ (i 1).val ∧ (i 1).val < win6_2.index ⟨19, hN⟩ (1 : Fin 2) * 128 + 128; omega

end Pool

theorem arr6 (c : Dev nD) : (dat6 (F := Ideal) V c).arrAt 2 cfg6.N
    = Host.scatterAdd (F := Ideal) Cert.ReferenceIdeal.scatter_S512x128_S100000x1_S100000x128_1_0_0_1
        (broadcastInDim Cert.ReferenceIdeal.S512x128 ![] Cert.ReferenceIdeal.Facts₀.bcast_S_S512x128 (constant (F := Ideal) Cert.ReferenceIdeal.S_ .f32 0x00000000#32))
        (V c main_v75) (V c main_v74) :=
  (dat6 (F := Ideal) V c).arrAt_eq_of_cover 2 _ (fun t hf => Pool.flushed_eq V c t hf) Pool.covered

end Cert.KernelIdeal.HandValue

end
-- ==== Proof.Val.Bridge.lean ====
/- The kernel's result is the specification's function of the argument arrays. Read backwards from the
   result: the head is the last host stretch's operations on the pooled sums; the pooled sums are the
   pooling region's array, the scatter-add of the third activations by the column of graph ids, which
   the host stretch before the region makes from the graph-id argument; the third activations come
   from the second, the second from the first, the first from the arguments. -/
import proofs.«401414_j12292196401223_1_alg».proof.Proof.KI.Fold
import proofs.«401414_j12292196401223_1_alg».proof.Proof.Val.Spec
import proofs.«401414_j12292196401223_1_alg».proof.Proof.Val.L3
import proofs.«401414_j12292196401223_1_alg».proof.Proof.Val.Pool
import Idealize.ShloMosaic.Lib.StableHlo.Run
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.StableHlo
open Cert.ReferenceIdeal.Spec
open Idealize.ShloMosaic.ValueIdx

variable (m : (ℓ : Loc nD τ sig) → Buf (Elt Ideal) ℓ) (ρ : Dev nD → PrngReg) (c : Dev nD)

set_option maxHeartbeats 8000000 in
/-- The host stretch before the pooling region lays the graph ids out as one column. -/
theorem bcol_eq : W11 m ρ c (Proc.devRef .tc main_v75) = batchCol (m ((c.tc : Thread nD τ).loc main_arg2)) := by
  have h : W11 m ρ c (Proc.devRef .tc main_v75) = shapeCast S100000x1 (W10 m ρ c (Proc.devRef .tc main_arg2)) Facts₀.shapeCasts_S100000_S100000x1 := by
    show StableHlo.after hostOps6 (W10 m ρ c) (Proc.devRef .tc main_v75) = _
    after_results; rfl
  rw [h, W10_main_arg2 m ρ c]
  exact col_eq _

/-- The pooling region leaves the sums of the third activations' rows by graph id. -/
theorem pool_fold : W12 m ρ c (Proc.devRef .tc main_v76)
    = poolOfCol (F := Ideal) (W11 m ρ c (Proc.devRef .tc main_v74)) (W11 m ρ c (Proc.devRef .tc main_v75)) :=
  (W12_arr m ρ c 2).trans (arr6 (V11 m ρ) c)

set_option maxHeartbeats 8000000 in
/-- The last host stretch is the specification's head of the pooled sums. -/
theorem tail_fold : W13 m ρ c (Proc.devRef .tc main_v89)
    = tailOf (F := Ideal) (W12 m ρ c (Proc.devRef .tc main_v76)) (W12 m ρ c (Proc.devRef .tc main_arg2))
        (W12 m ρ c (Proc.devRef .tc main_arg9)) (W12 m ρ c (Proc.devRef .tc main_arg10)) := by
  show StableHlo.after hostOps7 (W12 m ρ c) (Proc.devRef .tc main_v89) = _
  after_results; rfl

/-- THE KERNEL'S RESULT is the specification's function of the argument arrays. -/
theorem result_eq_G : W13 m ρ c (Proc.devRef .tc main_v89)
    = G (F := Ideal) (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) := by
  rw [tail_fold, pool_fold, bcol_eq, W11_keep m ρ c main_v74 (by decide), h3_step, h2_step, h1_eq,
    W12_main_arg2 m ρ c, W12_main_arg9 m ρ c, W12_main_arg10 m ρ c]
  rfl

end Cert.KernelIdeal.HandValue

end
-- ==== Proof.lean ====
/- A three-layer graph convolution with mean pooling and a linear head, as a TPU program of seven
   kernel launches among host operations, against the plain array program.

   Both compute, over the extended reals: append one self-loop per node to the edge list; give every
   edge the weight (in-count of its source)^(-1/2) · (in-count of its target)^(-1/2); per layer, multiply
   the node table by the layer's weights, gather the product's rows at the edges' sources, scale by the
   edge weights, sum into the targets' rows, add the bias and take the positive part; then sum the
   third activations' rows by graph id, divide each graph's row by max(node count, 1), multiply by the
   head's weights and add its bias.

   The kernel program differs in three places, each an equality of arrays at the exact instance:
   * a linear layer is twenty row tiles, each the matrix unit's product of the tile (narrowed to a
     16-bit format, which is the identity on extended reals) by the whole weight matrix into zeros: the
     tile's rows of the one whole product;
   * bias and positive part are applied tile by tile: pointwise, so tile by tile is the whole;
   * pooling is an accumulator over twenty row tiles of (indicator of "row's graph id = g") times the
     tile: for every graph g the sum over all rows with id g, since 0 · x = 0 and 1 · x = x for every
     extended real and sums may be regrouped; a row whose id is outside 0 … 511 meets no g, exactly as
     the host's scatter-add drops it.
   Everything else — the edge weights, the gathers, the scatter-adds, the head — is the same host
   operations in both programs; the kernel program computes the edge weights once, the reference once
   per layer, the same term.

   The frames: @main is thirteen items; each host stretch runs by its operations, each region by its
   pipeline with the body proved at a generic grid point (the pooling body in its two cases, first
   point and later point, the accumulator carried in the region's invariant); no item writes an
   argument. The word-level program and its idealization have the same text (no operation was
   rewritten), so the same frame proof serves both instances and `preserves` is trivial. -/
import proofs.«401414_j12292196401223_1_alg».proof.Defs
import proofs.«401414_j12292196401223_1_alg».proof.Proof.Gen.Kernel
import proofs.«401414_j12292196401223_1_alg».proof.Proof.Gen.KernelIdeal
import proofs.«401414_j12292196401223_1_alg».proof.Proof.Gen.ReferenceIdeal
import proofs.«401414_j12292196401223_1_alg».proof.Proof.Gen.Pre_finite_inputs
import proofs.«401414_j12292196401223_1_alg».proof.Proof.Gen.ReferenceIdeal.Run
import proofs.«401414_j12292196401223_1_alg».proof.Proof.K.Frame
import proofs.«401414_j12292196401223_1_alg».proof.Proof.KI.Frame
import proofs.«401414_j12292196401223_1_alg».proof.Proof.Val.RefG
import proofs.«401414_j12292196401223_1_alg».proof.Proof.Val.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the specification's function of the (agreeing) argument arrays. -/
theorem algebraic : Cert.algebraic_KernelIdeal_ReferenceIdeal := by
  intro m ρ m' ρ' _ hagree
  refine ⟨fun c => Cert.KernelIdeal.Hand.W13 (F := Ideal) m ρ c (Proc.devRef .tc Cert.KernelIdeal.main_v89),
    Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Spec.res_eq_G, h0, h1, h2, h3, h4, h5, h6, h7, h8, h9, h10]
  exact (Cert.KernelIdeal.HandValue.result_eq_G m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
